-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩
abbrev S1x600000 : Shape := ⟨2, ![1, 600000]⟩
abbrev S600000 : Shape := ⟨1, ![600000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  slices_S2x600000_S1x600000_0_0 : S2x600000.Slices ![0, 0] S1x600000
  shapeCasts_S1x600000_S600000 : S1x600000.ShapeCasts S600000
  bcast_S_S600000 : S_.BroadcastsInDim S600000 (![] : Fin 0 → Fin S600000.rank)
  reducesTo_S600000_S_d0 : S600000.ReducesTo [0] S_

variable [Facts]

def fn_part2 {F : FTy → Type} [FloatOps F] (main_arg1 : IVec S2x600000 32) (main_v33 : IVec S_ 1) : IVec S_ 1 :=
  let main_v34 : IVec S1x600000 32 := (extractStridedSlice S1x600000 ![0, 0] · slices_S2x600000_S1x600000_0_0) main_arg1
  let main_v35 : IVec S600000 32 := shapeCast S600000 main_v34 shapeCasts_S1x600000_S600000
  let main_c_12 : IVec S_ 32 := constantI S_ 32 4294917296#32
  let main_v36 : IVec S600000 32 := broadcastInDim S600000 ![] bcast_S_S600000 main_c_12
  let main_v37 : IVec S600000 1 := cmpi .sge main_v35 main_v36
  let main_v38 : IVec S1x600000 32 := (extractStridedSlice S1x600000 ![0, 0] · slices_S2x600000_S1x600000_0_0) main_arg1
  let main_v39 : IVec S600000 32 := shapeCast S600000 main_v38 shapeCasts_S1x600000_S600000
  let main_c_13 : IVec S_ 32 := constantI S_ 32 50000#32
  let main_v40 : IVec S600000 32 := broadcastInDim S600000 ![] bcast_S_S600000 main_c_13
  let main_v41 : IVec S600000 1 := cmpi .slt main_v39 main_v40
  let main_v42 : IVec S600000 1 := andi main_v37 main_v41
  let main_c_14 : IVec S_ 1 := constantI S_ 1 1#1
  let main_v43 : IVec S_ 1 := (fun x v => Host.reduce IntOp.andi x v reducesTo_S600000_S_d0 h_S_) main_v42 main_c_14
  let main_v44 : IVec S_ 1 := andi main_v33 main_v43
  main_v44

def fn_part1 {F : FTy → Type} [FloatOps F] (main_arg1 : IVec S2x600000 32) (main_arg5 : FVec F S128 .f32) (main_arg6 : FVec F S128x1 .f32) (main_arg7 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x1 .f32 := Host.absf main_arg6
  let main_cst_8 : FVec F S_ .f32 := constant S_ .f32 0x7F800000#32
  let main_v25 : FVec F S128x1 .f32 := broadcastInDim S128x1 ![] bcast_S_S128x1 main_cst_8
  let main_v26 : IVec S128x1 1 := cmpf .olt main_v24 main_v25
  let main_c_9 : IVec S_ 1 := constantI S_ 1 1#1
  let main_v27 : IVec S_ 1 := (fun x v => Host.reduce IntOp.andi x v reducesTo_S128x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg1 main_v33

def fn {F : FTy → Type} [FloatOps F] (main_arg0 : FVec F S50000x128 .f32) (main_arg1 : IVec S2x600000 32) (main_arg2 : FVec F S128x128 .f32) (main_arg3 : FVec F S128 .f32) (main_arg4 : FVec F S128x128 .f32) (main_arg5 : FVec F S128 .f32) (main_arg6 : FVec F S128x1 .f32) (main_arg7 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_arg5 main_arg6 main_arg7 main_v13 main_v16
-- ==== Kernel.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x600000 : Shape := ⟨2, ![1, 600000]⟩
abbrev S600000 : Shape := ⟨1, ![600000]⟩
abbrev S_ : Shape := ⟨0, ![]⟩
abbrev S50000 : Shape := ⟨1, ![50000]⟩
abbrev S600000x1 : Shape := ⟨2, ![600000, 1]⟩
abbrev S5000x128 : Shape := ⟨2, ![5000, 128]⟩
abbrev S1x1 : Shape := ⟨2, ![1, 1]⟩
abbrev S600000x128 : Shape := ⟨2, ![600000, 128]⟩
abbrev S50000x1 : Shape := ⟨2, ![50000, 1]⟩
abbrev S1x128 : Shape := ⟨2, ![1, 128]⟩
abbrev S5000x1 : Shape := ⟨2, ![5000, 1]⟩

abbrev nBuf : Space → Nat
  | .hbm => 150
  | .vmem => 42
  | .smem => 0
  | _ => 0

abbrev hbmTy0_0 (i : Nat) : BufTy := match i % 128 with
  | 0 => ⟨S50000x128, .f32⟩
  | 1 => ⟨S2x600000, .i32⟩
  | 2 => ⟨S128x128, .f32⟩
  | 3 => ⟨S128, .f32⟩
  | 4 => ⟨S128x128, .f32⟩
  | 5 => ⟨S128, .f32⟩
  | 6 => ⟨S128x1, .f32⟩
  | 7 => ⟨S1, .f32⟩
  | 8 => ⟨S1x600000, .i32⟩
  | 9 => ⟨S600000, .i32⟩
  | 10 => ⟨S1x600000, .i32⟩
  | 11 => ⟨S600000, .i32⟩
  | 12 => ⟨S_, .f32⟩
  | 13 => ⟨S50000, .f32⟩
  | 14 => ⟨S_, .i32⟩
  | 15 => ⟨S600000, .i32⟩
  | 16 => ⟨S600000, .i1⟩
  | 17 => ⟨S_, .i32⟩
  | 18 => ⟨S600000, .i32⟩
  | 19 => ⟨S600000, .i32⟩
  | 20 => ⟨S600000, .i32⟩
  | 21 => ⟨S600000x1, .i32⟩
  | 22 => ⟨S_, .f32⟩
  | 23 => ⟨S600000, .f32⟩
  | 24 => ⟨S50000, .f32⟩
  | 25 => ⟨S_, .f32⟩
  | 26 => ⟨S50000, .f32⟩
  | 27 => ⟨S50000, .f32⟩
  | 28 => ⟨S50000, .f32⟩
  | 29 => ⟨S_, .i32⟩
  | 30 => ⟨S600000, .i32⟩
  | 31 => ⟨S600000, .i1⟩
  | 32 => ⟨S_, .i32⟩
  | 33 => ⟨S600000, .i32⟩
  | 34 => ⟨S600000, .i32⟩
  | 35 => ⟨S600000, .i32⟩
  | 36 => ⟨S600000x1, .i32⟩
  | 37 => ⟨S600000, .f32⟩
  | 38 => ⟨S_, .i32⟩
  | 39 => ⟨S600000, .i32⟩
  | 40 => ⟨S600000, .i1⟩
  | 41 => ⟨S_, .i32⟩
  | 42 => ⟨S600000, .i32⟩
  | 43 => ⟨S600000, .i32⟩
  | 44 => ⟨S600000, .i32⟩
  | 45 => ⟨S600000x1, .i32⟩
  | 46 => ⟨S600000, .f32⟩
  | 47 => ⟨S600000, .f32⟩
  | 48 => ⟨S50000, .f32⟩
  | 49 => ⟨S50000x128, .f32⟩
  | 50 => ⟨S_, .i32⟩
  | 51 => ⟨S600000, .i32⟩
  | 52 => ⟨S600000, .i1⟩
  | 53 => ⟨S_, .i32⟩
  | 54 => ⟨S600000, .i32⟩
  | 55 => ⟨S600000, .i32⟩
  | 56 => ⟨S600000, .i32⟩
  | 57 => ⟨S600000x1, .i32⟩
  | 58 => ⟨S1, .i32⟩
  | 59 => ⟨S_, .i32⟩
  | 60 => ⟨S600000x1, .i32⟩
  | 61 => ⟨S600000x1, .i1⟩
  | 62 => ⟨S1x1, .i32⟩
  | 63 => ⟨S600000x1, .i32⟩
  | 64 => ⟨S600000x1, .i1⟩
  | 65 => ⟨S600000x1, .i1⟩
  | 66 => ⟨S_, .i1⟩
  | 67 => ⟨S600000, .i1⟩
  | 68 => ⟨S600000x128, .f32⟩
  | 69 => ⟨S600000x128, .i1⟩
  | 70 => ⟨S_, .f32⟩
  | 71 => ⟨S600000x128, .f32⟩
  | 72 => ⟨S600000x128, .f32⟩
  | 73 => ⟨S600000x1, .f32⟩
  | 74 => ⟨S600000x128, .f32⟩
  | 75 => ⟨S600000x128, .f32⟩
  | 76 => ⟨S_, .f32⟩
  | 77 => ⟨S50000x128, .f32⟩
  | 78 => ⟨S600000x1, .i32⟩
  | 79 => ⟨S50000x128, .f32⟩
  | 80 => ⟨S50000x1, .f32⟩
  | 81 => ⟨S1x128, .f32⟩
  | 82 => ⟨S50000x128, .f32⟩
  | 83 => ⟨S50000x128, .f32⟩
  | 84 => ⟨S_, .i32⟩
  | 85 => ⟨S600000, .i32⟩
  | 86 => ⟨S600000, .i1⟩
  | 87 => ⟨S_, .i32⟩
  | 88 => ⟨S600000, .i32⟩
  | 89 => ⟨S600000, .i32⟩
  | 90 => ⟨S600000, .i32⟩
  | 91 => ⟨S600000x1, .i32⟩
  | 92 => ⟨S1, .i32⟩
  | 93 => ⟨S_, .i32⟩
  | 94 => ⟨S600000x1, .i32⟩
  | 95 => ⟨S600000x1, .i1⟩
  | 96 => ⟨S1x1, .i32⟩
  | 97 => ⟨S600000x1, .i32⟩
  | 98 => ⟨S600000x1, .i1⟩
  | 99 => ⟨S600000x1, .i1⟩
  | 100 => ⟨S_, .i1⟩
  | 101 => ⟨S600000, .i1⟩
  | 102 => ⟨S600000x128, .f32⟩
  | 103 => ⟨S600000x128, .i1⟩
  | 104 => ⟨S_, .f32⟩
  | 105 => ⟨S600000x128, .f32⟩
  | 106 => ⟨S600000x128, .f32⟩
  | 107 => ⟨S600000x1, .f32⟩
  | 108 => ⟨S600000x128, .f32⟩
  | 109 => ⟨S600000x128, .f32⟩
  | 110 => ⟨S_, .f32⟩
  | 111 => ⟨S50000x128, .f32⟩
  | 112 => ⟨S600000x1, .i32⟩
  | 113 => ⟨S50000x128, .f32⟩
  | 114 => ⟨S50000x1, .f32⟩
  | 115 => ⟨S1x128, .f32⟩
  | 116 => ⟨S50000x128, .f32⟩
  | 117 => ⟨S50000x1, .f32⟩
  | 118 => ⟨S_, .i32⟩
  | 119 => ⟨S600000, .i32⟩
  | 120 => ⟨S600000, .i1⟩
  | 121 => ⟨S_, .i32⟩
  | 122 => ⟨S600000, .i32⟩
  | 123 => ⟨S600000, .i32⟩
  | 124 => ⟨S600000, .i32⟩
  | 125 => ⟨S600000x1, .i32⟩
  | 126 => ⟨S1, .i32⟩
  | 127 => ⟨S_, .i32⟩
  | _ => ⟨S50000x128, .f32⟩

abbrev hbmTy0_1 (i : Nat) : BufTy := match i % 128 with
  | 0 => ⟨S600000x1, .i32⟩
  | 1 => ⟨S600000x1, .i1⟩
  | 2 => ⟨S1x1, .i32⟩
  | 3 => ⟨S600000x1, .i32⟩
  | 4 => ⟨S600000x1, .i1⟩
  | 5 => ⟨S600000x1, .i1⟩
  | 6 => ⟨S_, .i1⟩
  | 7 => ⟨S600000, .i1⟩
  | 8 => ⟨S600000x1, .f32⟩
  | 9 => ⟨S600000x1, .i1⟩
  | 10 => ⟨S_, .f32⟩
  | 11 => ⟨S600000x1, .f32⟩
  | 12 => ⟨S600000x1, .f32⟩
  | 13 => ⟨S600000x1, .f32⟩
  | 14 => ⟨S600000x1, .f32⟩
  | 15 => ⟨S_, .f32⟩
  | 16 => ⟨S50000x1, .f32⟩
  | 17 => ⟨S600000x1, .i32⟩
  | 18 => ⟨S50000x1, .f32⟩
  | 19 => ⟨S50000x1, .f32⟩
  | 20 => ⟨S1x1, .f32⟩
  | 21 => ⟨S50000x1, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x1, .f32⟩
  | .local _ .vmem, ⟨24, _⟩ => ⟨S5000x1, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S128x1, .f32⟩
  | .local _ .vmem, ⟨31, _⟩ => ⟨S5000x1, .f32⟩
  | .local _ .vmem, ⟨32, _⟩ => ⟨S5000x1, .f32⟩
  | .local _ .vmem, ⟨33, _⟩ => ⟨S5000x1, .f32⟩
  | .local _ .vmem, ⟨34, _⟩ => ⟨S5000x1, .f32⟩
  | .local _ .vmem, ⟨35, _⟩ => ⟨S5000x1, .f32⟩
  | .local _ .vmem, ⟨36, _⟩ => ⟨S5000x1, .f32⟩
  | .local _ .vmem, ⟨37, _⟩ => ⟨S5000x1, .f32⟩
  | .local _ .vmem, ⟨38, _⟩ => ⟨S5000x1, .f32⟩
  | .local _ .vmem, ⟨39, _⟩ => ⟨S1x1, .f32⟩
  | .local _ .vmem, ⟨40, _⟩ => ⟨S5000x1, .f32⟩
  | .local _ .vmem, ⟨41, _⟩ => ⟨S5000x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_c : Ref sig .tc := ⟨.hbm, 14, rfl⟩
abbrev main_v5 : Ref sig .tc := ⟨.hbm, 15, rfl⟩
abbrev main_v6 : Ref sig .tc := ⟨.hbm, 16, rfl⟩
abbrev main_c_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_c_3 : Ref sig .tc := ⟨.hbm, 29, rfl⟩
abbrev main_v16 : Ref sig .tc := ⟨.hbm, 30, rfl⟩
abbrev main_v17 : Ref sig .tc := ⟨.hbm, 31, rfl⟩
abbrev main_c_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_5 : Ref sig .tc := ⟨.hbm, 38, rfl⟩
abbrev main_v23 : Ref sig .tc := ⟨.hbm, 39, rfl⟩
abbrev main_v24 : Ref sig .tc := ⟨.hbm, 40, rfl⟩
abbrev main_c_6 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_call0_c : Ref sig .tc := ⟨.hbm, 50, rfl⟩
abbrev main_call0_v0 : Ref sig .tc := ⟨.hbm, 51, rfl⟩
abbrev main_call0_v1 : Ref sig .tc := ⟨.hbm, 52, rfl⟩
abbrev main_call0_c_0 : Ref sig .tc := ⟨.hbm, 53, rfl⟩
abbrev main_call0_v2 : Ref sig .tc := ⟨.hbm, 54, rfl⟩
abbrev main_call0_v3 : Ref sig .tc := ⟨.hbm, 55, rfl⟩
abbrev main_call0_v4 : Ref sig .tc := ⟨.hbm, 56, rfl⟩
abbrev main_call0_v5 : Ref sig .tc := ⟨.hbm, 57, rfl⟩
abbrev main_call0_c_1 : Ref sig .tc := ⟨.hbm, 58, rfl⟩
abbrev main_call0_c_2 : Ref sig .tc := ⟨.hbm, 59, rfl⟩
abbrev main_call0_v6 : Ref sig .tc := ⟨.hbm, 60, rfl⟩
abbrev main_call0_v7 : Ref sig .tc := ⟨.hbm, 61, rfl⟩
abbrev main_call0_v8 : Ref sig .tc := ⟨.hbm, 62, rfl⟩
abbrev main_call0_v9 : Ref sig .tc := ⟨.hbm, 63, rfl⟩
abbrev main_call0_v10 : Ref sig .tc := ⟨.hbm, 64, rfl⟩
abbrev main_call0_v11 : Ref sig .tc := ⟨.hbm, 65, rfl⟩
abbrev main_call0_c_3 : Ref sig .tc := ⟨.hbm, 66, rfl⟩
abbrev main_call0_v12 : Ref sig .tc := ⟨.hbm, 67, rfl⟩
abbrev main_call0_v13 : Ref sig .tc := ⟨.hbm, 68, rfl⟩
abbrev main_call0_v14 : Ref sig .tc := ⟨.hbm, 69, rfl⟩
abbrev main_call0_cst : Ref sig .tc := ⟨.hbm, 70, rfl⟩
abbrev main_call0_v15 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_cst_7 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_call1_c : Ref sig .tc := ⟨.hbm, 84, rfl⟩
abbrev main_call1_v0 : Ref sig .tc := ⟨.hbm, 85, rfl⟩
abbrev main_call1_v1 : Ref sig .tc := ⟨.hbm, 86, rfl⟩
abbrev main_call1_c_0 : Ref sig .tc := ⟨.hbm, 87, rfl⟩
abbrev main_call1_v2 : Ref sig .tc := ⟨.hbm, 88, rfl⟩
abbrev main_call1_v3 : Ref sig .tc := ⟨.hbm, 89, rfl⟩
abbrev main_call1_v4 : Ref sig .tc := ⟨.hbm, 90, rfl⟩
abbrev main_call1_v5 : Ref sig .tc := ⟨.hbm, 91, rfl⟩
abbrev main_call1_c_1 : Ref sig .tc := ⟨.hbm, 92, rfl⟩
abbrev main_call1_c_2 : Ref sig .tc := ⟨.hbm, 93, rfl⟩
abbrev main_call1_v6 : Ref sig .tc := ⟨.hbm, 94, rfl⟩
abbrev main_call1_v7 : Ref sig .tc := ⟨.hbm, 95, rfl⟩
abbrev main_call1_v8 : Ref sig .tc := ⟨.hbm, 96, rfl⟩
abbrev main_call1_v9 : Ref sig .tc := ⟨.hbm, 97, rfl⟩
abbrev main_call1_v10 : Ref sig .tc := ⟨.hbm, 98, rfl⟩
abbrev main_call1_v11 : Ref sig .tc := ⟨.hbm, 99, rfl⟩
abbrev main_call1_c_3 : Ref sig .tc := ⟨.hbm, 100, rfl⟩
abbrev main_call1_v12 : Ref sig .tc := ⟨.hbm, 101, rfl⟩
abbrev main_call1_v13 : Ref sig .tc := ⟨.hbm, 102, rfl⟩
abbrev main_call1_v14 : Ref sig .tc := ⟨.hbm, 103, rfl⟩
abbrev main_call1_cst : Ref sig .tc := ⟨.hbm, 104, rfl⟩
abbrev main_call1_v15 : Ref sig .tc := ⟨.hbm, 105, rfl⟩
abbrev main_v44 : Ref sig .tc := ⟨.hbm, 106, rfl⟩
abbrev main_v45 : Ref sig .tc := ⟨.hbm, 107, rfl⟩
abbrev main_v46 : Ref sig .tc := ⟨.hbm, 108, rfl⟩
abbrev main_v47 : Ref sig .tc := ⟨.hbm, 109, rfl⟩
abbrev main_cst_8 : Ref sig .tc := ⟨.hbm, 110, rfl⟩
abbrev main_v48 : Ref sig .tc := ⟨.hbm, 111, rfl⟩
abbrev main_v49 : Ref sig .tc := ⟨.hbm, 112, rfl⟩
abbrev main_v50 : Ref sig .tc := ⟨.hbm, 113, rfl⟩
abbrev main_v51 : Ref sig .tc := ⟨.hbm, 114, rfl⟩
abbrev main_v52 : Ref sig .tc := ⟨.hbm, 115, rfl⟩
abbrev main_v53 : Ref sig .tc := ⟨.hbm, 116, rfl⟩
abbrev main_v54 : Ref sig .tc := ⟨.hbm, 117, rfl⟩
abbrev main_call2_c : Ref sig .tc := ⟨.hbm, 118, rfl⟩
abbrev main_call2_v0 : Ref sig .tc := ⟨.hbm, 119, rfl⟩
abbrev main_call2_v1 : Ref sig .tc := ⟨.hbm, 120, rfl⟩
abbrev main_call2_c_0 : Ref sig .tc := ⟨.hbm, 121, rfl⟩
abbrev main_call2_v2 : Ref sig .tc := ⟨.hbm, 122, rfl⟩
abbrev main_call2_v3 : Ref sig .tc := ⟨.hbm, 123, rfl⟩
abbrev main_call2_v4 : Ref sig .tc := ⟨.hbm, 124, rfl⟩
abbrev main_call2_v5 : Ref sig .tc := ⟨.hbm, 125, rfl⟩
abbrev main_call2_c_1 : Ref sig .tc := ⟨.hbm, 126, rfl⟩
abbrev main_call2_c_2 : Ref sig .tc := ⟨.hbm, 127, rfl⟩
abbrev main_call2_v6 : Ref sig .tc := ⟨.hbm, 128, rfl⟩
abbrev main_call2_v7 : Ref sig .tc := ⟨.hbm, 129, rfl⟩
abbrev main_call2_v8 : Ref sig .tc := ⟨.hbm, 130, rfl⟩
abbrev main_call2_v9 : Ref sig .tc := ⟨.hbm, 131, rfl⟩
abbrev main_call2_v10 : Ref sig .tc := ⟨.hbm, 132, rfl⟩
abbrev main_call2_v11 : Ref sig .tc := ⟨.hbm, 133, rfl⟩
abbrev main_call2_c_3 : Ref sig .tc := ⟨.hbm, 134, rfl⟩
abbrev main_call2_v12 : Ref sig .tc := ⟨.hbm, 135, rfl⟩
abbrev main_call2_v13 : Ref sig .tc := ⟨.hbm, 136, rfl⟩
abbrev main_call2_v14 : Ref sig .tc := ⟨.hbm, 137, rfl⟩
abbrev main_call2_cst : Ref sig .tc := ⟨.hbm, 138, rfl⟩
abbrev main_call2_v15 : Ref sig .tc := ⟨.hbm, 139, rfl⟩
abbrev main_v55 : Ref sig .tc := ⟨.hbm, 140, rfl⟩
abbrev main_v56 : Ref sig .tc := ⟨.hbm, 141, rfl⟩
abbrev main_v57 : Ref sig .tc := ⟨.hbm, 142, rfl⟩
abbrev main_cst_9 : Ref sig .tc := ⟨.hbm, 143, rfl⟩
abbrev main_v58 : Ref sig .tc := ⟨.hbm, 144, rfl⟩
abbrev main_v59 : Ref sig .tc := ⟨.hbm, 145, rfl⟩
abbrev main_v60 : Ref sig .tc := ⟨.hbm, 146, rfl⟩
abbrev main_v61 : Ref sig .tc := ⟨.hbm, 147, rfl⟩
abbrev main_v62 : Ref sig .tc := ⟨.hbm, 148, rfl⟩
abbrev main_v63 : Ref sig .tc := ⟨.hbm, 149, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg1_1 : Ref sig .tc := ⟨.vmem, 36, rfl⟩
abbrev cc5_stg2_0 : Ref sig .tc := ⟨.vmem, 37, rfl⟩
abbrev cc5_stg2_1 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg4_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem1_1 : DmaSem sig := 36
abbrev cc5_sem2_0 : DmaSem sig := 37
abbrev cc5_sem2_1 : DmaSem sig := 38
abbrev cc5_sem3_0 : DmaSem sig := 39
abbrev cc5_sem4_0 : DmaSem sig := 40
abbrev cc5_sem4_1 : DmaSem sig := 41

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x1 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x1 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x1 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x1 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S50000 : S_.BroadcastsInDim S50000 (![] : Fin 0 → Fin S50000.rank)
  bcast_S_S600000 : S_.BroadcastsInDim S600000 (![] : Fin 0 → Fin S600000.rank)
  bcast_S600000_S600000x1_0 : S600000.BroadcastsInDim S600000x1 (![0] : Fin 1 → Fin S600000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S600000x1 : S_.BroadcastsInDim S600000x1 (![] : Fin 0 → Fin S600000x1.rank)
  bcast_S1_S1x1_1 : S1.BroadcastsInDim S1x1 (![1] : Fin 1 → Fin S1x1.rank)
  bcast_S1x1_S600000x1_0_1 : S1x1.BroadcastsInDim S600000x1 (![0, 1] : Fin 2 → Fin S600000x1.rank)
  reducesTo_S600000x1_S600000_d1 : S600000x1.ReducesTo [1] S600000
  h_S_ : 0 < S_.numel
  bcast_S600000_S600000x128_0 : S600000.BroadcastsInDim S600000x128 (![0] : Fin 1 → Fin S600000x128.rank)
  bcast_S_S600000x128 : S_.BroadcastsInDim S600000x128 (![] : Fin 0 → Fin S600000x128.rank)
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  shapeCasts_S50000_S50000x1 : S50000.ShapeCasts S50000x1
  shapeCasts_S128_S1x128 : S128.ShapeCasts S1x128
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S5000x1_S5000x128 : S5000x1.Broadcasts S5000x128
  broadcasts_S1x128_S5000x128 : S1x128.Broadcasts S5000x128
  inb_S128x1_S128x1_0_0 : ∀ a, (![0, 0] : Fin 2 → Nat) a + S128x1.size a ≤ S128x1.size a
  h_S128x1 : 0 < S128x1.numel
  bcast_S_S50000x1 : S_.BroadcastsInDim S50000x1 (![] : Fin 0 → Fin S50000x1.rank)
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  scatter_S50000_S600000x1_S600000_n_0_0_1_wf : ScatterDims.WF S50000 S600000x1 S600000 [] [0] [0] 1
  gather_S50000_S600000x1_S600000_n_0_n_n_0_1_1_wf : GatherDims.WF S50000 S600000x1 S600000 [] [0] [] [0] [] 1 ![1]
  dot_S5000x128_S128x128_S5000x128_1_0_0_1_n_n_wf : DotDims.WF S5000x128 S128x128 S5000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S5000x128_S128x1_S5000x1_1_0_0_1_n_n_wf : DotDims.WF S5000x128 S128x1 S5000x1 [1] [0] [0] [1] [] []
  gather_S50000x1_S600000x1_S600000x1_1_0_n_n_0_1_11_wf : GatherDims.WF S50000x1 S600000x1 S600000x1 [1] [0] [] [0] [] 1 ![1, 1]
  scatter_S50000x1_S600000x1_S600000x1_1_0_0_1_wf : ScatterDims.WF S50000x1 S600000x1 S600000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S50000x1.size a
  hwx3_2 : ∀ i : grid3.Coords, EltTy.bits .f32 = 32 ∨ (Rect.block (s := S50000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S50000x128.size a
  hwx3_4 : ∀ i : grid3.Coords, EltTy.bits .f32 = 32 ∨ (Rect.block (s := S50000x128) S5000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x1.size a ≤ S128x1.size a
  hwx4_1 : ∀ i : grid4.Coords, EltTy.bits .f32 = 32 ∨ (Rect.block (s := S128x1) S128x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x1.size a ≤ S50000x1.size a
  hwx4_2 : ∀ i : grid4.Coords, EltTy.bits .f32 = 32 ∨ (Rect.block (s := S50000x1) S5000x1.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x1.size a ≤ S50000x1.size a
  hwx5_0 : ∀ i : grid5.Coords, EltTy.bits .f32 = 32 ∨ (Rect.block (s := S50000x1) S5000x1.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x1.size a ≤ S50000x1.size a
  hwx5_1 : ∀ i : grid5.Coords, EltTy.bits .f32 = 32 ∨ (Rect.block (s := S50000x1) S5000x1.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x1.size a ≤ S50000x1.size a
  hwx5_2 : ∀ i : grid5.Coords, EltTy.bits .f32 = 32 ∨ (Rect.block (s := S50000x1) S5000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x1.size a ≤ S1x1.size a
  hwx5_3 : ∀ i : grid5.Coords, EltTy.bits .f32 = 32 ∨ (Rect.block (s := S1x1) S1x1.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x1.size a ≤ S50000x1.size a
  hwx5_4 : ∀ i : grid5.Coords, EltTy.bits .f32 = 32 ∨ (Rect.block (s := S50000x1) S5000x1.size (cc5_transform_4 i) (hinb5_4 i)).WholeWords (EltTy.packing .f32)

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000_S600000x1_S600000_n_0_n_n_0_1_1 : GatherDims S50000 S600000x1 S600000 where
  offsetDims := []
  collapsedSliceDims := [0]
  operandBatchingDims := []
  startIndicesBatchingDims := []
  startIndexMap := [0]
  indexVectorDim := 1
  sliceSizes := ![1]
  wf := gather_S50000_S600000x1_S600000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf
def gather_S50000x1_S600000x1_S600000x1_1_0_n_n_0_1_11 : GatherDims S50000x1 S600000x1 S600000x1 where
  offsetDims := [1]
  collapsedSliceDims := [0]
  operandBatchingDims := []
  startIndicesBatchingDims := []
  startIndexMap := [0]
  indexVectorDim := 1
  sliceSizes := ![1, 1]
  wf := gather_S50000x1_S600000x1_S600000x1_1_0_n_n_0_1_11_wf
def scatter_S50000x1_S600000x1_S600000x1_1_0_0_1 : ScatterDims S50000x1 S600000x1 S600000x1 where
  updateWindowDims := [1]
  insertedWindowDims := [0]
  scatterDimsToOperandDims := [0]
  indexVectorDim := 1
  wf := scatter_S50000x1_S600000x1_S600000x1_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v39) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v40) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v41) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v42) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v42) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v43) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v50) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v43) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v51) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v52) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v53) S5000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v53) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x1.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v54) S5000x1.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v60) S5000x1.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v54) S5000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v61) S5000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v62) S1x1.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v63) S5000x1.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x600000 : Shape := ⟨2, ![1, 600000]⟩
abbrev S600000 : Shape := ⟨1, ![600000]⟩
abbrev S_ : Shape := ⟨0, ![]⟩
abbrev S50000 : Shape := ⟨1, ![50000]⟩
abbrev S600000x1 : Shape := ⟨2, ![600000, 1]⟩
abbrev S600000x128 : Shape := ⟨2, ![600000, 128]⟩
abbrev S50000x1 : Shape := ⟨2, ![50000, 1]⟩
abbrev S1x128 : Shape := ⟨2, ![1, 128]⟩
abbrev S1x1 : Shape := ⟨2, ![1, 1]⟩

abbrev nBuf : Space → Nat
  | .hbm => 128
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x1, .f32⟩
  | .hbm, ⟨7, _⟩ => ⟨S1, .f32⟩
  | .hbm, ⟨8, _⟩ => ⟨S1x600000, .i32⟩
  | .hbm, ⟨9, _⟩ => ⟨S600000, .i32⟩
  | .hbm, ⟨10, _⟩ => ⟨S1x600000, .i32⟩
  | .hbm, ⟨11, _⟩ => ⟨S600000, .i32⟩
  | .hbm, ⟨12, _⟩ => ⟨S_, .f32⟩
  | .hbm, ⟨13, _⟩ => ⟨S50000, .f32⟩
  | .hbm, ⟨14, _⟩ => ⟨S_, .i32⟩
  | .hbm, ⟨15, _⟩ => ⟨S600000, .i32⟩
  | .hbm, ⟨16, _⟩ => ⟨S600000, .i1⟩
  | .hbm, ⟨17, _⟩ => ⟨S_, .i32⟩
  | .hbm, ⟨18, _⟩ => ⟨S600000, .i32⟩
  | .hbm, ⟨19, _⟩ => ⟨S600000, .i32⟩
  | .hbm, ⟨20, _⟩ => ⟨S600000, .i32⟩
  | .hbm, ⟨21, _⟩ => ⟨S600000x1, .i32⟩
  | .hbm, ⟨22, _⟩ => ⟨S_, .f32⟩
  | .hbm, ⟨23, _⟩ => ⟨S600000, .f32⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S600000, .i32⟩
  | .hbm, ⟨31, _⟩ => ⟨S600000, .i1⟩
  | .hbm, ⟨32, _⟩ => ⟨S_, .i32⟩
  | .hbm, ⟨33, _⟩ => ⟨S600000, .i32⟩
  | .hbm, ⟨34, _⟩ => ⟨S600000, .i32⟩
  | .hbm, ⟨35, _⟩ => ⟨S600000, .i32⟩
  | .hbm, ⟨36, _⟩ => ⟨S600000x1, .i32⟩
  | .hbm, ⟨37, _⟩ => ⟨S600000, .f32⟩
  | .hbm, ⟨38, _⟩ => ⟨S_, .i32⟩
  | .hbm, ⟨39, _⟩ => ⟨S600000, .i32⟩
  | .hbm, ⟨40, _⟩ => ⟨S600000, .i1⟩
  | .hbm, ⟨41, _⟩ => ⟨S_, .i32⟩
  | .hbm, ⟨42, _⟩ => ⟨S600000, .i32⟩
  | .hbm, ⟨43, _⟩ => ⟨S600000, .i32⟩
  | .hbm, ⟨44, _⟩ => ⟨S600000, .i32⟩
  | .hbm, ⟨45, _⟩ => ⟨S600000x1, .i32⟩
  | .hbm, ⟨46, _⟩ => ⟨S600000, .f32⟩
  | .hbm, ⟨47, _⟩ => ⟨S600000, .f32⟩
  | .hbm, ⟨48, _⟩ => ⟨S50000, .f32⟩
  | .hbm, ⟨49, _⟩ => ⟨S50000x128, .f32⟩
  | .hbm, ⟨50, _⟩ => ⟨S_, .i32⟩
  | .hbm, ⟨51, _⟩ => ⟨S600000, .i32⟩
  | .hbm, ⟨52, _⟩ => ⟨S600000, .i1⟩
  | .hbm, ⟨53, _⟩ => ⟨S_, .i32⟩
  | .hbm, ⟨54, _⟩ => ⟨S600000, .i32⟩
  | .hbm, ⟨55, _⟩ => ⟨S600000, .i32⟩
  | .hbm, ⟨56, _⟩ => ⟨S600000, .i32⟩
  | .hbm, ⟨57, _⟩ => ⟨S600000x1, .i32⟩
  | .hbm, ⟨58, _⟩ => ⟨S600000x128, .f32⟩
  | .hbm, ⟨59, _⟩ => ⟨S600000x1, .f32⟩
  | .hbm, ⟨60, _⟩ => ⟨S600000x128, .f32⟩
  | .hbm, ⟨61, _⟩ => ⟨S600000x128, .f32⟩
  | .hbm, ⟨62, _⟩ => ⟨S_, .f32⟩
  | .hbm, ⟨63, _⟩ => ⟨S50000x128, .f32⟩
  | .hbm, ⟨64, _⟩ => ⟨S600000x1, .i32⟩
  | .hbm, ⟨65, _⟩ => ⟨S50000x128, .f32⟩
  | .hbm, ⟨66, _⟩ => ⟨S50000x1, .f32⟩
  | .hbm, ⟨67, _⟩ => ⟨S50000x128, .f32⟩
  | .hbm, ⟨68, _⟩ => ⟨S50000x128, .f32⟩
  | .hbm, ⟨69, _⟩ => ⟨S50000x128, .f32⟩
  | .hbm, ⟨70, _⟩ => ⟨S1x128, .f32⟩
  | .hbm, ⟨71, _⟩ => ⟨S50000x128, .f32⟩
  | .hbm, ⟨72, _⟩ => ⟨S50000x128, .f32⟩
  | .hbm, ⟨73, _⟩ => ⟨S_, .f32⟩
  | .hbm, ⟨74, _⟩ => ⟨S50000x128, .f32⟩
  | .hbm, ⟨75, _⟩ => ⟨S50000x128, .f32⟩
  | .hbm, ⟨76, _⟩ => ⟨S50000x128, .f32⟩
  | .hbm, ⟨77, _⟩ => ⟨S_, .i32⟩
  | .hbm, ⟨78, _⟩ => ⟨S600000, .i32⟩
  | .hbm, ⟨79, _⟩ => ⟨S600000, .i1⟩
  | .hbm, ⟨80, _⟩ => ⟨S_, .i32⟩
  | .hbm, ⟨81, _⟩ => ⟨S600000, .i32⟩
  | .hbm, ⟨82, _⟩ => ⟨S600000, .i32⟩
  | .hbm, ⟨83, _⟩ => ⟨S600000, .i32⟩
  | .hbm, ⟨84, _⟩ => ⟨S600000x1, .i32⟩
  | .hbm, ⟨85, _⟩ => ⟨S600000x128, .f32⟩
  | .hbm, ⟨86, _⟩ => ⟨S600000x1, .f32⟩
  | .hbm, ⟨87, _⟩ => ⟨S600000x128, .f32⟩
  | .hbm, ⟨88, _⟩ => ⟨S600000x128, .f32⟩
  | .hbm, ⟨89, _⟩ => ⟨S_, .f32⟩
  | .hbm, ⟨90, _⟩ => ⟨S50000x128, .f32⟩
  | .hbm, ⟨91, _⟩ => ⟨S600000x1, .i32⟩
  | .hbm, ⟨92, _⟩ => ⟨S50000x128, .f32⟩
  | .hbm, ⟨93, _⟩ => ⟨S50000x1, .f32⟩
  | .hbm, ⟨94, _⟩ => ⟨S50000x128, .f32⟩
  | .hbm, ⟨95, _⟩ => ⟨S50000x128, .f32⟩
  | .hbm, ⟨96, _⟩ => ⟨S50000x128, .f32⟩
  | .hbm, ⟨97, _⟩ => ⟨S1x128, .f32⟩
  | .hbm, ⟨98, _⟩ => ⟨S50000x128, .f32⟩
  | .hbm, ⟨99, _⟩ => ⟨S50000x128, .f32⟩
  | .hbm, ⟨100, _⟩ => ⟨S_, .f32⟩
  | .hbm, ⟨101, _⟩ => ⟨S50000x128, .f32⟩
  | .hbm, ⟨102, _⟩ => ⟨S50000x128, .f32⟩
  | .hbm, ⟨103, _⟩ => ⟨S50000x1, .f32⟩
  | .hbm, ⟨104, _⟩ => ⟨S_, .i32⟩
  | .hbm, ⟨105, _⟩ => ⟨S600000, .i32⟩
  | .hbm, ⟨106, _⟩ => ⟨S600000, .i1⟩
  | .hbm, ⟨107, _⟩ => ⟨S_, .i32⟩
  | .hbm, ⟨108, _⟩ => ⟨S600000, .i32⟩
  | .hbm, ⟨109, _⟩ => ⟨S600000, .i32⟩
  | .hbm, ⟨110, _⟩ => ⟨S600000, .i32⟩
  | .hbm, ⟨111, _⟩ => ⟨S600000x1, .i32⟩
  | .hbm, ⟨112, _⟩ => ⟨S600000x1, .f32⟩
  | .hbm, ⟨113, _⟩ => ⟨S600000x1, .f32⟩
  | .hbm, ⟨114, _⟩ => ⟨S600000x1, .f32⟩
  | .hbm, ⟨115, _⟩ => ⟨S_, .f32⟩
  | .hbm, ⟨116, _⟩ => ⟨S50000x1, .f32⟩
  | .hbm, ⟨117, _⟩ => ⟨S600000x1, .i32⟩
  | .hbm, ⟨118, _⟩ => ⟨S50000x1, .f32⟩
  | .hbm, ⟨119, _⟩ => ⟨S50000x1, .f32⟩
  | .hbm, ⟨120, _⟩ => ⟨S50000x1, .f32⟩
  | .hbm, ⟨121, _⟩ => ⟨S50000x1, .f32⟩
  | .hbm, ⟨122, _⟩ => ⟨S1x1, .f32⟩
  | .hbm, ⟨123, _⟩ => ⟨S50000x1, .f32⟩
  | .hbm, ⟨124, _⟩ => ⟨S50000x1, .f32⟩
  | .hbm, ⟨125, _⟩ => ⟨S_, .f32⟩
  | .hbm, ⟨126, _⟩ => ⟨S50000x1, .f32⟩
  | .hbm, ⟨127, _⟩ => ⟨S50000x1, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_c : Ref sig .tc := ⟨.hbm, 14, rfl⟩
abbrev main_v5 : Ref sig .tc := ⟨.hbm, 15, rfl⟩
abbrev main_v6 : Ref sig .tc := ⟨.hbm, 16, rfl⟩
abbrev main_c_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_c_3 : Ref sig .tc := ⟨.hbm, 29, rfl⟩
abbrev main_v16 : Ref sig .tc := ⟨.hbm, 30, rfl⟩
abbrev main_v17 : Ref sig .tc := ⟨.hbm, 31, rfl⟩
abbrev main_c_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_5 : Ref sig .tc := ⟨.hbm, 38, rfl⟩
abbrev main_v23 : Ref sig .tc := ⟨.hbm, 39, rfl⟩
abbrev main_v24 : Ref sig .tc := ⟨.hbm, 40, rfl⟩
abbrev main_c_6 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_call0_cst : Ref sig .tc := ⟨.hbm, 73, rfl⟩
abbrev main_call0_v0 : Ref sig .tc := ⟨.hbm, 74, rfl⟩
abbrev main_v53 : Ref sig .tc := ⟨.hbm, 75, rfl⟩
abbrev main_v54 : Ref sig .tc := ⟨.hbm, 76, rfl⟩
abbrev main_c_10 : Ref sig .tc := ⟨.hbm, 77, rfl⟩
abbrev main_v55 : Ref sig .tc := ⟨.hbm, 78, rfl⟩
abbrev main_v56 : Ref sig .tc := ⟨.hbm, 79, rfl⟩
abbrev main_c_11 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_12 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_call1_cst : Ref sig .tc := ⟨.hbm, 100, rfl⟩
abbrev main_call1_v0 : Ref sig .tc := ⟨.hbm, 101, rfl⟩
abbrev main_v75 : Ref sig .tc := ⟨.hbm, 102, rfl⟩
abbrev main_v76 : Ref sig .tc := ⟨.hbm, 103, rfl⟩
abbrev main_c_13 : Ref sig .tc := ⟨.hbm, 104, rfl⟩
abbrev main_v77 : Ref sig .tc := ⟨.hbm, 105, rfl⟩
abbrev main_v78 : Ref sig .tc := ⟨.hbm, 106, rfl⟩
abbrev main_c_14 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_cst_15 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_call2_cst : Ref sig .tc := ⟨.hbm, 125, rfl⟩
abbrev main_call2_v0 : Ref sig .tc := ⟨.hbm, 126, rfl⟩
abbrev main_v95 : Ref sig .tc := ⟨.hbm, 127, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S50000 : S_.BroadcastsInDim S50000 (![] : Fin 0 → Fin S50000.rank)
  bcast_S_S600000 : S_.BroadcastsInDim S600000 (![] : Fin 0 → Fin S600000.rank)
  bcast_S600000_S600000x1_0 : S600000.BroadcastsInDim S600000x1 (![0] : Fin 1 → Fin S600000x1.rank)
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x1 : S_.BroadcastsInDim S50000x1 (![] : Fin 0 → Fin S50000x1.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  scatter_S50000_S600000x1_S600000_n_0_0_1_wf : ScatterDims.WF S50000 S600000x1 S600000 [] [0] [0] 1
  gather_S50000_S600000x1_S600000_n_0_n_n_0_1_1_wf : GatherDims.WF S50000 S600000x1 S600000 [] [0] [] [0] [] 1 ![1]
  dot_S50000x128_S128x128_S50000x128_1_0_0_1_n_n_wf : DotDims.WF S50000x128 S128x128 S50000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x1_S50000x1_1_0_0_1_n_n_wf : DotDims.WF S50000x128 S128x1 S50000x1 [1] [0] [0] [1] [] []
  gather_S50000x1_S600000x1_S600000x1_1_0_n_n_0_1_11_wf : GatherDims.WF S50000x1 S600000x1 S600000x1 [1] [0] [] [0] [] 1 ![1, 1]
  scatter_S50000x1_S600000x1_S600000x1_1_0_0_1_wf : ScatterDims.WF S50000x1 S600000x1 S600000x1 [1] [0] [0] 1

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000_S600000x1_S600000_n_0_n_n_0_1_1 : GatherDims S50000 S600000x1 S600000 where
  offsetDims := []
  collapsedSliceDims := [0]
  operandBatchingDims := []
  startIndicesBatchingDims := []
  startIndexMap := [0]
  indexVectorDim := 1
  sliceSizes := ![1]
  wf := gather_S50000_S600000x1_S600000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf
def gather_S50000x1_S600000x1_S600000x1_1_0_n_n_0_1_11 : GatherDims S50000x1 S600000x1 S600000x1 where
  offsetDims := [1]
  collapsedSliceDims := [0]
  operandBatchingDims := []
  startIndicesBatchingDims := []
  startIndexMap := [0]
  indexVectorDim := 1
  sliceSizes := ![1, 1]
  wf := gather_S50000x1_S600000x1_S600000x1_1_0_n_n_0_1_11_wf
def scatter_S50000x1_S600000x1_S600000x1_1_0_0_1 : ScatterDims S50000x1 S600000x1 S600000x1 where
  updateWindowDims := [1]
  insertedWindowDims := [0]
  scatterDimsToOperandDims := [0]
  indexVectorDim := 1
  wf := scatter_S50000x1_S600000x1_S600000x1_1_0_0_1_wf

class Facts : Prop extends Facts₀ where

variable [Facts]
-- ==== Proof.Layer.lean ====
/-
  One graph-convolution layer as the reference computes it, as a function of the edge list, the node features,
  the weight matrix and the bias; and the edge data every layer shares.

  With `src`, `dst` the two rows of the edge list (a negative entry counted from the end of the node table),
  `deg v = 1 + #{e | dst e = v}`, `dis = deg^(-1/2)`, `norm e = dis (src e) · dis (dst e)`, `sn v = dis v · dis v`,
  a layer maps node features `h` to

      relu ( (Σ_{e : dst e = v} (h W)[src e] · norm e  +  (h W)[v] · sn v)  +  b )

  at every node `v`: the product `h W`, its rows gathered along the edges and scaled, summed into the target nodes,
  the node's own scaled row added, then the bias, then the positive part. The last layer has one output column.
-/
import proofs.«404270_j75642964017424_1_alg».proof.ReferenceIdeal

noncomputable section

namespace Cert.ReferenceIdeal.Layer

open Cert.ReferenceIdeal Idealize.ShloMosaic
open Facts₀ Facts

variable {F : FTy → Type} [FloatOps F] [Facts]

/-- Row 0 of the edge list: each edge's source node, as given. -/
def srcRaw (ei : (⟨S2x600000, .i32⟩ : BufTy).Contents (Elt F)) : (⟨S600000, .i32⟩ : BufTy).Contents (Elt F) :=
  shapeCast _ (extractStridedSlice S1x600000 ![0, 0] ei slices_S2x600000_S1x600000_0_0) shapeCasts_S1x600000_S600000

/-- Row 1 of the edge list: each edge's target node, as given. -/
def dstRaw (ei : (⟨S2x600000, .i32⟩ : BufTy).Contents (Elt F)) : (⟨S600000, .i32⟩ : BufTy).Contents (Elt F) :=
  shapeCast _ (extractStridedSlice S1x600000 ![1, 0] ei slices_S2x600000_S1x600000_1_0) shapeCasts_S1x600000_S600000

/-- A node number counted from the end of the table when negative: `v + 50000` for `v < 0`, else `v`. -/
def wrapIdx (v : (⟨S600000, .i32⟩ : BufTy).Contents (Elt F)) : (⟨S600000, .i32⟩ : BufTy).Contents (Elt F) :=
  select (cmpi .slt v (broadcastInDim S600000 ![] bcast_S_S600000 (constantI S_ 32 0#32))) (addi v (broadcastInDim S600000 ![] bcast_S_S600000 (constantI S_ 32 50000#32))) v

/-- A vector of node numbers as the one-column index table a gather or a scatter takes. -/
def col (v : (⟨S600000, .i32⟩ : BufTy).Contents (Elt F)) : (⟨S600000x1, .i32⟩ : BufTy).Contents (Elt F) :=
  broadcastInDim S600000x1 ![0] bcast_S600000_S600000x1_0 v

/-- `dis v = (1 + #{e | dst e = v})^(-1/2)`: the inverse square root of the degree with the self loop. -/
def dis (ei : (⟨S2x600000, .i32⟩ : BufTy).Contents (Elt F)) : (⟨S50000, .f32⟩ : BufTy).Contents (Elt F) :=
  Host.rsqrt (addf (Host.scatterAdd scatter_S50000_S600000x1_S600000_n_0_0_1 (broadcastInDim S50000 ![] bcast_S_S50000 (constant S_ .f32 0x00000000#32)) (col (wrapIdx (dstRaw ei))) (broadcastInDim S600000 ![] bcast_S_S600000 (constant S_ .f32 0x3F800000#32))) (broadcastInDim S50000 ![] bcast_S_S50000 (constant S_ .f32 0x3F800000#32)))

/-- `norm e = dis (src e) · dis (dst e)`. -/
def edgeNorm (ei : (⟨S2x600000, .i32⟩ : BufTy).Contents (Elt F)) : (⟨S600000, .f32⟩ : BufTy).Contents (Elt F) :=
  mulf (Host.gather gather_S50000_S600000x1_S600000_n_0_n_n_0_1_1 (dis (F := F) ei) (col (wrapIdx (srcRaw ei)))) (Host.gather gather_S50000_S600000x1_S600000_n_0_n_n_0_1_1 (dis (F := F) ei) (col (wrapIdx (dstRaw ei))))

/-- `sn v = dis v · dis v`: the weight of a node's own row. -/
def selfNorm (ei : (⟨S2x600000, .i32⟩ : BufTy).Contents (Elt F)) : (⟨S50000, .f32⟩ : BufTy).Contents (Elt F) :=
  mulf (dis (F := F) ei) (dis (F := F) ei)

/-- A layer with 128 output columns. -/
def gcnLayer128 (ei : (⟨S2x600000, .i32⟩ : BufTy).Contents (Elt F)) (h : (⟨S50000x128, .f32⟩ : BufTy).Contents (Elt F)) (W : (⟨S128x128, .f32⟩ : BufTy).Contents (Elt F)) (b : (⟨S128, .f32⟩ : BufTy).Contents (Elt F)) : (⟨S50000x128, .f32⟩ : BufTy).Contents (Elt F) :=
  maximumf (addf (addf (Host.scatterAdd scatter_S50000x128_S600000x1_S600000x128_1_0_0_1 (broadcastInDim S50000x128 ![] bcast_S_S50000x128 (constant S_ .f32 0x00000000#32)) (col (dstRaw ei)) (mulf (Host.gather gather_S50000x128_S600000x1_S600000x128_1_0_n_n_0_1_1128 (Host.dotGeneral dot_S50000x128_S128x128_S50000x128_1_0_0_1_n_n none h W) (col (wrapIdx (srcRaw ei)))) (broadcastInDim S600000x128 ![0, 1] bcast_S600000x1_S600000x128_0_1 (broadcastInDim S600000x1 ![0] bcast_S600000_S600000x1_0 (edgeNorm (F := F) ei))))) (mulf (Host.dotGeneral dot_S50000x128_S128x128_S50000x128_1_0_0_1_n_n none h W) (broadcastInDim S50000x128 ![0, 1] bcast_S50000x1_S50000x128_0_1 (broadcastInDim S50000x1 ![0] bcast_S50000_S50000x1_0 (selfNorm (F := F) ei))))) (broadcastInDim S50000x128 ![0, 1] bcast_S1x128_S50000x128_0_1 (broadcastInDim S1x128 ![1] bcast_S128_S1x128_1 b))) (broadcastInDim S50000x128 ![] bcast_S_S50000x128 (constant S_ .f32 0x00000000#32))

/-- The last layer: one output column. -/
def gcnLayer1 (ei : (⟨S2x600000, .i32⟩ : BufTy).Contents (Elt F)) (h : (⟨S50000x128, .f32⟩ : BufTy).Contents (Elt F)) (W : (⟨S128x1, .f32⟩ : BufTy).Contents (Elt F)) (b : (⟨S1, .f32⟩ : BufTy).Contents (Elt F)) : (⟨S50000x1, .f32⟩ : BufTy).Contents (Elt F) :=
  maximumf (addf (addf (Host.scatterAdd scatter_S50000x1_S600000x1_S600000x1_1_0_0_1 (broadcastInDim S50000x1 ![] bcast_S_S50000x1 (constant S_ .f32 0x00000000#32)) (col (dstRaw ei)) (mulf (Host.gather gather_S50000x1_S600000x1_S600000x1_1_0_n_n_0_1_11 (Host.dotGeneral dot_S50000x128_S128x1_S50000x1_1_0_0_1_n_n none h W) (col (wrapIdx (srcRaw ei)))) (broadcastInDim S600000x1 ![0] bcast_S600000_S600000x1_0 (edgeNorm (F := F) ei)))) (mulf (Host.dotGeneral dot_S50000x128_S128x1_S50000x1_1_0_0_1_n_n none h W) (broadcastInDim S50000x1 ![0] bcast_S50000_S50000x1_0 (selfNorm (F := F) ei)))) (broadcastInDim S50000x1 ![0, 1] bcast_S1x1_S50000x1_0_1 (broadcastInDim S1x1 ![1] bcast_S1_S1x1_1 b))) (broadcastInDim S50000x1 ![] bcast_S_S50000x1 (constant S_ .f32 0x00000000#32))

/-- The whole network: three layers over the same edge list. -/
def network (ei : (⟨S2x600000, .i32⟩ : BufTy).Contents (Elt F)) (x : (⟨S50000x128, .f32⟩ : BufTy).Contents (Elt F)) (W1 : (⟨S128x128, .f32⟩ : BufTy).Contents (Elt F)) (b1 : (⟨S128, .f32⟩ : BufTy).Contents (Elt F)) (W2 : (⟨S128x128, .f32⟩ : BufTy).Contents (Elt F)) (b2 : (⟨S128, .f32⟩ : BufTy).Contents (Elt F)) (W3 : (⟨S128x1, .f32⟩ : BufTy).Contents (Elt F)) (b3 : (⟨S1, .f32⟩ : BufTy).Contents (Elt F)) : (⟨S50000x1, .f32⟩ : BufTy).Contents (Elt F) :=
  gcnLayer1 ei (gcnLayer128 ei (gcnLayer128 ei x W1 b1) W2 b2) W3 b3

end Cert.ReferenceIdeal.Layer

end
-- ==== Proof.Dense.lean ====
/-
  The dense pieces of a layer, as whole-array operations: the product `h W`, and the tail
  `relu((agg + hw · sn) + b)` that joins the edge sum `agg`, the product `hw` scaled row by row by the column `sn`,
  and the bias row `b`. A layer is the tail applied to the edge sum of the product's gathered rows, to the product itself,
  to the self weights as a column and to the bias as a row.
-/
import proofs.«404270_j75642964017424_1_alg».proof.Proof.Layer

noncomputable section

namespace Cert.ReferenceIdeal.Dense

open Cert.ReferenceIdeal Cert.ReferenceIdeal.Layer Idealize.ShloMosaic
open Facts₀ Facts

variable {F : FTy → Type} [FloatOps F] [Facts]

/-- `h W` with 128 output columns. -/
def matmul128 (h : (⟨S50000x128, .f32⟩ : BufTy).Contents (Elt F)) (W : (⟨S128x128, .f32⟩ : BufTy).Contents (Elt F)) : (⟨S50000x128, .f32⟩ : BufTy).Contents (Elt F) :=
  Host.dotGeneral dot_S50000x128_S128x128_S50000x128_1_0_0_1_n_n none h W

/-- `h W` with one output column. -/
def matmul1 (h : (⟨S50000x128, .f32⟩ : BufTy).Contents (Elt F)) (W : (⟨S128x1, .f32⟩ : BufTy).Contents (Elt F)) : (⟨S50000x1, .f32⟩ : BufTy).Contents (Elt F) :=
  Host.dotGeneral dot_S50000x128_S128x1_S50000x1_1_0_0_1_n_n none h W

/-- `relu((agg + hw · sn) + b)`, 128 columns: `sn` one column, `b` one row. -/
def combine128 (agg hw : (⟨S50000x128, .f32⟩ : BufTy).Contents (Elt F)) (sn : (⟨S50000x1, .f32⟩ : BufTy).Contents (Elt F)) (b : (⟨S1x128, .f32⟩ : BufTy).Contents (Elt F)) : (⟨S50000x128, .f32⟩ : BufTy).Contents (Elt F) :=
  maximumf (addf (addf agg (mulf hw (broadcastInDim S50000x128 ![0, 1] bcast_S50000x1_S50000x128_0_1 sn))) (broadcastInDim S50000x128 ![0, 1] bcast_S1x128_S50000x128_0_1 b)) (broadcastInDim S50000x128 ![] bcast_S_S50000x128 (constant S_ .f32 0x00000000#32))

/-- `relu((agg + hw · sn) + b)`, one column: `b` a single entry. -/
def combine1 (agg hw sn : (⟨S50000x1, .f32⟩ : BufTy).Contents (Elt F)) (b : (⟨S1x1, .f32⟩ : BufTy).Contents (Elt F)) : (⟨S50000x1, .f32⟩ : BufTy).Contents (Elt F) :=
  maximumf (addf (addf agg (mulf hw sn)) (broadcastInDim S50000x1 ![0, 1] bcast_S1x1_S50000x1_0_1 b)) (broadcastInDim S50000x1 ![] bcast_S_S50000x1 (constant S_ .f32 0x00000000#32))

/-- The edge sum of a 128-column layer: the rows `hw[src e] · norm e` summed into their target nodes. -/
def aggregate128 (ei : (⟨S2x600000, .i32⟩ : BufTy).Contents (Elt F)) (rows : (⟨S600000x128, .f32⟩ : BufTy).Contents (Elt F)) : (⟨S50000x128, .f32⟩ : BufTy).Contents (Elt F) :=
  Host.scatterAdd scatter_S50000x128_S600000x1_S600000x128_1_0_0_1 (broadcastInDim S50000x128 ![] bcast_S_S50000x128 (constant S_ .f32 0x00000000#32)) (col (dstRaw ei)) (mulf rows (broadcastInDim S600000x128 ![0, 1] bcast_S600000x1_S600000x128_0_1 (broadcastInDim S600000x1 ![0] bcast_S600000_S600000x1_0 (edgeNorm (F := F) ei))))

/-- The edge sum of the one-column layer. -/
def aggregate1 (ei : (⟨S2x600000, .i32⟩ : BufTy).Contents (Elt F)) (rows : (⟨S600000x1, .f32⟩ : BufTy).Contents (Elt F)) : (⟨S50000x1, .f32⟩ : BufTy).Contents (Elt F) :=
  Host.scatterAdd scatter_S50000x1_S600000x1_S600000x1_1_0_0_1 (broadcastInDim S50000x1 ![] bcast_S_S50000x1 (constant S_ .f32 0x00000000#32)) (col (dstRaw ei)) (mulf rows (broadcastInDim S600000x1 ![0] bcast_S600000_S600000x1_0 (edgeNorm (F := F) ei)))

/-- The rows of a 128-column product gathered along the edges' sources. -/
def gatherRows128 (ei : (⟨S2x600000, .i32⟩ : BufTy).Contents (Elt F)) (hw : (⟨S50000x128, .f32⟩ : BufTy).Contents (Elt F)) : (⟨S600000x128, .f32⟩ : BufTy).Contents (Elt F) :=
  Host.gather gather_S50000x128_S600000x1_S600000x128_1_0_n_n_0_1_1128 hw (col (wrapIdx (srcRaw ei)))

/-- The entries of a one-column product gathered along the edges' sources. -/
def gatherRows1 (ei : (⟨S2x600000, .i32⟩ : BufTy).Contents (Elt F)) (hw : (⟨S50000x1, .f32⟩ : BufTy).Contents (Elt F)) : (⟨S600000x1, .f32⟩ : BufTy).Contents (Elt F) :=
  Host.gather gather_S50000x1_S600000x1_S600000x1_1_0_n_n_0_1_11 hw (col (wrapIdx (srcRaw ei)))

/-- A 128-column layer is the tail of its dense and edge pieces. -/
theorem gcnLayer128_eq (ei : (⟨S2x600000, .i32⟩ : BufTy).Contents (Elt F)) (h : (⟨S50000x128, .f32⟩ : BufTy).Contents (Elt F)) (W : (⟨S128x128, .f32⟩ : BufTy).Contents (Elt F)) (b : (⟨S128, .f32⟩ : BufTy).Contents (Elt F)) :
    gcnLayer128 (F := F) ei h W b
      = combine128 (aggregate128 ei (gatherRows128 ei (matmul128 h W))) (matmul128 h W)
          (broadcastInDim S50000x1 ![0] bcast_S50000_S50000x1_0 (selfNorm (F := F) ei))
          (broadcastInDim S1x128 ![1] bcast_S128_S1x128_1 b) := rfl

/-- The one-column layer is the tail of its dense and edge pieces. -/
theorem gcnLayer1_eq (ei : (⟨S2x600000, .i32⟩ : BufTy).Contents (Elt F)) (h : (⟨S50000x128, .f32⟩ : BufTy).Contents (Elt F)) (W : (⟨S128x1, .f32⟩ : BufTy).Contents (Elt F)) (b : (⟨S1, .f32⟩ : BufTy).Contents (Elt F)) :
    gcnLayer1 (F := F) ei h W b
      = combine1 (aggregate1 ei (gatherRows1 ei (matmul1 h W))) (matmul1 h W)
          (broadcastInDim S50000x1 ![0] bcast_S50000_S50000x1_0 (selfNorm (F := F) ei))
          (broadcastInDim S1x1 ![1] bcast_S1_S1x1_1 b) := rfl

end Cert.ReferenceIdeal.Dense

end
-- ==== Proof.Agg.lean ====
/-
  The edge sum of a layer over given per-edge data: the rows `rows e · norm e` summed into their target nodes `dst e`.
  A layer's edge sum is this at the targets and weights the edge list determines.
-/
import proofs.«404270_j75642964017424_1_alg».proof.Proof.Dense

noncomputable section

namespace Cert.ReferenceIdeal.Agg

open Cert.ReferenceIdeal Cert.ReferenceIdeal.Layer Cert.ReferenceIdeal.Dense Idealize.ShloMosaic
open Facts₀ Facts

variable {F : FTy → Type} [FloatOps F] [Facts]

/-- 128 columns. -/
def aggV128 (dst : (⟨S600000, .i32⟩ : BufTy).Contents (Elt F)) (norm : (⟨S600000, .f32⟩ : BufTy).Contents (Elt F)) (rows : (⟨S600000x128, .f32⟩ : BufTy).Contents (Elt F)) : (⟨S50000x128, .f32⟩ : BufTy).Contents (Elt F) :=
  Host.scatterAdd scatter_S50000x128_S600000x1_S600000x128_1_0_0_1 (broadcastInDim S50000x128 ![] bcast_S_S50000x128 (constant S_ .f32 0x00000000#32)) (col (F := F) dst) (mulf rows (broadcastInDim S600000x128 ![0, 1] bcast_S600000x1_S600000x128_0_1 (broadcastInDim S600000x1 ![0] bcast_S600000_S600000x1_0 norm)))

/-- One column. -/
def aggV1 (dst : (⟨S600000, .i32⟩ : BufTy).Contents (Elt F)) (norm : (⟨S600000, .f32⟩ : BufTy).Contents (Elt F)) (rows : (⟨S600000x1, .f32⟩ : BufTy).Contents (Elt F)) : (⟨S50000x1, .f32⟩ : BufTy).Contents (Elt F) :=
  Host.scatterAdd scatter_S50000x1_S600000x1_S600000x1_1_0_0_1 (broadcastInDim S50000x1 ![] bcast_S_S50000x1 (constant S_ .f32 0x00000000#32)) (col (F := F) dst) (mulf rows (broadcastInDim S600000x1 ![0] bcast_S600000_S600000x1_0 norm))

theorem aggregate128_eq (ei : (⟨S2x600000, .i32⟩ : BufTy).Contents (Elt F)) (rows : (⟨S600000x128, .f32⟩ : BufTy).Contents (Elt F)) :
    aggregate128 (F := F) ei rows = aggV128 (dstRaw (F := F) ei) (edgeNorm (F := F) ei) rows := rfl

theorem aggregate1_eq (ei : (⟨S2x600000, .i32⟩ : BufTy).Contents (Elt F)) (rows : (⟨S600000x1, .f32⟩ : BufTy).Contents (Elt F)) :
    aggregate1 (F := F) ei rows = aggV1 (dstRaw (F := F) ei) (edgeNorm (F := F) ei) rows := rfl

end Cert.ReferenceIdeal.Agg

end
-- ==== Proof.KTake.lean ====
/-
  The kernel's row gather with a fill: `take(hw, src)` reads row `src e` of `hw` (a negative `src e` counted from the end of
  the table) where the wrapped index names a row, `0 ≤ i ≤ 49999`, and the fill value elsewhere. Where every wrapped
  index names a row the fill is never chosen and the result is the plain gather at the wrapped indices.
-/
import proofs.«404270_j75642964017424_1_alg».proof.KernelIdeal

noncomputable section

namespace Cert.KernelIdeal.KTake

open Cert.KernelIdeal Idealize.ShloMosaic
open Facts₀ Facts

variable {F : FTy → Type} [FloatOps F] [Facts]

/-- Row 0 of the edge list: each edge's source node, as given. -/
def srcOf (ei : (⟨S2x600000, .i32⟩ : BufTy).Contents (Elt F)) : (⟨S600000, .i32⟩ : BufTy).Contents (Elt F) :=
  shapeCast _ (extractStridedSlice S1x600000 ![0, 0] ei slices_S2x600000_S1x600000_0_0) shapeCasts_S1x600000_S600000

/-- The wrapped source indices as a one-column index table: `src e + 50000` for a negative `src e`, else `src e`. -/
def idxCol (src : (⟨S600000, .i32⟩ : BufTy).Contents (Elt F)) : (⟨S600000x1, .i32⟩ : BufTy).Contents (Elt F) :=
  broadcastInDim S600000x1 ![0] bcast_S600000_S600000x1_0 (select (cmpi .slt src (broadcastInDim S600000 ![] bcast_S_S600000 (constantI S_ 32 0#32))) (addi src (broadcastInDim S600000 ![] bcast_S_S600000 (constantI S_ 32 50000#32))) src)

/-- Per edge: does the wrapped source index name a row, `0 ≤ i ≤ 49999`? -/
def inBounds (src : (⟨S600000, .i32⟩ : BufTy).Contents (Elt F)) : (⟨S600000, .i1⟩ : BufTy).Contents (Elt F) :=
  Host.reduce IntOp.andi (andi (cmpi .sge (idxCol src) (broadcastInDim S600000x1 ![] bcast_S_S600000x1 (constantI S_ 32 0#32))) (cmpi .sle (idxCol src) (broadcastInDim S600000x1 ![0, 1] bcast_S1x1_S600000x1_0_1 (broadcastInDim S1x1 ![1] bcast_S1_S1x1_1 (constantI S1 32 49999#32))))) (constantI S_ 1 1#1) reducesTo_S600000x1_S600000_d1 h_S_

/-- `take(hw, src)` for a 128-column table. -/
def take128 (hw : (⟨S50000x128, .f32⟩ : BufTy).Contents (Elt F)) (src : (⟨S600000, .i32⟩ : BufTy).Contents (Elt F)) : (⟨S600000x128, .f32⟩ : BufTy).Contents (Elt F) :=
  select (broadcastInDim S600000x128 ![0] bcast_S600000_S600000x128_0 (inBounds src)) (Host.gather gather_S50000x128_S600000x1_S600000x128_1_0_n_n_0_1_1128 hw (idxCol src)) (broadcastInDim S600000x128 ![] bcast_S_S600000x128 (constant S_ .f32 0x7FC00000#32))

/-- `take(hw, src)` for a one-column table. -/
def take1 (hw : (⟨S50000x1, .f32⟩ : BufTy).Contents (Elt F)) (src : (⟨S600000, .i32⟩ : BufTy).Contents (Elt F)) : (⟨S600000x1, .f32⟩ : BufTy).Contents (Elt F) :=
  select (broadcastInDim S600000x1 ![0] bcast_S600000_S600000x1_0 (inBounds src)) (Host.gather gather_S50000x1_S600000x1_S600000x1_1_0_n_n_0_1_11 hw (idxCol src)) (broadcastInDim S600000x1 ![] bcast_S_S600000x1 (constant S_ .f32 0x7FC00000#32))

/-- A source index names a row counted from either end: `-50000 ≤ v < 50000` as a signed 32-bit word. -/
def InRange (v : BitVec 32) : Prop :=
  IntOp.cmpi .sge v 4294917296#32 = 1#1 ∧ IntOp.cmpi .slt v 50000#32 = 1#1

end Cert.KernelIdeal.KTake

end
-- ==== Proof.Stretch.lean ====
/-
  What the host operations between the kernel regions leave in the buffers the next region reads, as terms of the
  buffers they find: the first stretch computes the data every layer shares from the edge list (sources, targets, the
  per-edge weight `dis(src)·dis(dst)` and the per-node weight `dis·dis`); each later stretch gathers the rows of the
  product along the edges' sources, scales them by the edge weight, sums them into their target nodes, and lays the
  node weights out as a column and the bias as a row.
-/
import proofs.«404270_j75642964017424_1_alg».proof.Proof.Gen.KernelIdeal.Launch
import proofs.«404270_j75642964017424_1_alg».proof.Proof.Gen.ReferenceIdeal
import proofs.«404270_j75642964017424_1_alg».proof.Proof.Layer
import proofs.«404270_j75642964017424_1_alg».proof.Proof.Agg
import proofs.«404270_j75642964017424_1_alg».proof.Proof.KTake
import Idealize.ShloMosaic.Lib.StableHlo.Run
import Idealize.ShloMosaic.PureOps.Ideal

set_option maxRecDepth 16384

noncomputable section

namespace Cert.KernelIdeal.Stretch

open Cert.KernelIdeal Cert.KernelIdeal.Gen
open Idealize.ShloMosaic Idealize.ShloMosaic.TcCoe Idealize.SL.Sem Idealize.ShloMosaic.StableHlo

variable (W : Valuation τ sig (Elt Ideal))

/-- A buffer that neither of two consecutive stretches writes holds after them what it held before. -/
theorem keep2 {b : DevRef τ sig} (ops1 ops2 : List (HloOp τ sig (Elt Ideal)))
    (h1 : ∀ op ∈ ops1, b ∉ op.writes) (h2 : ∀ op ∈ ops2, b ∉ op.writes) :
    StableHlo.after ops2 (StableHlo.after ops1 W) b = W b :=
  (StableHlo.after_of_forall_not_mem ops2 _ h2).trans (StableHlo.after_of_forall_not_mem ops1 W h1)

/-- No operation of the stretch at hand writes the buffer at hand: each operation's one result buffer is another. -/
macro "not_written" : tactic =>
  `(tactic| exact List.forall_iff_forall_mem.mp (by
      simp only [hostOps1, hostOps1_1, hostOps3, hostOps3_1, hostOps5, hostOps5_1, List.flatten_cons, List.flatten_nil, List.append_nil,
        List.cons_append, List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide)))

/-- The buffers every later step still reads and none rewrites: the edges' sources and targets, the edge and node
    weights, and the arguments of the second and third layers and the first bias. -/
def tracked : List (Ref sig .tc) :=
  [main_v1, main_v3, main_v30, main_v31, main_arg3, main_arg4, main_arg5, main_arg6, main_arg7]

/-! ## The first stretch: the data every layer shares, from the edge list -/

theorem s0_src : StableHlo.after (hostOps0 (F := Ideal)) W (Proc.devRef .tc main_v1) = Cert.ReferenceIdeal.Layer.srcRaw (F := Ideal) (W (Proc.devRef .tc main_arg1)) := by
  after_results_simp <;> rfl
theorem s0_dst : StableHlo.after (hostOps0 (F := Ideal)) W (Proc.devRef .tc main_v3) = Cert.ReferenceIdeal.Layer.dstRaw (F := Ideal) (W (Proc.devRef .tc main_arg1)) := by
  after_results_simp <;> rfl
theorem s0_norm : StableHlo.after (hostOps0 (F := Ideal)) W (Proc.devRef .tc main_v30) = Cert.ReferenceIdeal.Layer.edgeNorm (F := Ideal) (W (Proc.devRef .tc main_arg1)) := by
  after_results_simp <;> rfl
theorem s0_sn : StableHlo.after (hostOps0 (F := Ideal)) W (Proc.devRef .tc main_v31) = Cert.ReferenceIdeal.Layer.selfNorm (F := Ideal) (W (Proc.devRef .tc main_arg1)) := by
  after_results_simp <;> rfl
theorem s0_arg0 : StableHlo.after (hostOps0 (F := Ideal)) W (Proc.devRef .tc main_arg0) = (W (Proc.devRef .tc main_arg0)) := by after_results_simp
theorem s0_arg2 : StableHlo.after (hostOps0 (F := Ideal)) W (Proc.devRef .tc main_arg2) = (W (Proc.devRef .tc main_arg2)) := by after_results_simp
theorem s0_arg3 : StableHlo.after (hostOps0 (F := Ideal)) W (Proc.devRef .tc main_arg3) = (W (Proc.devRef .tc main_arg3)) := by after_results_simp
theorem s0_arg4 : StableHlo.after (hostOps0 (F := Ideal)) W (Proc.devRef .tc main_arg4) = (W (Proc.devRef .tc main_arg4)) := by after_results_simp
theorem s0_arg5 : StableHlo.after (hostOps0 (F := Ideal)) W (Proc.devRef .tc main_arg5) = (W (Proc.devRef .tc main_arg5)) := by after_results_simp
theorem s0_arg6 : StableHlo.after (hostOps0 (F := Ideal)) W (Proc.devRef .tc main_arg6) = (W (Proc.devRef .tc main_arg6)) := by after_results_simp
theorem s0_arg7 : StableHlo.after (hostOps0 (F := Ideal)) W (Proc.devRef .tc main_arg7) = (W (Proc.devRef .tc main_arg7)) := by after_results_simp

end Cert.KernelIdeal.Stretch

end
-- ==== Proof.StretchL1.lean ====
/-
  The stretch of host operations before the first tail region, read from the buffers it finds: the rows of the product
  gathered along the edges' sources (with the fill where an index names no row), scaled by the edge weights and summed into
  their target nodes; the node weights laid out as a column; the bias laid out as a row; and the buffers it leaves alone.
-/
import proofs.«404270_j75642964017424_1_alg».proof.Proof.Stretch

set_option maxRecDepth 16384

noncomputable section

namespace Cert.KernelIdeal.StretchL1

open Cert.KernelIdeal Cert.KernelIdeal.Gen Cert.KernelIdeal.Stretch
open Idealize.ShloMosaic Idealize.ShloMosaic.TcCoe Idealize.SL.Sem Idealize.ShloMosaic.StableHlo

variable (W : Valuation τ sig (Elt Ideal))

/-- The rows of the product gathered along the edges' sources, with the fill where an index names no row. -/
theorem take : StableHlo.after (hostOps1 (F := Ideal)) W (Proc.devRef .tc main_v33)
    = KTake.take128 (F := Ideal) (W (Proc.devRef .tc main_v32)) (W (Proc.devRef .tc main_v1)) := by
  after_results_simp
  simp only [cast_eq]
  rfl

/-- The gathered rows scaled by the edge weights and summed into their target nodes. -/
theorem aggOf (W' : Valuation τ sig (Elt Ideal)) : StableHlo.after (hostOps1_1 (F := Ideal)) W' (Proc.devRef .tc main_v39)
    = Cert.ReferenceIdeal.Agg.aggV128 (F := Ideal) (W' (Proc.devRef .tc main_v3)) (W' (Proc.devRef .tc main_v30)) (W' (Proc.devRef .tc main_v33)) := by
  after_results_simp <;> rfl

/-- Both together: the edge sum from the buffers the stretch finds. -/
theorem agg : StableHlo.after (hostOps1_1 (F := Ideal)) (StableHlo.after (hostOps1 (F := Ideal)) W) (Proc.devRef .tc main_v39)
    = Cert.ReferenceIdeal.Agg.aggV128 (F := Ideal) (W (Proc.devRef .tc main_v3)) (W (Proc.devRef .tc main_v30))
        (KTake.take128 (F := Ideal) (W (Proc.devRef .tc main_v32)) (W (Proc.devRef .tc main_v1))) := by
  rw [aggOf, take,
    StableHlo.after_of_forall_not_mem (b := Proc.devRef .tc main_v3) _ W (by not_written),
    StableHlo.after_of_forall_not_mem (b := Proc.devRef .tc main_v30) _ W (by not_written)]

/-- The product the tail region reads is what the matmul region before the stretch left. -/
theorem hw : StableHlo.after (hostOps1_1 (F := Ideal)) (StableHlo.after (hostOps1 (F := Ideal)) W) (Proc.devRef .tc main_v32)
    = W (Proc.devRef .tc main_v32) :=
  keep2 W hostOps1 hostOps1_1 (by not_written) (by not_written)

/-- The node weights as a column. -/
theorem sn : StableHlo.after (hostOps1_1 (F := Ideal)) (StableHlo.after (hostOps1 (F := Ideal)) W) (Proc.devRef .tc main_v40)
    = shapeCast S50000x1 (W (Proc.devRef .tc main_v31)) Facts₀.shapeCasts_S50000_S50000x1 := by
  after_results_simp
  exact funext fun i => rfl

/-- The bias as a row. -/
theorem bias : StableHlo.after (hostOps1_1 (F := Ideal)) (StableHlo.after (hostOps1 (F := Ideal)) W) (Proc.devRef .tc main_v41)
    = shapeCast S1x128 (W (Proc.devRef .tc main_arg3)) Facts₀.shapeCasts_S128_S1x128 := by
  after_results_simp <;> rfl

/-- The shared edge data and the arguments still to be read pass through the stretch. -/
theorem keeps : ∀ b ∈ tracked,
    StableHlo.after (hostOps1_1 (F := Ideal)) (StableHlo.after (hostOps1 (F := Ideal)) W) (Proc.devRef .tc b) = W (Proc.devRef .tc b) := by
  intro b hb
  simp only [tracked, List.mem_cons, List.mem_nil_iff, or_false] at hb
  rcases hb with rfl | rfl | rfl | rfl | rfl | rfl | rfl | rfl | rfl <;>
    exact keep2 W hostOps1 hostOps1_1 (by not_written) (by not_written)

end Cert.KernelIdeal.StretchL1

end
-- ==== Proof.StretchL2.lean ====
/-
  The stretch of host operations before the second tail region, read from the buffers it finds: the rows of the product
  gathered along the edges' sources (with the fill where an index names no row), scaled by the edge weights and summed into
  their target nodes; the node weights laid out as a column; the bias laid out as a row; and the buffers it leaves alone.
-/
import proofs.«404270_j75642964017424_1_alg».proof.Proof.Stretch

set_option maxRecDepth 16384

noncomputable section

namespace Cert.KernelIdeal.StretchL2

open Cert.KernelIdeal Cert.KernelIdeal.Gen Cert.KernelIdeal.Stretch
open Idealize.ShloMosaic Idealize.ShloMosaic.TcCoe Idealize.SL.Sem Idealize.ShloMosaic.StableHlo

variable (W : Valuation τ sig (Elt Ideal))

/-- The rows of the product gathered along the edges' sources, with the fill where an index names no row. -/
theorem take : StableHlo.after (hostOps3 (F := Ideal)) W (Proc.devRef .tc main_v44)
    = KTake.take128 (F := Ideal) (W (Proc.devRef .tc main_v43)) (W (Proc.devRef .tc main_v1)) := by
  after_results_simp
  simp only [cast_eq]
  rfl

/-- The gathered rows scaled by the edge weights and summed into their target nodes. -/
theorem aggOf (W' : Valuation τ sig (Elt Ideal)) : StableHlo.after (hostOps3_1 (F := Ideal)) W' (Proc.devRef .tc main_v50)
    = Cert.ReferenceIdeal.Agg.aggV128 (F := Ideal) (W' (Proc.devRef .tc main_v3)) (W' (Proc.devRef .tc main_v30)) (W' (Proc.devRef .tc main_v44)) := by
  after_results_simp <;> rfl

/-- Both together: the edge sum from the buffers the stretch finds. -/
theorem agg : StableHlo.after (hostOps3_1 (F := Ideal)) (StableHlo.after (hostOps3 (F := Ideal)) W) (Proc.devRef .tc main_v50)
    = Cert.ReferenceIdeal.Agg.aggV128 (F := Ideal) (W (Proc.devRef .tc main_v3)) (W (Proc.devRef .tc main_v30))
        (KTake.take128 (F := Ideal) (W (Proc.devRef .tc main_v43)) (W (Proc.devRef .tc main_v1))) := by
  rw [aggOf, take,
    StableHlo.after_of_forall_not_mem (b := Proc.devRef .tc main_v3) _ W (by not_written),
    StableHlo.after_of_forall_not_mem (b := Proc.devRef .tc main_v30) _ W (by not_written)]

/-- The product the tail region reads is what the matmul region before the stretch left. -/
theorem hw : StableHlo.after (hostOps3_1 (F := Ideal)) (StableHlo.after (hostOps3 (F := Ideal)) W) (Proc.devRef .tc main_v43)
    = W (Proc.devRef .tc main_v43) :=
  keep2 W hostOps3 hostOps3_1 (by not_written) (by not_written)

/-- The node weights as a column. -/
theorem sn : StableHlo.after (hostOps3_1 (F := Ideal)) (StableHlo.after (hostOps3 (F := Ideal)) W) (Proc.devRef .tc main_v51)
    = shapeCast S50000x1 (W (Proc.devRef .tc main_v31)) Facts₀.shapeCasts_S50000_S50000x1 := by
  after_results_simp
  exact funext fun i => rfl

/-- The bias as a row. -/
theorem bias : StableHlo.after (hostOps3_1 (F := Ideal)) (StableHlo.after (hostOps3 (F := Ideal)) W) (Proc.devRef .tc main_v52)
    = shapeCast S1x128 (W (Proc.devRef .tc main_arg5)) Facts₀.shapeCasts_S128_S1x128 := by
  after_results_simp <;> rfl

/-- The shared edge data and the arguments still to be read pass through the stretch. -/
theorem keeps : ∀ b ∈ tracked,
    StableHlo.after (hostOps3_1 (F := Ideal)) (StableHlo.after (hostOps3 (F := Ideal)) W) (Proc.devRef .tc b) = W (Proc.devRef .tc b) := by
  intro b hb
  simp only [tracked, List.mem_cons, List.mem_nil_iff, or_false] at hb
  rcases hb with rfl | rfl | rfl | rfl | rfl | rfl | rfl | rfl | rfl <;>
    exact keep2 W hostOps3 hostOps3_1 (by not_written) (by not_written)

end Cert.KernelIdeal.StretchL2

end
-- ==== Proof.StretchL3.lean ====
/-
  The stretch of host operations before the last tail region, read from the buffers it finds: the rows of the product
  gathered along the edges' sources (with the fill where an index names no row), scaled by the edge weights and summed into
  their target nodes; the node weights laid out as a column; the bias laid out as a row; and the buffers it leaves alone.
-/
import proofs.«404270_j75642964017424_1_alg».proof.Proof.Stretch

set_option maxRecDepth 16384

noncomputable section

namespace Cert.KernelIdeal.StretchL3

open Cert.KernelIdeal Cert.KernelIdeal.Gen Cert.KernelIdeal.Stretch
open Idealize.ShloMosaic Idealize.ShloMosaic.TcCoe Idealize.SL.Sem Idealize.ShloMosaic.StableHlo

variable (W : Valuation τ sig (Elt Ideal))

/-- The rows of the product gathered along the edges' sources, with the fill where an index names no row. -/
theorem take : StableHlo.after (hostOps5 (F := Ideal)) W (Proc.devRef .tc main_v55)
    = KTake.take1 (F := Ideal) (W (Proc.devRef .tc main_v54)) (W (Proc.devRef .tc main_v1)) := by
  after_results_simp
  simp only [cast_eq]
  rfl

/-- The gathered rows scaled by the edge weights and summed into their target nodes. -/
theorem aggOf (W' : Valuation τ sig (Elt Ideal)) : StableHlo.after (hostOps5_1 (F := Ideal)) W' (Proc.devRef .tc main_v60)
    = Cert.ReferenceIdeal.Agg.aggV1 (F := Ideal) (W' (Proc.devRef .tc main_v3)) (W' (Proc.devRef .tc main_v30)) (W' (Proc.devRef .tc main_v55)) := by
  after_results_simp <;> rfl

/-- Both together: the edge sum from the buffers the stretch finds. -/
theorem agg : StableHlo.after (hostOps5_1 (F := Ideal)) (StableHlo.after (hostOps5 (F := Ideal)) W) (Proc.devRef .tc main_v60)
    = Cert.ReferenceIdeal.Agg.aggV1 (F := Ideal) (W (Proc.devRef .tc main_v3)) (W (Proc.devRef .tc main_v30))
        (KTake.take1 (F := Ideal) (W (Proc.devRef .tc main_v54)) (W (Proc.devRef .tc main_v1))) := by
  rw [aggOf, take,
    StableHlo.after_of_forall_not_mem (b := Proc.devRef .tc main_v3) _ W (by not_written),
    StableHlo.after_of_forall_not_mem (b := Proc.devRef .tc main_v30) _ W (by not_written)]

/-- The product the tail region reads is what the matmul region before the stretch left. -/
theorem hw : StableHlo.after (hostOps5_1 (F := Ideal)) (StableHlo.after (hostOps5 (F := Ideal)) W) (Proc.devRef .tc main_v54)
    = W (Proc.devRef .tc main_v54) :=
  keep2 W hostOps5 hostOps5_1 (by not_written) (by not_written)

/-- The node weights as a column. -/
theorem sn : StableHlo.after (hostOps5_1 (F := Ideal)) (StableHlo.after (hostOps5 (F := Ideal)) W) (Proc.devRef .tc main_v61)
    = shapeCast S50000x1 (W (Proc.devRef .tc main_v31)) Facts₀.shapeCasts_S50000_S50000x1 := by
  after_results_simp
  exact funext fun i => rfl

/-- The bias as a row. -/
theorem bias : StableHlo.after (hostOps5_1 (F := Ideal)) (StableHlo.after (hostOps5 (F := Ideal)) W) (Proc.devRef .tc main_v62)
    = shapeCast S1x1 (W (Proc.devRef .tc main_arg7)) Facts₀.shapeCasts_S1_S1x1 := by
  after_results_simp <;> rfl

/-- The shared edge data and the arguments still to be read pass through the stretch. -/
theorem keeps : ∀ b ∈ tracked,
    StableHlo.after (hostOps5_1 (F := Ideal)) (StableHlo.after (hostOps5 (F := Ideal)) W) (Proc.devRef .tc b) = W (Proc.devRef .tc b) := by
  intro b hb
  simp only [tracked, List.mem_cons, List.mem_nil_iff, or_false] at hb
  rcases hb with rfl | rfl | rfl | rfl | rfl | rfl | rfl | rfl | rfl <;>
    exact keep2 W hostOps5 hostOps5_1 (by not_written) (by not_written)

end Cert.KernelIdeal.StretchL3

end
-- ==== Proof.Reshape.lean ====
/-
  A vector laid out as a column, or as a row, by a reshape is the same array as the vector broadcast along the other
  axis: entry (r, 0) of the column is entry r of the vector, entry (0, j) of the row is entry j.
-/
import Idealize.ShloMosaic.Lib.Pipeline.Value
import Idealize.ShloMosaic.Lib.ValueIdx

noncomputable section

namespace Cert.Reshape

open Idealize.ShloMosaic

variable {α : Type}

/-- A vector of 50000 entries as a column. -/
theorem column50000 (v : (⟨1, ![50000]⟩ : Shape).Idx → α) (h : (⟨1, ![50000]⟩ : Shape).ShapeCasts ⟨2, ![50000, 1]⟩)
    (hb : (⟨1, ![50000]⟩ : Shape).BroadcastsInDim ⟨2, ![50000, 1]⟩ (![0] : Fin 1 → Fin 2)) :
    shapeCast ⟨2, ![50000, 1]⟩ v h = broadcastInDim ⟨2, ![50000, 1]⟩ (![0] : Fin 1 → Fin 2) hb v := by
  funext j
  have hj0 : (j 0).val < 50000 := (j 0).isLt
  have hj1 : (j 1).val < 1 := (j 1).isLt
  let k : (⟨1, ![50000]⟩ : Shape).Idx := fun a => match a with | ⟨0, _⟩ => ⟨(j 0).val, hj0⟩
  have e1 : shapeCast ⟨2, ![50000, 1]⟩ v h j = v k := by
    refine shapeCast_apply v h j k ?_
    rw [Shape.rowMajor_val_one, Shape.rowMajor_val_two]
    show (j 0).val = (j 0).val * 1 + (j 1).val
    omega
  have e2 : broadcastInDim ⟨2, ![50000, 1]⟩ (![0] : Fin 1 → Fin 2) hb v j = v k := by
    refine broadcastInDim_apply _ hb v j k fun a => ?_
    match a with
    | ⟨0, _⟩ =>
      show (j 0).val = if (50000 : Nat) = 1 then 0 else (j 0).val
      rw [if_neg (by decide)]
  rw [e1, e2]

/-- A vector of 128 entries as a row. -/
theorem row128 (v : (⟨1, ![128]⟩ : Shape).Idx → α) (h : (⟨1, ![128]⟩ : Shape).ShapeCasts ⟨2, ![1, 128]⟩)
    (hb : (⟨1, ![128]⟩ : Shape).BroadcastsInDim ⟨2, ![1, 128]⟩ (![1] : Fin 1 → Fin 2)) :
    shapeCast ⟨2, ![1, 128]⟩ v h = broadcastInDim ⟨2, ![1, 128]⟩ (![1] : Fin 1 → Fin 2) hb v := by
  funext j
  have hj0 : (j 0).val < 1 := (j 0).isLt
  have hj1 : (j 1).val < 128 := (j 1).isLt
  let k : (⟨1, ![128]⟩ : Shape).Idx := fun a => match a with | ⟨0, _⟩ => ⟨(j 1).val, hj1⟩
  have e1 : shapeCast ⟨2, ![1, 128]⟩ v h j = v k := by
    refine shapeCast_apply v h j k ?_
    rw [Shape.rowMajor_val_one, Shape.rowMajor_val_two]
    show (j 1).val = (j 0).val * 128 + (j 1).val
    omega
  have e2 : broadcastInDim ⟨2, ![1, 128]⟩ (![1] : Fin 1 → Fin 2) hb v j = v k := by
    refine broadcastInDim_apply _ hb v j k fun a => ?_
    match a with
    | ⟨0, _⟩ =>
      show (j 1).val = if (128 : Nat) = 1 then 0 else (j 1).val
      rw [if_neg (by decide)]
  rw [e1, e2]

/-- A single entry as a 1 × 1 array. -/
theorem row1 (v : (⟨1, ![1]⟩ : Shape).Idx → α) (h : (⟨1, ![1]⟩ : Shape).ShapeCasts ⟨2, ![1, 1]⟩)
    (hb : (⟨1, ![1]⟩ : Shape).BroadcastsInDim ⟨2, ![1, 1]⟩ (![1] : Fin 1 → Fin 2)) :
    shapeCast ⟨2, ![1, 1]⟩ v h = broadcastInDim ⟨2, ![1, 1]⟩ (![1] : Fin 1 → Fin 2) hb v := by
  funext j
  have hj0 : (j 0).val < 1 := (j 0).isLt
  have hj1 : (j 1).val < 1 := (j 1).isLt
  let k : (⟨1, ![1]⟩ : Shape).Idx := fun a => match a with | ⟨0, _⟩ => ⟨(j 1).val, hj1⟩
  have e1 : shapeCast ⟨2, ![1, 1]⟩ v h j = v k := by
    refine shapeCast_apply v h j k ?_
    rw [Shape.rowMajor_val_one, Shape.rowMajor_val_two]
    show (j 1).val = (j 0).val * 1 + (j 1).val
    omega
  have e2 : broadcastInDim ⟨2, ![1, 1]⟩ (![1] : Fin 1 → Fin 2) hb v j = v k := by
    refine broadcastInDim_apply _ hb v j k fun a => ?_
    match a with
    | ⟨0, _⟩ =>
      show (j 1).val = if (1 : Nat) = 1 then 0 else _
      rw [if_pos rfl]; omega
  rw [e1, e2]

end Cert.Reshape

end
-- ==== Proof.RegionMM.lean ====
/-
  What each of the three matrix-product regions leaves in its output array.

  A product region walks the rows of its left factor in ten blocks of 5000 rows. At block `t` it loads rows
  5000·t … 5000·t+4999 of the left factor and the whole weight matrix, changes both to the narrower float format (at the
  extended reals a change of format is the identity), multiplies them into a zero accumulator, and writes the
  result to rows 5000·t … 5000·t+4999 of the output. An entry (r, j) of a block product is the sum over the 128
  summation positions k of (block row r, column k) of the left factor times (row k, column j) of the weight; that is
  entry (5000·t + r, j) of the whole product of the two arrays, which is the same sum over k. The ten blocks cover every
  row of the output, so after the region the output array is the whole product of the two arrays the region found on
  entry. The first two regions have 128 output columns, the third has one.
-/
import proofs.«404270_j75642964017424_1_alg».proof.Proof.Gen.KernelIdeal.Frame
import proofs.«404270_j75642964017424_1_alg».proof.Proof.Gen.ReferenceIdeal
import proofs.«404270_j75642964017424_1_alg».proof.Proof.Dense
import Idealize.ShloMosaic.Lib.Pipeline.Value
import Idealize.ShloMosaic.Lib.ValueIdx
import Idealize.ShloMosaic.PureOps.Ideal.Laws

set_option maxRecDepth 16384

noncomputable section

namespace Cert.KernelIdeal.RegionMM

open Cert.KernelIdeal Cert.KernelIdeal.Gen
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

open Idealize.ShloMosaic.ValueIdx

/-! ## A block product with 128 output columns, at an entry -/

/-- Row axis of the left factor: the output entry's row. -/
theorem lhs_blk128_0 (j : S5000x128.Idx) (k : dot_S5000x128_S128x128_S5000x128_1_0_0_1_n_n.contr.Idx) :
    (dot_S5000x128_S128x128_S5000x128_1_0_0_1_n_n.lhsIdx j k 0 : ℕ) = (j 0 : ℕ) := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

/-- Column axis of the left factor: the summation position. -/
theorem lhs_blk128_1 (j : S5000x128.Idx) (k : dot_S5000x128_S128x128_S5000x128_1_0_0_1_n_n.contr.Idx) :
    (dot_S5000x128_S128x128_S5000x128_1_0_0_1_n_n.lhsIdx j k 1 : ℕ) = (k ⟨0, by decide⟩ : ℕ) :=
  dot_S5000x128_S128x128_S5000x128_1_0_0_1_n_n.lhsIdx_val_of_single rfl j k

/-- Row axis of the weight: the summation position. -/
theorem rhs_blk128_0 (j : S5000x128.Idx) (k : dot_S5000x128_S128x128_S5000x128_1_0_0_1_n_n.contr.Idx) :
    (dot_S5000x128_S128x128_S5000x128_1_0_0_1_n_n.rhsIdx j k 0 : ℕ) = (k ⟨0, by decide⟩ : ℕ) :=
  dot_S5000x128_S128x128_S5000x128_1_0_0_1_n_n.rhsIdx_val_of_single rfl j k

/-- Column axis of the weight: the output entry's column. -/
theorem rhs_blk128_1 (j : S5000x128.Idx) (k : dot_S5000x128_S128x128_S5000x128_1_0_0_1_n_n.contr.Idx) :
    (dot_S5000x128_S128x128_S5000x128_1_0_0_1_n_n.rhsIdx j k 1 : ℕ) = (j 1 : ℕ) := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- The product of a 5000-row block with a 128-column weight into a zero accumulator, at an entry: the sum over the
    128 summation positions of the row's entries times the column's. -/
theorem blockProduct128_apply (a : FVec Ideal S5000x128 .bf16) (b : FVec Ideal S128x128 .bf16) (j : S5000x128.Idx) :
    matmul dot_S5000x128_S128x128_S5000x128_1_0_0_1_n_n none a b (constant S5000x128 .f32 0x00000000#32) j
      = ∑ k : Fin 128, a (ix2 ⟨(j 0).val, (j 0).isLt⟩ k) * b (ix2 k ⟨(j 1).val, (j 1).isLt⟩) := by
  show FloatOps.matmul dot_S5000x128_S128x128_S5000x128_1_0_0_1_n_n none a b (constant S5000x128 .f32 0x00000000#32) j = _
  rw [Ideal.matmul_constant_zero_apply,
    ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have hl : dot_S5000x128_S128x128_S5000x128_1_0_0_1_n_n.lhsIdx j
      ((contrEquiv1 dot_S5000x128_S128x128_S5000x128_1_0_0_1_n_n 128 rfl rfl).symm k) = ix2 ⟨(j 0).val, (j 0).isLt⟩ k := by
    funext ax; apply Fin.ext
    match ax with
    | ⟨0, _⟩ => exact lhs_blk128_0 _ _
    | ⟨1, _⟩ => exact (lhs_blk128_1 _ _).trans hk
  have hr : dot_S5000x128_S128x128_S5000x128_1_0_0_1_n_n.rhsIdx j
      ((contrEquiv1 dot_S5000x128_S128x128_S5000x128_1_0_0_1_n_n 128 rfl rfl).symm k) = ix2 k ⟨(j 1).val, (j 1).isLt⟩ := by
    funext ax; apply Fin.ext
    match ax with
    | ⟨0, _⟩ => exact (rhs_blk128_0 _ _).trans hk
    | ⟨1, _⟩ => exact rhs_blk128_1 _ _
  rw [hl, hr]
  rfl

/-! ## The whole product with 128 output columns, at an entry -/

/-- Row axis of the left factor: the output entry's row. -/
theorem lhs_whole128_0 (i : Cert.ReferenceIdeal.S50000x128.Idx)
    (k : Cert.ReferenceIdeal.dot_S50000x128_S128x128_S50000x128_1_0_0_1_n_n.contr.Idx) :
    (Cert.ReferenceIdeal.dot_S50000x128_S128x128_S50000x128_1_0_0_1_n_n.lhsIdx i k 0 : ℕ) = (i 0 : ℕ) := by
  unfold DotDims.lhsIdx
  rw [dif_neg (show ¬(0 : Fin Cert.ReferenceIdeal.S50000x128.rank) ∈ Cert.ReferenceIdeal.dot_S50000x128_S128x128_S50000x128_1_0_0_1_n_n.lhsBatch by decide),
    dif_pos (show (0 : Fin Cert.ReferenceIdeal.S50000x128.rank) ∈ Cert.ReferenceIdeal.dot_S50000x128_S128x128_S50000x128_1_0_0_1_n_n.lhsNonContracting by decide)]
  rfl

/-- Column axis of the left factor: the summation position. -/
theorem lhs_whole128_1 (i : Cert.ReferenceIdeal.S50000x128.Idx)
    (k : Cert.ReferenceIdeal.dot_S50000x128_S128x128_S50000x128_1_0_0_1_n_n.contr.Idx) :
    (Cert.ReferenceIdeal.dot_S50000x128_S128x128_S50000x128_1_0_0_1_n_n.lhsIdx i k 1 : ℕ) = (k ⟨0, by decide⟩ : ℕ) :=
  Cert.ReferenceIdeal.dot_S50000x128_S128x128_S50000x128_1_0_0_1_n_n.lhsIdx_val_of_single rfl i k

/-- Row axis of the weight: the summation position. -/
theorem rhs_whole128_0 (i : Cert.ReferenceIdeal.S50000x128.Idx)
    (k : Cert.ReferenceIdeal.dot_S50000x128_S128x128_S50000x128_1_0_0_1_n_n.contr.Idx) :
    (Cert.ReferenceIdeal.dot_S50000x128_S128x128_S50000x128_1_0_0_1_n_n.rhsIdx i k 0 : ℕ) = (k ⟨0, by decide⟩ : ℕ) :=
  Cert.ReferenceIdeal.dot_S50000x128_S128x128_S50000x128_1_0_0_1_n_n.rhsIdx_val_of_single rfl i k

/-- Column axis of the weight: the output entry's column. -/
theorem rhs_whole128_1 (i : Cert.ReferenceIdeal.S50000x128.Idx)
    (k : Cert.ReferenceIdeal.dot_S50000x128_S128x128_S50000x128_1_0_0_1_n_n.contr.Idx) :
    (Cert.ReferenceIdeal.dot_S50000x128_S128x128_S50000x128_1_0_0_1_n_n.rhsIdx i k 1 : ℕ) = (i 1 : ℕ) := by
  unfold DotDims.rhsIdx
  rw [dif_neg (show ¬(1 : Fin Cert.ReferenceIdeal.S128x128.rank) ∈ Cert.ReferenceIdeal.dot_S50000x128_S128x128_S50000x128_1_0_0_1_n_n.rhsBatch by decide),
    dif_pos (show (1 : Fin Cert.ReferenceIdeal.S128x128.rank) ∈ Cert.ReferenceIdeal.dot_S50000x128_S128x128_S50000x128_1_0_0_1_n_n.rhsNonContracting by decide)]
  rfl

/-- The whole 128-column product at an entry: the same sum over the 128 summation positions. -/
theorem matmul128_apply (h : FVec Ideal Cert.ReferenceIdeal.S50000x128 .f32) (W : FVec Ideal Cert.ReferenceIdeal.S128x128 .f32)
    (i : Cert.ReferenceIdeal.S50000x128.Idx) :
    Cert.ReferenceIdeal.Dense.matmul128 (F := Ideal) h W i
      = ∑ k : Fin 128, h (ix2 ⟨(i 0).val, (i 0).isLt⟩ k) * W (ix2 k ⟨(i 1).val, (i 1).isLt⟩) := by
  show FloatOps.dotGeneral Cert.ReferenceIdeal.dot_S50000x128_S128x128_S50000x128_1_0_0_1_n_n none .single h W i = _
  rw [Ideal.dotGeneral_apply,
    ← Equiv.sum_comp (contrEquiv1 Cert.ReferenceIdeal.dot_S50000x128_S128x128_S50000x128_1_0_0_1_n_n 128 rfl rfl).symm]
  refine Finset.sum_congr rfl fun k _ => ?_
  have hk := contrEquiv1_symm_val Cert.ReferenceIdeal.dot_S50000x128_S128x128_S50000x128_1_0_0_1_n_n 128 rfl rfl k
  have hl : Cert.ReferenceIdeal.dot_S50000x128_S128x128_S50000x128_1_0_0_1_n_n.lhsIdx i
      ((contrEquiv1 Cert.ReferenceIdeal.dot_S50000x128_S128x128_S50000x128_1_0_0_1_n_n 128 rfl rfl).symm k)
        = ix2 ⟨(i 0).val, (i 0).isLt⟩ k := by
    funext ax; apply Fin.ext
    match ax with
    | ⟨0, _⟩ => exact lhs_whole128_0 _ _
    | ⟨1, _⟩ => exact (lhs_whole128_1 _ _).trans hk
  have hr : Cert.ReferenceIdeal.dot_S50000x128_S128x128_S50000x128_1_0_0_1_n_n.rhsIdx i
      ((contrEquiv1 Cert.ReferenceIdeal.dot_S50000x128_S128x128_S50000x128_1_0_0_1_n_n 128 rfl rfl).symm k)
        = ix2 k ⟨(i 1).val, (i 1).isLt⟩ := by
    funext ax; apply Fin.ext
    match ax with
    | ⟨0, _⟩ => exact (rhs_whole128_0 _ _).trans hk
    | ⟨1, _⟩ => exact rhs_whole128_1 _ _
  rw [hl, hr]
  rfl

/-! ## A block product with one output column, at an entry -/

/-- Row axis of the left factor: the output entry's row. -/
theorem lhs_blk1_0 (j : S5000x1.Idx) (k : dot_S5000x128_S128x1_S5000x1_1_0_0_1_n_n.contr.Idx) :
    (dot_S5000x128_S128x1_S5000x1_1_0_0_1_n_n.lhsIdx j k 0 : ℕ) = (j 0 : ℕ) := by
  unfold DotDims.lhsIdx
  rw [dif_neg (show ¬(0 : Fin S5000x128.rank) ∈ dot_S5000x128_S128x1_S5000x1_1_0_0_1_n_n.lhsBatch by decide),
    dif_pos (show (0 : Fin S5000x128.rank) ∈ dot_S5000x128_S128x1_S5000x1_1_0_0_1_n_n.lhsNonContracting by decide)]
  rfl

/-- Column axis of the left factor: the summation position. -/
theorem lhs_blk1_1 (j : S5000x1.Idx) (k : dot_S5000x128_S128x1_S5000x1_1_0_0_1_n_n.contr.Idx) :
    (dot_S5000x128_S128x1_S5000x1_1_0_0_1_n_n.lhsIdx j k 1 : ℕ) = (k ⟨0, by decide⟩ : ℕ) :=
  dot_S5000x128_S128x1_S5000x1_1_0_0_1_n_n.lhsIdx_val_of_single rfl j k

/-- Row axis of the weight column: the summation position. -/
theorem rhs_blk1_0 (j : S5000x1.Idx) (k : dot_S5000x128_S128x1_S5000x1_1_0_0_1_n_n.contr.Idx) :
    (dot_S5000x128_S128x1_S5000x1_1_0_0_1_n_n.rhsIdx j k 0 : ℕ) = (k ⟨0, by decide⟩ : ℕ) :=
  dot_S5000x128_S128x1_S5000x1_1_0_0_1_n_n.rhsIdx_val_of_single rfl j k

/-- Column axis of the weight column: the output entry's (one) column. -/
theorem rhs_blk1_1 (j : S5000x1.Idx) (k : dot_S5000x128_S128x1_S5000x1_1_0_0_1_n_n.contr.Idx) :
    (dot_S5000x128_S128x1_S5000x1_1_0_0_1_n_n.rhsIdx j k 1 : ℕ) = (j 1 : ℕ) := by
  unfold DotDims.rhsIdx
  rw [dif_neg (show ¬(1 : Fin S128x1.rank) ∈ dot_S5000x128_S128x1_S5000x1_1_0_0_1_n_n.rhsBatch by decide),
    dif_pos (show (1 : Fin S128x1.rank) ∈ dot_S5000x128_S128x1_S5000x1_1_0_0_1_n_n.rhsNonContracting by decide)]
  rfl

/-- The product of a 5000-row block with a one-column weight into a zero accumulator, at an entry: the sum over the
    128 summation positions of the row's entries times the column's. -/
theorem blockProduct1_apply (a : FVec Ideal S5000x128 .bf16) (b : FVec Ideal S128x1 .bf16) (j : S5000x1.Idx) :
    matmul dot_S5000x128_S128x1_S5000x1_1_0_0_1_n_n none a b (constant S5000x1 .f32 0x00000000#32) j
      = ∑ k : Fin 128, a (ix2 ⟨(j 0).val, (j 0).isLt⟩ k) * b (ix2 k ⟨(j 1).val, (j 1).isLt⟩) := by
  show FloatOps.matmul dot_S5000x128_S128x1_S5000x1_1_0_0_1_n_n none a b (constant S5000x1 .f32 0x00000000#32) j = _
  rw [Ideal.matmul_constant_zero_apply,
    ← Equiv.sum_comp (contrEquiv1 dot_S5000x128_S128x1_S5000x1_1_0_0_1_n_n 128 rfl rfl).symm]
  refine Finset.sum_congr rfl fun k _ => ?_
  have hk := contrEquiv1_symm_val dot_S5000x128_S128x1_S5000x1_1_0_0_1_n_n 128 rfl rfl k
  have hl : dot_S5000x128_S128x1_S5000x1_1_0_0_1_n_n.lhsIdx j
      ((contrEquiv1 dot_S5000x128_S128x1_S5000x1_1_0_0_1_n_n 128 rfl rfl).symm k) = ix2 ⟨(j 0).val, (j 0).isLt⟩ k := by
    funext ax; apply Fin.ext
    match ax with
    | ⟨0, _⟩ => exact lhs_blk1_0 _ _
    | ⟨1, _⟩ => exact (lhs_blk1_1 _ _).trans hk
  have hr : dot_S5000x128_S128x1_S5000x1_1_0_0_1_n_n.rhsIdx j
      ((contrEquiv1 dot_S5000x128_S128x1_S5000x1_1_0_0_1_n_n 128 rfl rfl).symm k) = ix2 k ⟨(j 1).val, (j 1).isLt⟩ := by
    funext ax; apply Fin.ext
    match ax with
    | ⟨0, _⟩ => exact (rhs_blk1_0 _ _).trans hk
    | ⟨1, _⟩ => exact rhs_blk1_1 _ _
  rw [hl, hr]
  rfl

/-! ## The whole product with one output column, at an entry -/

/-- Row axis of the left factor: the output entry's row. -/
theorem lhs_whole1_0 (i : Cert.ReferenceIdeal.S50000x1.Idx)
    (k : Cert.ReferenceIdeal.dot_S50000x128_S128x1_S50000x1_1_0_0_1_n_n.contr.Idx) :
    (Cert.ReferenceIdeal.dot_S50000x128_S128x1_S50000x1_1_0_0_1_n_n.lhsIdx i k 0 : ℕ) = (i 0 : ℕ) := by
  unfold DotDims.lhsIdx
  rw [dif_neg (show ¬(0 : Fin Cert.ReferenceIdeal.S50000x128.rank) ∈ Cert.ReferenceIdeal.dot_S50000x128_S128x1_S50000x1_1_0_0_1_n_n.lhsBatch by decide),
    dif_pos (show (0 : Fin Cert.ReferenceIdeal.S50000x128.rank) ∈ Cert.ReferenceIdeal.dot_S50000x128_S128x1_S50000x1_1_0_0_1_n_n.lhsNonContracting by decide)]
  rfl

/-- Column axis of the left factor: the summation position. -/
theorem lhs_whole1_1 (i : Cert.ReferenceIdeal.S50000x1.Idx)
    (k : Cert.ReferenceIdeal.dot_S50000x128_S128x1_S50000x1_1_0_0_1_n_n.contr.Idx) :
    (Cert.ReferenceIdeal.dot_S50000x128_S128x1_S50000x1_1_0_0_1_n_n.lhsIdx i k 1 : ℕ) = (k ⟨0, by decide⟩ : ℕ) :=
  Cert.ReferenceIdeal.dot_S50000x128_S128x1_S50000x1_1_0_0_1_n_n.lhsIdx_val_of_single rfl i k

/-- Row axis of the weight column: the summation position. -/
theorem rhs_whole1_0 (i : Cert.ReferenceIdeal.S50000x1.Idx)
    (k : Cert.ReferenceIdeal.dot_S50000x128_S128x1_S50000x1_1_0_0_1_n_n.contr.Idx) :
    (Cert.ReferenceIdeal.dot_S50000x128_S128x1_S50000x1_1_0_0_1_n_n.rhsIdx i k 0 : ℕ) = (k ⟨0, by decide⟩ : ℕ) :=
  Cert.ReferenceIdeal.dot_S50000x128_S128x1_S50000x1_1_0_0_1_n_n.rhsIdx_val_of_single rfl i k

/-- Column axis of the weight column: the output entry's (one) column. -/
theorem rhs_whole1_1 (i : Cert.ReferenceIdeal.S50000x1.Idx)
    (k : Cert.ReferenceIdeal.dot_S50000x128_S128x1_S50000x1_1_0_0_1_n_n.contr.Idx) :
    (Cert.ReferenceIdeal.dot_S50000x128_S128x1_S50000x1_1_0_0_1_n_n.rhsIdx i k 1 : ℕ) = (i 1 : ℕ) := by
  unfold DotDims.rhsIdx
  rw [dif_neg (show ¬(1 : Fin Cert.ReferenceIdeal.S128x1.rank) ∈ Cert.ReferenceIdeal.dot_S50000x128_S128x1_S50000x1_1_0_0_1_n_n.rhsBatch by decide),
    dif_pos (show (1 : Fin Cert.ReferenceIdeal.S128x1.rank) ∈ Cert.ReferenceIdeal.dot_S50000x128_S128x1_S50000x1_1_0_0_1_n_n.rhsNonContracting by decide)]
  rfl

/-- The whole one-column product at an entry: the same sum over the 128 summation positions. -/
theorem matmul1_apply (h : FVec Ideal Cert.ReferenceIdeal.S50000x128 .f32) (W : FVec Ideal Cert.ReferenceIdeal.S128x1 .f32)
    (i : Cert.ReferenceIdeal.S50000x1.Idx) :
    Cert.ReferenceIdeal.Dense.matmul1 (F := Ideal) h W i
      = ∑ k : Fin 128, h (ix2 ⟨(i 0).val, (i 0).isLt⟩ k) * W (ix2 k ⟨(i 1).val, (i 1).isLt⟩) := by
  show FloatOps.dotGeneral Cert.ReferenceIdeal.dot_S50000x128_S128x1_S50000x1_1_0_0_1_n_n none .single h W i = _
  rw [Ideal.dotGeneral_apply,
    ← Equiv.sum_comp (contrEquiv1 Cert.ReferenceIdeal.dot_S50000x128_S128x1_S50000x1_1_0_0_1_n_n 128 rfl rfl).symm]
  refine Finset.sum_congr rfl fun k _ => ?_
  have hk := contrEquiv1_symm_val Cert.ReferenceIdeal.dot_S50000x128_S128x1_S50000x1_1_0_0_1_n_n 128 rfl rfl k
  have hl : Cert.ReferenceIdeal.dot_S50000x128_S128x1_S50000x1_1_0_0_1_n_n.lhsIdx i
      ((contrEquiv1 Cert.ReferenceIdeal.dot_S50000x128_S128x1_S50000x1_1_0_0_1_n_n 128 rfl rfl).symm k)
        = ix2 ⟨(i 0).val, (i 0).isLt⟩ k := by
    funext ax; apply Fin.ext
    match ax with
    | ⟨0, _⟩ => exact lhs_whole1_0 _ _
    | ⟨1, _⟩ => exact (lhs_whole1_1 _ _).trans hk
  have hr : Cert.ReferenceIdeal.dot_S50000x128_S128x1_S50000x1_1_0_0_1_n_n.rhsIdx i
      ((contrEquiv1 Cert.ReferenceIdeal.dot_S50000x128_S128x1_S50000x1_1_0_0_1_n_n 128 rfl rfl).symm k)
        = ix2 k ⟨(i 1).val, (i 1).isLt⟩ := by
    funext ax; apply Fin.ext
    match ax with
    | ⟨0, _⟩ => exact (rhs_whole1_0 _ _).trans hk
    | ⟨1, _⟩ => exact rhs_whole1_1 _ _
  rw [hl, hr]
  rfl

/-! ## What each region's body stores, at an entry -/

/-- The first region's body: the change of format is the identity, so the stored entry is the sum over the summation
    positions of the loaded row's entries times the loaded weight's column's. -/
theorem pay0_apply (x0 : Vec Ideal S5000x128 .f32) (x1 : Vec Ideal S128x128 .f32) (j : S5000x128.Idx) :
    k0_pay1 (F := Ideal) x0 x1 j = ∑ k : Fin 128, x0 (ix2 ⟨(j 0).val, (j 0).isLt⟩ k) * x1 (ix2 k ⟨(j 1).val, (j 1).isLt⟩) := by
  unfold k0_pay1
  exact blockProduct128_apply _ _ j

/-- The second region's body: a reshape to the same shape and the change of format are both the identity. -/
theorem pay2_apply (x0 : Vec Ideal S5000x128 .f32) (x1 : Vec Ideal S128x128 .f32) (j : S5000x128.Idx) :
    k2_pay1 (F := Ideal) x0 x1 j = ∑ k : Fin 128, x0 (ix2 ⟨(j 0).val, (j 0).isLt⟩ k) * x1 (ix2 k ⟨(j 1).val, (j 1).isLt⟩) := by
  unfold k2_pay1
  simp only [shapeCast_self]
  exact blockProduct128_apply _ _ j

/-- The third region's body: the same, with a one-column weight. -/
theorem pay4_apply (x0 : Vec Ideal S5000x128 .f32) (x1 : Vec Ideal S128x1 .f32) (j : S5000x1.Idx) :
    k4_pay1 (F := Ideal) x0 x1 j = ∑ k : Fin 128, x0 (ix2 ⟨(j 0).val, (j 0).isLt⟩ k) * x1 (ix2 k ⟨(j 1).val, (j 1).isLt⟩) := by
  unfold k4_pay1
  simp only [shapeCast_self]
  exact blockProduct1_apply _ _ j

theorem offsets_zero : (![0, 0] : Fin 2 → Nat) = fun _ => 0 := funext fun a => by fin_cases a <;> rfl

/-! ## Region 0: the first layer's product -/

/-- Where each window's block sits at a grid point: the row-blocked windows (the left factor and the output) at block
    row `t`, the weight always at its one block. -/
theorem blockIndex0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the whole product of the two arrays the region finds. -/
theorem flushed0_eq (c : Dev nD) (t : Fin cfg0.N) :
    (dat0 V c).flushed 2 t = ((cfg0.win 2).blk t).view.read (Elt Ideal)
      (Cert.ReferenceIdeal.Dense.matmul128 (F := Ideal) (V c main_arg0) (V c main_arg2)) := by
  show (cfg0.win 2).cut (grid0.coords t) ((dat0 V c).after 2 t) = _
  rw [after0_2]
  unfold out0_2
  rw [View.canon_unit_zero offsets_zero]
  simp only [View.ld_unit_zero (S := S5000x128) offsets_zero, View.ld_unit_zero (S := S128x128) offsets_zero]
  obtain ⟨e00, e01, e10, e11, e20, e21⟩ := blockIndex0 t
  funext j
  have hj0 : (j 0).val < 5000 := (j 0).isLt
  have hj1 : (j 1).val < 128 := (j 1).isLt
  refine (pay0_apply (iblk0 V c 0 t) (iblk0 V c 1 t) ((cfg0.win 2).xinj (grid0.coords t) j)).trans ?_
  refine Eq.trans ?_ (matmul128_apply (V c main_arg0) (V c main_arg2) (((cfg0.win 2).blk t).view.emb j)).symm
  refine Finset.sum_congr rfl fun k _ => ?_
  congr 1
  · show V c main_arg0 (((cfg0.win 0).blk t).view.emb _) = V c main_arg0 _
    refine congrArg (V c main_arg0) (funext fun a => Fin.ext ?_)
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  · show V c main_arg2 (((cfg0.win 1).blk t).view.emb _) = V c main_arg2 _
    refine congrArg (V c main_arg2) (funext fun a => Fin.ext ?_)
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega

/-- An index of the output array is in point `t`'s block iff each coordinate is in the block's range on its axis. -/
theorem mem_blk0 (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v32).slice (win0_2.rect t)).set ↔ _
  rw [View.set_slice_whole, Rect.mem_set_unit]
  exact Iff.rfl

/-- Every entry of the output array is in the block of the point its row falls in: row `r` in block `r / 5000`. -/
theorem covered0 (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 10 := N_0
  obtain ⟨t, ht⟩ : ∃ t : Fin cfg0.N, t.val = (i 0).val / 5000 := ⟨⟨(i 0).val / 5000, by rw [hN]; omega⟩, rfl⟩
  obtain ⟨-, -, -, -, e20, e21⟩ := blockIndex0 t
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- After the first product region its output array holds the whole product of the two arrays it found. -/
theorem arr0 (c : Dev nD) :
    (dat0 V c).arrAt 2 cfg0.N = Cert.ReferenceIdeal.Dense.matmul128 (F := Ideal) (V c main_arg0) (V c main_arg2) :=
  (dat0 V c).arrAt_eq_of_cover 2 _ (fun t _ => flushed0_eq V c t) (fun i => covered0 i)

/-! ## Region 2: the second layer's product -/

/-- Where each window's block sits at a grid point. -/
theorem blockIndex2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the whole product of the two arrays the region finds. -/
theorem flushed2_eq (c : Dev nD) (t : Fin cfg2.N) :
    (dat2 V c).flushed 2 t = ((cfg2.win 2).blk t).view.read (Elt Ideal)
      (Cert.ReferenceIdeal.Dense.matmul128 (F := Ideal) (V c main_v42) (V c main_arg4)) := by
  show (cfg2.win 2).cut (grid2.coords t) ((dat2 V c).after 2 t) = _
  rw [after2_2]
  unfold out2_2
  rw [View.canon_unit_zero offsets_zero]
  simp only [View.ld_unit_zero (S := S5000x128) offsets_zero, View.ld_unit_zero (S := S128x128) offsets_zero]
  obtain ⟨e00, e01, e10, e11, e20, e21⟩ := blockIndex2 t
  funext j
  have hj0 : (j 0).val < 5000 := (j 0).isLt
  have hj1 : (j 1).val < 128 := (j 1).isLt
  refine (pay2_apply (iblk2 V c 0 t) (iblk2 V c 1 t) ((cfg2.win 2).xinj (grid2.coords t) j)).trans ?_
  refine Eq.trans ?_ (matmul128_apply (V c main_v42) (V c main_arg4) (((cfg2.win 2).blk t).view.emb j)).symm
  refine Finset.sum_congr rfl fun k _ => ?_
  congr 1
  · show V c main_v42 (((cfg2.win 0).blk t).view.emb _) = V c main_v42 _
    refine congrArg (V c main_v42) (funext fun a => Fin.ext ?_)
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 128 + 1 * k.val = k.val; omega
  · show V c main_arg4 (((cfg2.win 1).blk t).view.emb _) = V c main_arg4 _
    refine congrArg (V c main_arg4) (funext fun a => Fin.ext ?_)
    match a with
    | ⟨0, _⟩ => show win2_1.index t (0 : Fin 2) * 128 + 1 * k.val = k.val; omega
    | ⟨1, _⟩ => show win2_1.index t (1 : Fin 2) * 128 + 1 * (j 1).val = win2_2.index t (1 : Fin 2) * 128 + 1 * (j 1).val; omega

/-- An index of the output array is in point `t`'s block iff each coordinate is in the block's range on its axis. -/
theorem mem_blk2 (t : Fin cfg2.N) (i : S50000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v43).slice (win2_2.rect t)).set ↔ _
  rw [View.set_slice_whole, Rect.mem_set_unit]
  exact Iff.rfl

/-- Every entry of the output array is in the block of the point its row falls in. -/
theorem covered2 (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  have hN : cfg2.N = 10 := N_2
  obtain ⟨t, ht⟩ : ∃ t : Fin cfg2.N, t.val = (i 0).val / 5000 := ⟨⟨(i 0).val / 5000, by rw [hN]; omega⟩, rfl⟩
  obtain ⟨-, -, -, -, e20, e21⟩ := blockIndex2 t
  refine ⟨t, flush2_2 t, ?_⟩
  rw [mem_blk2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- After the second product region its output array holds the whole product of the two arrays it found. -/
theorem arr2 (c : Dev nD) :
    (dat2 V c).arrAt 2 cfg2.N = Cert.ReferenceIdeal.Dense.matmul128 (F := Ideal) (V c main_v42) (V c main_arg4) :=
  (dat2 V c).arrAt_eq_of_cover 2 _ (fun t _ => flushed2_eq V c t) (fun i => covered2 i)

/-! ## Region 4: the third layer's product, one output column -/

/-- Where each window's block sits at a grid point. -/
theorem blockIndex4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- What point `t` writes back is block `t` of the whole product of the two arrays the region finds. -/
theorem flushed4_eq (c : Dev nD) (t : Fin cfg4.N) :
    (dat4 V c).flushed 2 t = ((cfg4.win 2).blk t).view.read (Elt Ideal)
      (Cert.ReferenceIdeal.Dense.matmul1 (F := Ideal) (V c main_v53) (V c main_arg6)) := by
  show (cfg4.win 2).cut (grid4.coords t) ((dat4 V c).after 2 t) = _
  rw [after4_2]
  unfold out4_2
  rw [View.canon_unit_zero offsets_zero]
  simp only [View.ld_unit_zero (S := S5000x128) offsets_zero, View.ld_unit_zero (S := S128x1) offsets_zero]
  obtain ⟨e00, e01, e10, e11, e20, e21⟩ := blockIndex4 t
  funext j
  have hj0 : (j 0).val < 5000 := (j 0).isLt
  have hj1 : (j 1).val < 1 := (j 1).isLt
  refine (pay4_apply (iblk4 V c 0 t) (iblk4 V c 1 t) ((cfg4.win 2).xinj (grid4.coords t) j)).trans ?_
  refine Eq.trans ?_ (matmul1_apply (V c main_v53) (V c main_arg6) (((cfg4.win 2).blk t).view.emb j)).symm
  refine Finset.sum_congr rfl fun k _ => ?_
  congr 1
  · show V c main_v53 (((cfg4.win 0).blk t).view.emb _) = V c main_v53 _
    refine congrArg (V c main_v53) (funext fun a => Fin.ext ?_)
    match a with
    | ⟨0, _⟩ => show win4_0.index t (0 : Fin 2) * 5000 + 1 * (j 0).val = win4_2.index t (0 : Fin 2) * 5000 + 1 * (j 0).val; omega
    | ⟨1, _⟩ => show win4_0.index t (1 : Fin 2) * 128 + 1 * k.val = k.val; omega
  · show V c main_arg6 (((cfg4.win 1).blk t).view.emb _) = V c main_arg6 _
    refine congrArg (V c main_arg6) (funext fun a => Fin.ext ?_)
    match a with
    | ⟨0, _⟩ => show win4_1.index t (0 : Fin 2) * 128 + 1 * k.val = k.val; omega
    | ⟨1, _⟩ => show win4_1.index t (1 : Fin 2) * 1 + 1 * (j 1).val = win4_2.index t (1 : Fin 2) * 1 + 1 * (j 1).val; omega

/-- An index of the output array is in point `t`'s block iff each coordinate is in the block's range on its axis. -/
theorem mem_blk4 (t : Fin cfg4.N) (i : S50000x1.Idx) :
    i ∈ ((cfg4.win 2).blk t).view.set ↔ ∀ a : Fin 2, win4_2.index t a * S5000x1.size a ≤ (i a).val ∧ (i a).val < win4_2.index t a * S5000x1.size a + S5000x1.size a := by
  show i ∈ ((View.whole main_v54).slice (win4_2.rect t)).set ↔ _
  rw [View.set_slice_whole, Rect.mem_set_unit]
  exact Iff.rfl

/-- Every entry of the output column is in the block of the point its row falls in. -/
theorem covered4 (i : S50000x1.Idx) :
    ∃ t : Fin cfg4.N, (cfg4.win 2).flush t = true ∧ i ∈ ((cfg4.win 2).blk t).view.set := by
  have hi0 : (i 0).val < 50000 := (i 0).isLt
  have hi1 : (i 1).val < 1 := (i 1).isLt
  have hN : cfg4.N = 10 := N_4
  obtain ⟨t, ht⟩ : ∃ t : Fin cfg4.N, t.val = (i 0).val / 5000 := ⟨⟨(i 0).val / 5000, by rw [hN]; omega⟩, rfl⟩
  obtain ⟨-, -, -, -, e20, e21⟩ := blockIndex4 t
  refine ⟨t, flush4_2 t, ?_⟩
  rw [mem_blk4]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 1 ≤ (i 1).val ∧ (i 1).val < win4_2.index t (1 : Fin 2) * 1 + 1; omega

/-- After the third product region its output column holds the whole product of the two arrays it found. -/
theorem arr4 (c : Dev nD) :
    (dat4 V c).arrAt 2 cfg4.N = Cert.ReferenceIdeal.Dense.matmul1 (F := Ideal) (V c main_v53) (V c main_arg6) :=
  (dat4 V c).arrAt_eq_of_cover 2 _ (fun t _ => flushed4_eq V c t) (fun i => covered4 i)

end Cert.KernelIdeal.RegionMM

end
-- ==== Proof.RegionCB.lean ====
/-
  The three combine regions of the graph convolution, each read as ONE whole-array equation.

  A combine region walks ten blocks of 5000 node rows. At block `t` it reads rows 5000·t … 5000·t + 4999 of the
  aggregate `agg`, of the transformed features `hw` and of the per-node scale column `sn`, together with the
  whole bias row `b`, and writes into the same rows of its output the entries

      out[r, k] = max ((agg[r, k] + hw[r, k] · sn[r, 0]) + b[0, k]) 0 .

  Every entry of a block depends only on the entries of the inputs in its own row and column, so block `t` of the output
  is block `t` of one function of the four whole input arrays; the ten blocks tile the 50000 rows (row `r` lies in block
  `r / 5000`), so after the region the output array IS that function: the elementwise maximum with zero of
  `(agg + hw * sn) + b`, with `sn` broadcast along columns and `b` along rows. Regions 1 and 3 have 128 columns;
  region 5 has one column, where `sn` needs no broadcast and `b` is a single entry.

  Per region: the body's stored value at one block entry (`pay…_apply`), the whole-array term at one array entry
  (`tail…_apply`), the block index of every window at every grid point (`index_facts…`), what one point writes back
  (`flushed…_eq`), the tiling (`mem_blk…`, `cover…`), and the array after the region (`arr…`).
-/
import proofs.«404270_j75642964017424_1_alg».proof.Proof.Gen.KernelIdeal.Frame
import proofs.«404270_j75642964017424_1_alg».proof.Proof.Gen.ReferenceIdeal
import Idealize.ShloMosaic.Lib.Pipeline.Value
import Idealize.ShloMosaic.Lib.ValueIdx
import Idealize.ShloMosaic.PureOps.Ideal.Laws

set_option maxRecDepth 16384

noncomputable section

namespace Cert.KernelIdeal.RegionCB

open Cert.KernelIdeal Cert.KernelIdeal.Gen
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

theorem pay1_apply (x0 x1 : Vec Ideal S5000x128 .f32) (x2 : Vec Ideal S5000x1 .f32) (x3 : Vec Ideal S1x128 .f32)
    (j : S5000x128.Idx) (kr : S5000x1.Idx) (kc : S1x128.Idx)
    (hr0 : (kr 0).val = (j 0).val) (hr1 : (kr 1).val = 0) (hc0 : (kc 0).val = 0) (hc1 : (kc 1).val = (j 1).val) :
    k1_pay1 x0 x1 x2 x3 j = max ((x0 j + x1 j * x2 kr) + x3 kc) (Ideal.ofBits .f32 0x00000000#32) := by
  unfold k1_pay1
  simp only [shapeCast_self]
  have e2 : broadcastTo S5000x128 x2 broadcasts_S5000x1_S5000x128 j = x2 kr :=
    broadcastTo_apply x2 _ j kr fun a => by
      match a with
      | ⟨0, _⟩ => exact hr0.trans (if_neg (fun h => absurd h (by decide : ¬ ((5000 : ℕ) = 1)))).symm
      | ⟨1, _⟩ => exact hr1.trans (if_pos rfl).symm
  have e3 : broadcastTo S5000x128 x3 broadcasts_S1x128_S5000x128 j = x3 kc :=
    broadcastTo_apply x3 _ j kc fun a => by
      match a with
      | ⟨0, _⟩ => exact hc0.trans (if_pos rfl).symm
      | ⟨1, _⟩ => exact hc1.trans (if_neg (fun h => absurd h (by decide : ¬ ((128 : ℕ) = 1)))).symm
  show max ((x0 j + x1 j * broadcastTo S5000x128 x2 broadcasts_S5000x1_S5000x128 j) + broadcastTo S5000x128 x3 broadcasts_S1x128_S5000x128 j) (Ideal.ofBits .f32 0x00000000#32) = _
  rw [e2, e3]

/-- The dense tail over whole arrays of 128 columns: the aggregate plus the product of the transformed features with the
    per-row scale, plus the bias row, clamped below at zero. -/
abbrev tail128 (A B : FVec Ideal Cert.ReferenceIdeal.S50000x128 .f32) (C : FVec Ideal Cert.ReferenceIdeal.S50000x1 .f32)
    (D : FVec Ideal Cert.ReferenceIdeal.S1x128 .f32) : FVec Ideal Cert.ReferenceIdeal.S50000x128 .f32 :=
  (maximumf (addf (addf A (mulf B (broadcastInDim Cert.ReferenceIdeal.S50000x128 ![0, 1] Cert.ReferenceIdeal.Facts₀.bcast_S50000x1_S50000x128_0_1 C))) (broadcastInDim Cert.ReferenceIdeal.S50000x128 ![0, 1] Cert.ReferenceIdeal.Facts₀.bcast_S1x128_S50000x128_0_1 D)) (broadcastInDim Cert.ReferenceIdeal.S50000x128 ![] Cert.ReferenceIdeal.Facts₀.bcast_S_S50000x128 (constant Cert.ReferenceIdeal.S_ .f32 0x00000000#32)) : FVec Ideal Cert.ReferenceIdeal.S50000x128 .f32)

theorem tail128_apply (A B : FVec Ideal Cert.ReferenceIdeal.S50000x128 .f32) (C : FVec Ideal Cert.ReferenceIdeal.S50000x1 .f32)
    (D : FVec Ideal Cert.ReferenceIdeal.S1x128 .f32)
    (i : S50000x128.Idx) (kr : S50000x1.Idx) (kc : S1x128.Idx)
    (hr0 : (kr 0).val = (i 0).val) (hr1 : (kr 1).val = 0) (hc0 : (kc 0).val = 0) (hc1 : (kc 1).val = (i 1).val) :
    tail128 A B C D i = max ((A i + B i * C kr) + D kc) (Ideal.ofBits .f32 0x00000000#32) := by
  have e2 : broadcastInDim Cert.ReferenceIdeal.S50000x128 ![0, 1] Cert.ReferenceIdeal.Facts₀.bcast_S50000x1_S50000x128_0_1 C i = C kr :=
    broadcastInDim_apply _ _ C i kr fun a => by
      match a with
      | ⟨0, _⟩ => exact hr0.trans (if_neg (fun h => absurd h (by decide : ¬ ((50000 : ℕ) = 1)))).symm
      | ⟨1, _⟩ => exact hr1.trans (if_pos rfl).symm
  have e3 : broadcastInDim Cert.ReferenceIdeal.S50000x128 ![0, 1] Cert.ReferenceIdeal.Facts₀.bcast_S1x128_S50000x128_0_1 D i = D kc :=
    broadcastInDim_apply _ _ D i kc fun a => by
      match a with
      | ⟨0, _⟩ => exact hc0.trans (if_pos rfl).symm
      | ⟨1, _⟩ => exact hc1.trans (if_neg (fun h => absurd h (by decide : ¬ ((128 : ℕ) = 1)))).symm
  show max ((A i + B i * broadcastInDim Cert.ReferenceIdeal.S50000x128 ![0, 1] Cert.ReferenceIdeal.Facts₀.bcast_S50000x1_S50000x128_0_1 C i) + broadcastInDim Cert.ReferenceIdeal.S50000x128 ![0, 1] Cert.ReferenceIdeal.Facts₀.bcast_S1x128_S50000x128_0_1 D i) (Ideal.ofBits .f32 0x00000000#32) = _
  rw [e2, e3]

/-! ## Region 1 -/

/-- The index maps over the grid: the row-blocked windows sit at block row `t`, block column 0; the bias window
    at block (0, 0). -/
theorem index_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

theorem flushed1_eq (c : Dev nD) (t : Fin cfg1.N) :
    (dat1 V c).flushed 4 t = ((cfg1.win 4).blk t).view.read (Elt Ideal)
      (tail128 (V c main_v39) (V c main_v32) (V c main_v40) (V c main_v41)) := by
  show (cfg1.win 4).cut (grid1.coords t) ((dat1 V c).after 4 t) = _
  rw [after1_4]
  unfold out1_4
  rw [View.canon_unit_zero zero_offsets]
  simp only [View.ld_unit_zero (S := S5000x128) zero_offsets, View.ld_unit_zero (S := S5000x1) zero_offsets,
    View.ld_unit_zero (S := S1x128) zero_offsets]
  obtain ⟨a00, a01, a10, a11, a20, a21, a30, a31, a40, a41⟩ := index_facts1 t
  have ht : t.val < 10 := lt_of_lt_of_eq t.isLt N_1
  funext j
  have hj0 : (j 0).val < 5000 := (j 0).isLt
  have hj1 : (j 1).val < 128 := (j 1).isLt
  show k1_pay1 (iblk1 V c 0 t) (iblk1 V c 1 t) (iblk1 V c 2 t) (iblk1 V c 3 t) j
      = tail128 (V c main_v39) (V c main_v32) (V c main_v40) (V c main_v41) (((cfg1.win 4).blk t).view.emb j)
  -- the row of the scale column and the column of the bias row that entry `j` of the block reads
  refine (pay1_apply _ _ _ _ j (ValueIdx.ix2 (⟨(j 0).val, hj0⟩ : Fin 5000) (⟨0, Nat.one_pos⟩ : Fin 1))
    (ValueIdx.ix2 (⟨0, Nat.one_pos⟩ : Fin 1) (⟨(j 1).val, hj1⟩ : Fin 128)) rfl rfl rfl rfl).trans ?_
  -- the same two in the whole arrays
  refine Eq.trans ?_ (tail128_apply _ _ _ _ (((cfg1.win 4).blk t).view.emb j)
    (ValueIdx.ix2 (⟨t.val * 5000 + (j 0).val, by omega⟩ : Fin 50000) (⟨0, Nat.one_pos⟩ : Fin 1))
    (ValueIdx.ix2 (⟨0, Nat.one_pos⟩ : Fin 1) (⟨(j 1).val, hj1⟩ : Fin 128))
    (by show t.val * 5000 + (j 0).val = win1_4.index t (0 : Fin 2) * 5000 + 1 * (j 0).val; omega) rfl rfl
    (by show (j 1).val = win1_4.index t (1 : Fin 2) * 128 + 1 * (j 1).val; omega)).symm
  have b0 : (iblk1 V c 0 t : Vec Ideal S5000x128 .f32) j
      = (V c main_v39 : S50000x128.Idx → Ideal .f32) (((cfg1.win 4).blk t).view.emb j) := by
    unfold iblk1
    show V c main_v39 (((cfg1.win 0).blk t).view.emb j) = V c main_v39 (((cfg1.win 4).blk t).view.emb j)
    refine congrArg _ (funext fun a => Fin.ext ?_)
    match a with
    | ⟨0, _⟩ => show win1_0.index t (0 : Fin 2) * 5000 + 1 * (j 0).val = win1_4.index t (0 : Fin 2) * 5000 + 1 * (j 0).val; omega
    | ⟨1, _⟩ => show win1_0.index t (1 : Fin 2) * 128 + 1 * (j 1).val = win1_4.index t (1 : Fin 2) * 128 + 1 * (j 1).val; omega
  have b1 : (iblk1 V c 1 t : Vec Ideal S5000x128 .f32) j
      = (V c main_v32 : S50000x128.Idx → Ideal .f32) (((cfg1.win 4).blk t).view.emb j) := by
    unfold iblk1
    show V c main_v32 (((cfg1.win 1).blk t).view.emb j) = V c main_v32 (((cfg1.win 4).blk t).view.emb j)
    refine congrArg _ (funext fun a => Fin.ext ?_)
    match a with
    | ⟨0, _⟩ => show win1_1.index t (0 : Fin 2) * 5000 + 1 * (j 0).val = win1_4.index t (0 : Fin 2) * 5000 + 1 * (j 0).val; omega
    | ⟨1, _⟩ => show win1_1.index t (1 : Fin 2) * 128 + 1 * (j 1).val = win1_4.index t (1 : Fin 2) * 128 + 1 * (j 1).val; omega
  have b2 : (iblk1 V c 2 t : Vec Ideal S5000x1 .f32) (ValueIdx.ix2 (⟨(j 0).val, hj0⟩ : Fin 5000) (⟨0, Nat.one_pos⟩ : Fin 1))
      = (V c main_v40 : S50000x1.Idx → Ideal .f32) (ValueIdx.ix2 (⟨t.val * 5000 + (j 0).val, by omega⟩ : Fin 50000) (⟨0, Nat.one_pos⟩ : Fin 1)) := by
    unfold iblk1
    show V c main_v40 (((cfg1.win 2).blk t).view.emb (ValueIdx.ix2 (⟨(j 0).val, hj0⟩ : Fin 5000) (⟨0, Nat.one_pos⟩ : Fin 1))) = V c main_v40 _
    refine congrArg _ (funext fun a => Fin.ext ?_)
    match a with
    | ⟨0, _⟩ => show win1_2.index t (0 : Fin 2) * 5000 + 1 * (j 0).val = t.val * 5000 + (j 0).val; omega
    | ⟨1, _⟩ => show win1_2.index t (1 : Fin 2) * 1 + 1 * 0 = 0; omega
  have b3 : (iblk1 V c 3 t : Vec Ideal S1x128 .f32) (ValueIdx.ix2 (⟨0, Nat.one_pos⟩ : Fin 1) (⟨(j 1).val, hj1⟩ : Fin 128))
      = (V c main_v41 : S1x128.Idx → Ideal .f32) (ValueIdx.ix2 (⟨0, Nat.one_pos⟩ : Fin 1) (⟨(j 1).val, hj1⟩ : Fin 128)) := by
    unfold iblk1
    show V c main_v41 (((cfg1.win 3).blk t).view.emb (ValueIdx.ix2 (⟨0, Nat.one_pos⟩ : Fin 1) (⟨(j 1).val, hj1⟩ : Fin 128))) = V c main_v41 _
    refine congrArg _ (funext fun a => Fin.ext ?_)
    match a with
    | ⟨0, _⟩ => show win1_3.index t (0 : Fin 2) * 1 + 1 * 0 = 0; omega
    | ⟨1, _⟩ => show win1_3.index t (1 : Fin 2) * 128 + 1 * (j 1).val = (j 1).val; omega
  rw [b0, b1, b2, b3]

/-- An array index is in point `t`'s output block iff each coordinate is in the block's range on its axis. -/
theorem mem_blk1 (t : Fin cfg1.N) (i : S50000x128.Idx) :
    i ∈ ((cfg1.win 4).blk t).view.set ↔ ∀ a : Fin 2, win1_4.index t a * S5000x128.size a ≤ (i a).val
      ∧ (i a).val < win1_4.index t a * S5000x128.size a + S5000x128.size a := by
  show i ∈ ((View.whole main_v42).slice (win1_4.rect t)).set ↔ _
  rw [View.set_slice_whole, Rect.mem_set_unit]
  exact Iff.rfl

/-- Row `r` of the output array is written back by the point `r / 5000`. -/
theorem cover1 (i : S50000x128.Idx) :
    ∃ t : Fin cfg1.N, (cfg1.win 4).flush t = true ∧ i ∈ ((cfg1.win 4).blk t).view.set := by
  have hi0 : (i 0).val < 50000 := (i 0).isLt
  have hi1 : (i 1).val < 128 := (i 1).isLt
  obtain ⟨t, ht⟩ : ∃ t : Fin cfg1.N, t.val = (i 0).val / 5000 :=
    ⟨⟨(i 0).val / 5000, by rw [show cfg1.N = 10 from N_1]; omega⟩, rfl⟩
  obtain ⟨-, -, -, -, -, -, -, -, a40, a41⟩ := index_facts1 t
  refine ⟨t, flush1_4 t, ?_⟩
  rw [mem_blk1]
  intro a
  match a with
  | ⟨0, _⟩ =>
    show win1_4.index t (0 : Fin 2) * 5000 ≤ (i 0).val ∧ (i 0).val < win1_4.index t (0 : Fin 2) * 5000 + 5000
    omega
  | ⟨1, _⟩ =>
    show win1_4.index t (1 : Fin 2) * 128 ≤ (i 1).val ∧ (i 1).val < win1_4.index t (1 : Fin 2) * 128 + 128
    omega

theorem arr1 (c : Dev nD) :
    (dat1 V c).arrAt 4 cfg1.N = (maximumf (addf (addf (V c main_v39) (mulf (V c main_v32) (broadcastInDim Cert.ReferenceIdeal.S50000x128 ![0, 1] Cert.ReferenceIdeal.Facts₀.bcast_S50000x1_S50000x128_0_1 (V c main_v40)))) (broadcastInDim Cert.ReferenceIdeal.S50000x128 ![0, 1] Cert.ReferenceIdeal.Facts₀.bcast_S1x128_S50000x128_0_1 (V c main_v41))) (broadcastInDim Cert.ReferenceIdeal.S50000x128 ![] Cert.ReferenceIdeal.Facts₀.bcast_S_S50000x128 (constant Cert.ReferenceIdeal.S_ .f32 0x00000000#32)) : FVec Ideal Cert.ReferenceIdeal.S50000x128 .f32) :=
  (dat1 V c).arrAt_eq_of_cover 4 (tail128 (V c main_v39) (V c main_v32) (V c main_v40) (V c main_v41))
    (fun t _ => flushed1_eq V c t) cover1

theorem pay3_apply (x0 x1 : Vec Ideal S5000x128 .f32) (x2 : Vec Ideal S5000x1 .f32) (x3 : Vec Ideal S1x128 .f32)
    (j : S5000x128.Idx) (kr : S5000x1.Idx) (kc : S1x128.Idx)
    (hr0 : (kr 0).val = (j 0).val) (hr1 : (kr 1).val = 0) (hc0 : (kc 0).val = 0) (hc1 : (kc 1).val = (j 1).val) :
    k3_pay1 x0 x1 x2 x3 j = max ((x0 j + x1 j * x2 kr) + x3 kc) (Ideal.ofBits .f32 0x00000000#32) := by
  unfold k3_pay1
  simp only [shapeCast_self]
  have e2 : broadcastTo S5000x128 x2 broadcasts_S5000x1_S5000x128 j = x2 kr :=
    broadcastTo_apply x2 _ j kr fun a => by
      match a with
      | ⟨0, _⟩ => exact hr0.trans (if_neg (fun h => absurd h (by decide : ¬ ((5000 : ℕ) = 1)))).symm
      | ⟨1, _⟩ => exact hr1.trans (if_pos rfl).symm
  have e3 : broadcastTo S5000x128 x3 broadcasts_S1x128_S5000x128 j = x3 kc :=
    broadcastTo_apply x3 _ j kc fun a => by
      match a with
      | ⟨0, _⟩ => exact hc0.trans (if_pos rfl).symm
      | ⟨1, _⟩ => exact hc1.trans (if_neg (fun h => absurd h (by decide : ¬ ((128 : ℕ) = 1)))).symm
  show max ((x0 j + x1 j * broadcastTo S5000x128 x2 broadcasts_S5000x1_S5000x128 j) + broadcastTo S5000x128 x3 broadcasts_S1x128_S5000x128 j) (Ideal.ofBits .f32 0x00000000#32) = _
  rw [e2, e3]

/-! ## Region 3 -/

/-- The index maps over the grid: the row-blocked windows sit at block row `t`, block column 0; the bias window
    at block (0, 0). -/
theorem index_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

theorem flushed3_eq (c : Dev nD) (t : Fin cfg3.N) :
    (dat3 V c).flushed 4 t = ((cfg3.win 4).blk t).view.read (Elt Ideal)
      (tail128 (V c main_v50) (V c main_v43) (V c main_v51) (V c main_v52)) := by
  show (cfg3.win 4).cut (grid3.coords t) ((dat3 V c).after 4 t) = _
  rw [after3_4]
  unfold out3_4
  rw [View.canon_unit_zero zero_offsets]
  simp only [View.ld_unit_zero (S := S5000x128) zero_offsets, View.ld_unit_zero (S := S5000x1) zero_offsets,
    View.ld_unit_zero (S := S1x128) zero_offsets]
  obtain ⟨a00, a01, a10, a11, a20, a21, a30, a31, a40, a41⟩ := index_facts3 t
  have ht : t.val < 10 := lt_of_lt_of_eq t.isLt N_3
  funext j
  have hj0 : (j 0).val < 5000 := (j 0).isLt
  have hj1 : (j 1).val < 128 := (j 1).isLt
  show k3_pay1 (iblk3 V c 0 t) (iblk3 V c 1 t) (iblk3 V c 2 t) (iblk3 V c 3 t) j
      = tail128 (V c main_v50) (V c main_v43) (V c main_v51) (V c main_v52) (((cfg3.win 4).blk t).view.emb j)
  -- the row of the scale column and the column of the bias row that entry `j` of the block reads
  refine (pay3_apply _ _ _ _ j (ValueIdx.ix2 (⟨(j 0).val, hj0⟩ : Fin 5000) (⟨0, Nat.one_pos⟩ : Fin 1))
    (ValueIdx.ix2 (⟨0, Nat.one_pos⟩ : Fin 1) (⟨(j 1).val, hj1⟩ : Fin 128)) rfl rfl rfl rfl).trans ?_
  -- the same two in the whole arrays
  refine Eq.trans ?_ (tail128_apply _ _ _ _ (((cfg3.win 4).blk t).view.emb j)
    (ValueIdx.ix2 (⟨t.val * 5000 + (j 0).val, by omega⟩ : Fin 50000) (⟨0, Nat.one_pos⟩ : Fin 1))
    (ValueIdx.ix2 (⟨0, Nat.one_pos⟩ : Fin 1) (⟨(j 1).val, hj1⟩ : Fin 128))
    (by show t.val * 5000 + (j 0).val = win3_4.index t (0 : Fin 2) * 5000 + 1 * (j 0).val; omega) rfl rfl
    (by show (j 1).val = win3_4.index t (1 : Fin 2) * 128 + 1 * (j 1).val; omega)).symm
  have b0 : (iblk3 V c 0 t : Vec Ideal S5000x128 .f32) j
      = (V c main_v50 : S50000x128.Idx → Ideal .f32) (((cfg3.win 4).blk t).view.emb j) := by
    unfold iblk3
    show V c main_v50 (((cfg3.win 0).blk t).view.emb j) = V c main_v50 (((cfg3.win 4).blk t).view.emb j)
    refine congrArg _ (funext fun a => Fin.ext ?_)
    match a with
    | ⟨0, _⟩ => show win3_0.index t (0 : Fin 2) * 5000 + 1 * (j 0).val = win3_4.index t (0 : Fin 2) * 5000 + 1 * (j 0).val; omega
    | ⟨1, _⟩ => show win3_0.index t (1 : Fin 2) * 128 + 1 * (j 1).val = win3_4.index t (1 : Fin 2) * 128 + 1 * (j 1).val; omega
  have b1 : (iblk3 V c 1 t : Vec Ideal S5000x128 .f32) j
      = (V c main_v43 : S50000x128.Idx → Ideal .f32) (((cfg3.win 4).blk t).view.emb j) := by
    unfold iblk3
    show V c main_v43 (((cfg3.win 1).blk t).view.emb j) = V c main_v43 (((cfg3.win 4).blk t).view.emb j)
    refine congrArg _ (funext fun a => Fin.ext ?_)
    match a with
    | ⟨0, _⟩ => show win3_1.index t (0 : Fin 2) * 5000 + 1 * (j 0).val = win3_4.index t (0 : Fin 2) * 5000 + 1 * (j 0).val; omega
    | ⟨1, _⟩ => show win3_1.index t (1 : Fin 2) * 128 + 1 * (j 1).val = win3_4.index t (1 : Fin 2) * 128 + 1 * (j 1).val; omega
  have b2 : (iblk3 V c 2 t : Vec Ideal S5000x1 .f32) (ValueIdx.ix2 (⟨(j 0).val, hj0⟩ : Fin 5000) (⟨0, Nat.one_pos⟩ : Fin 1))
      = (V c main_v51 : S50000x1.Idx → Ideal .f32) (ValueIdx.ix2 (⟨t.val * 5000 + (j 0).val, by omega⟩ : Fin 50000) (⟨0, Nat.one_pos⟩ : Fin 1)) := by
    unfold iblk3
    show V c main_v51 (((cfg3.win 2).blk t).view.emb (ValueIdx.ix2 (⟨(j 0).val, hj0⟩ : Fin 5000) (⟨0, Nat.one_pos⟩ : Fin 1))) = V c main_v51 _
    refine congrArg _ (funext fun a => Fin.ext ?_)
    match a with
    | ⟨0, _⟩ => show win3_2.index t (0 : Fin 2) * 5000 + 1 * (j 0).val = t.val * 5000 + (j 0).val; omega
    | ⟨1, _⟩ => show win3_2.index t (1 : Fin 2) * 1 + 1 * 0 = 0; omega
  have b3 : (iblk3 V c 3 t : Vec Ideal S1x128 .f32) (ValueIdx.ix2 (⟨0, Nat.one_pos⟩ : Fin 1) (⟨(j 1).val, hj1⟩ : Fin 128))
      = (V c main_v52 : S1x128.Idx → Ideal .f32) (ValueIdx.ix2 (⟨0, Nat.one_pos⟩ : Fin 1) (⟨(j 1).val, hj1⟩ : Fin 128)) := by
    unfold iblk3
    show V c main_v52 (((cfg3.win 3).blk t).view.emb (ValueIdx.ix2 (⟨0, Nat.one_pos⟩ : Fin 1) (⟨(j 1).val, hj1⟩ : Fin 128))) = V c main_v52 _
    refine congrArg _ (funext fun a => Fin.ext ?_)
    match a with
    | ⟨0, _⟩ => show win3_3.index t (0 : Fin 2) * 1 + 1 * 0 = 0; omega
    | ⟨1, _⟩ => show win3_3.index t (1 : Fin 2) * 128 + 1 * (j 1).val = (j 1).val; omega
  rw [b0, b1, b2, b3]

/-- An array index is in point `t`'s output block iff each coordinate is in the block's range on its axis. -/
theorem mem_blk3 (t : Fin cfg3.N) (i : S50000x128.Idx) :
    i ∈ ((cfg3.win 4).blk t).view.set ↔ ∀ a : Fin 2, win3_4.index t a * S5000x128.size a ≤ (i a).val
      ∧ (i a).val < win3_4.index t a * S5000x128.size a + S5000x128.size a := by
  show i ∈ ((View.whole main_v53).slice (win3_4.rect t)).set ↔ _
  rw [View.set_slice_whole, Rect.mem_set_unit]
  exact Iff.rfl

/-- Row `r` of the output array is written back by the point `r / 5000`. -/
theorem cover3 (i : S50000x128.Idx) :
    ∃ t : Fin cfg3.N, (cfg3.win 4).flush t = true ∧ i ∈ ((cfg3.win 4).blk t).view.set := by
  have hi0 : (i 0).val < 50000 := (i 0).isLt
  have hi1 : (i 1).val < 128 := (i 1).isLt
  obtain ⟨t, ht⟩ : ∃ t : Fin cfg3.N, t.val = (i 0).val / 5000 :=
    ⟨⟨(i 0).val / 5000, by rw [show cfg3.N = 10 from N_3]; omega⟩, rfl⟩
  obtain ⟨-, -, -, -, -, -, -, -, a40, a41⟩ := index_facts3 t
  refine ⟨t, flush3_4 t, ?_⟩
  rw [mem_blk3]
  intro a
  match a with
  | ⟨0, _⟩ =>
    show win3_4.index t (0 : Fin 2) * 5000 ≤ (i 0).val ∧ (i 0).val < win3_4.index t (0 : Fin 2) * 5000 + 5000
    omega
  | ⟨1, _⟩ =>
    show win3_4.index t (1 : Fin 2) * 128 ≤ (i 1).val ∧ (i 1).val < win3_4.index t (1 : Fin 2) * 128 + 128
    omega

theorem arr3 (c : Dev nD) :
    (dat3 V c).arrAt 4 cfg3.N = (maximumf (addf (addf (V c main_v50) (mulf (V c main_v43) (broadcastInDim Cert.ReferenceIdeal.S50000x128 ![0, 1] Cert.ReferenceIdeal.Facts₀.bcast_S50000x1_S50000x128_0_1 (V c main_v51)))) (broadcastInDim Cert.ReferenceIdeal.S50000x128 ![0, 1] Cert.ReferenceIdeal.Facts₀.bcast_S1x128_S50000x128_0_1 (V c main_v52))) (broadcastInDim Cert.ReferenceIdeal.S50000x128 ![] Cert.ReferenceIdeal.Facts₀.bcast_S_S50000x128 (constant Cert.ReferenceIdeal.S_ .f32 0x00000000#32)) : FVec Ideal Cert.ReferenceIdeal.S50000x128 .f32) :=
  (dat3 V c).arrAt_eq_of_cover 4 (tail128 (V c main_v50) (V c main_v43) (V c main_v51) (V c main_v52))
    (fun t _ => flushed3_eq V c t) cover3

/-! ## Region 5 -/

theorem pay5_apply (x0 x1 x2 : Vec Ideal S5000x1 .f32) (x3 : Vec Ideal S1x1 .f32)
    (j : S5000x1.Idx) (kc : S1x1.Idx) (hc0 : (kc 0).val = 0) (hc1 : (kc 1).val = 0) :
    k5_pay1 x0 x1 x2 x3 j = max ((x0 j + x1 j * x2 j) + x3 kc) (Ideal.ofBits .f32 0x00000000#32) := by
  unfold k5_pay1
  simp only [shapeCast_self]
  have e3 : broadcastTo S5000x1 x3 broadcasts_S1x1_S5000x1 j = x3 kc :=
    broadcastTo_apply x3 _ j kc fun a => by
      match a with
      | ⟨0, _⟩ => exact hc0.trans (if_pos rfl).symm
      | ⟨1, _⟩ => exact hc1.trans (if_pos rfl).symm
  show max ((x0 j + x1 j * x2 j) + broadcastTo S5000x1 x3 broadcasts_S1x1_S5000x1 j) (Ideal.ofBits .f32 0x00000000#32) = _
  rw [e3]

/-- The dense tail over whole arrays of one column: the aggregate plus the product of the transformed features with the
    per-row scale, plus the single bias entry, clamped below at zero. -/
abbrev tail1 (A B C : FVec Ideal Cert.ReferenceIdeal.S50000x1 .f32) (D : FVec Ideal Cert.ReferenceIdeal.S1x1 .f32) :
    FVec Ideal Cert.ReferenceIdeal.S50000x1 .f32 :=
  (maximumf (addf (addf A (mulf B C)) (broadcastInDim Cert.ReferenceIdeal.S50000x1 ![0, 1] Cert.ReferenceIdeal.Facts₀.bcast_S1x1_S50000x1_0_1 D)) (broadcastInDim Cert.ReferenceIdeal.S50000x1 ![] Cert.ReferenceIdeal.Facts₀.bcast_S_S50000x1 (constant Cert.ReferenceIdeal.S_ .f32 0x00000000#32)) : FVec Ideal Cert.ReferenceIdeal.S50000x1 .f32)

theorem tail1_apply (A B C : FVec Ideal Cert.ReferenceIdeal.S50000x1 .f32) (D : FVec Ideal Cert.ReferenceIdeal.S1x1 .f32)
    (i : S50000x1.Idx) (kc : S1x1.Idx) (hc0 : (kc 0).val = 0) (hc1 : (kc 1).val = 0) :
    tail1 A B C D i = max ((A i + B i * C i) + D kc) (Ideal.ofBits .f32 0x00000000#32) := by
  have e3 : broadcastInDim Cert.ReferenceIdeal.S50000x1 ![0, 1] Cert.ReferenceIdeal.Facts₀.bcast_S1x1_S50000x1_0_1 D i = D kc :=
    broadcastInDim_apply _ _ D i kc fun a => by
      match a with
      | ⟨0, _⟩ => exact hc0.trans (if_pos rfl).symm
      | ⟨1, _⟩ => exact hc1.trans (if_pos rfl).symm
  show max ((A i + B i * C i) + broadcastInDim Cert.ReferenceIdeal.S50000x1 ![0, 1] Cert.ReferenceIdeal.Facts₀.bcast_S1x1_S50000x1_0_1 D i) (Ideal.ofBits .f32 0x00000000#32) = _
  rw [e3]

/-- The index maps over the grid: the row-blocked windows sit at block row `t`, block column 0; the bias window
    at block (0, 0). -/
theorem index_facts5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

theorem flushed5_eq (c : Dev nD) (t : Fin cfg5.N) :
    (dat5 V c).flushed 4 t = ((cfg5.win 4).blk t).view.read (Elt Ideal)
      (tail1 (V c main_v60) (V c main_v54) (V c main_v61) (V c main_v62)) := by
  show (cfg5.win 4).cut (grid5.coords t) ((dat5 V c).after 4 t) = _
  rw [after5_4]
  unfold out5_4
  rw [View.canon_unit_zero zero_offsets]
  simp only [View.ld_unit_zero (S := S5000x1) zero_offsets, View.ld_unit_zero (S := S1x1) zero_offsets]
  obtain ⟨a00, a01, a10, a11, a20, a21, a30, a31, a40, a41⟩ := index_facts5 t
  have ht : t.val < 10 := lt_of_lt_of_eq t.isLt N_5
  funext j
  have hj0 : (j 0).val < 5000 := (j 0).isLt
  have hj1 : (j 1).val < 1 := (j 1).isLt
  show k5_pay1 (iblk5 V c 0 t) (iblk5 V c 1 t) (iblk5 V c 2 t) (iblk5 V c 3 t) j
      = tail1 (V c main_v60) (V c main_v54) (V c main_v61) (V c main_v62) (((cfg5.win 4).blk t).view.emb j)
  -- the one bias entry, in the block and in the whole array
  refine (pay5_apply _ _ _ _ j (ValueIdx.ix2 (⟨0, Nat.one_pos⟩ : Fin 1) (⟨0, Nat.one_pos⟩ : Fin 1)) rfl rfl).trans ?_
  refine Eq.trans ?_ (tail1_apply _ _ _ _ (((cfg5.win 4).blk t).view.emb j)
    (ValueIdx.ix2 (⟨0, Nat.one_pos⟩ : Fin 1) (⟨0, Nat.one_pos⟩ : Fin 1)) rfl rfl).symm
  have b0 : (iblk5 V c 0 t : Vec Ideal S5000x1 .f32) j
      = (V c main_v60 : S50000x1.Idx → Ideal .f32) (((cfg5.win 4).blk t).view.emb j) := by
    unfold iblk5
    show V c main_v60 (((cfg5.win 0).blk t).view.emb j) = V c main_v60 (((cfg5.win 4).blk t).view.emb j)
    refine congrArg _ (funext fun a => Fin.ext ?_)
    match a with
    | ⟨0, _⟩ => show win5_0.index t (0 : Fin 2) * 5000 + 1 * (j 0).val = win5_4.index t (0 : Fin 2) * 5000 + 1 * (j 0).val; omega
    | ⟨1, _⟩ => show win5_0.index t (1 : Fin 2) * 1 + 1 * (j 1).val = win5_4.index t (1 : Fin 2) * 1 + 1 * (j 1).val; omega
  have b1 : (iblk5 V c 1 t : Vec Ideal S5000x1 .f32) j
      = (V c main_v54 : S50000x1.Idx → Ideal .f32) (((cfg5.win 4).blk t).view.emb j) := by
    unfold iblk5
    show V c main_v54 (((cfg5.win 1).blk t).view.emb j) = V c main_v54 (((cfg5.win 4).blk t).view.emb j)
    refine congrArg _ (funext fun a => Fin.ext ?_)
    match a with
    | ⟨0, _⟩ => show win5_1.index t (0 : Fin 2) * 5000 + 1 * (j 0).val = win5_4.index t (0 : Fin 2) * 5000 + 1 * (j 0).val; omega
    | ⟨1, _⟩ => show win5_1.index t (1 : Fin 2) * 1 + 1 * (j 1).val = win5_4.index t (1 : Fin 2) * 1 + 1 * (j 1).val; omega
  have b2 : (iblk5 V c 2 t : Vec Ideal S5000x1 .f32) j
      = (V c main_v61 : S50000x1.Idx → Ideal .f32) (((cfg5.win 4).blk t).view.emb j) := by
    unfold iblk5
    show V c main_v61 (((cfg5.win 2).blk t).view.emb j) = V c main_v61 (((cfg5.win 4).blk t).view.emb j)
    refine congrArg _ (funext fun a => Fin.ext ?_)
    match a with
    | ⟨0, _⟩ => show win5_2.index t (0 : Fin 2) * 5000 + 1 * (j 0).val = win5_4.index t (0 : Fin 2) * 5000 + 1 * (j 0).val; omega
    | ⟨1, _⟩ => show win5_2.index t (1 : Fin 2) * 1 + 1 * (j 1).val = win5_4.index t (1 : Fin 2) * 1 + 1 * (j 1).val; omega
  have b3 : (iblk5 V c 3 t : Vec Ideal S1x1 .f32) (ValueIdx.ix2 (⟨0, Nat.one_pos⟩ : Fin 1) (⟨0, Nat.one_pos⟩ : Fin 1))
      = (V c main_v62 : S1x1.Idx → Ideal .f32) (ValueIdx.ix2 (⟨0, Nat.one_pos⟩ : Fin 1) (⟨0, Nat.one_pos⟩ : Fin 1)) := by
    unfold iblk5
    show V c main_v62 (((cfg5.win 3).blk t).view.emb (ValueIdx.ix2 (⟨0, Nat.one_pos⟩ : Fin 1) (⟨0, Nat.one_pos⟩ : Fin 1))) = V c main_v62 _
    refine congrArg _ (funext fun a => Fin.ext ?_)
    match a with
    | ⟨0, _⟩ => show win5_3.index t (0 : Fin 2) * 1 + 1 * 0 = 0; omega
    | ⟨1, _⟩ => show win5_3.index t (1 : Fin 2) * 1 + 1 * 0 = 0; omega
  rw [b0, b1, b2, b3]

/-- An array index is in point `t`'s output block iff each coordinate is in the block's range on its axis. -/
theorem mem_blk5 (t : Fin cfg5.N) (i : S50000x1.Idx) :
    i ∈ ((cfg5.win 4).blk t).view.set ↔ ∀ a : Fin 2, win5_4.index t a * S5000x1.size a ≤ (i a).val
      ∧ (i a).val < win5_4.index t a * S5000x1.size a + S5000x1.size a := by
  show i ∈ ((View.whole main_v63).slice (win5_4.rect t)).set ↔ _
  rw [View.set_slice_whole, Rect.mem_set_unit]
  exact Iff.rfl

/-- Row `r` of the output array is written back by the point `r / 5000`. -/
theorem cover5 (i : S50000x1.Idx) :
    ∃ t : Fin cfg5.N, (cfg5.win 4).flush t = true ∧ i ∈ ((cfg5.win 4).blk t).view.set := by
  have hi0 : (i 0).val < 50000 := (i 0).isLt
  have hi1 : (i 1).val < 1 := (i 1).isLt
  obtain ⟨t, ht⟩ : ∃ t : Fin cfg5.N, t.val = (i 0).val / 5000 :=
    ⟨⟨(i 0).val / 5000, by rw [show cfg5.N = 10 from N_5]; omega⟩, rfl⟩
  obtain ⟨-, -, -, -, -, -, -, -, a40, a41⟩ := index_facts5 t
  refine ⟨t, flush5_4 t, ?_⟩
  rw [mem_blk5]
  intro a
  match a with
  | ⟨0, _⟩ =>
    show win5_4.index t (0 : Fin 2) * 5000 ≤ (i 0).val ∧ (i 0).val < win5_4.index t (0 : Fin 2) * 5000 + 5000
    omega
  | ⟨1, _⟩ =>
    show win5_4.index t (1 : Fin 2) * 1 ≤ (i 1).val ∧ (i 1).val < win5_4.index t (1 : Fin 2) * 1 + 1
    omega

theorem arr5 (c : Dev nD) :
    (dat5 V c).arrAt 4 cfg5.N = (maximumf (addf (addf (V c main_v60) (mulf (V c main_v54) (V c main_v61))) (broadcastInDim Cert.ReferenceIdeal.S50000x1 ![0, 1] Cert.ReferenceIdeal.Facts₀.bcast_S1x1_S50000x1_0_1 (V c main_v62))) (broadcastInDim Cert.ReferenceIdeal.S50000x1 ![] Cert.ReferenceIdeal.Facts₀.bcast_S_S50000x1 (constant Cert.ReferenceIdeal.S_ .f32 0x00000000#32)) : FVec Ideal Cert.ReferenceIdeal.S50000x1 .f32) :=
  (dat5 V c).arrAt_eq_of_cover 4 (tail1 (V c main_v60) (V c main_v54) (V c main_v61) (V c main_v62))
    (fun t _ => flushed5_eq V c t) cover5

end Cert.KernelIdeal.RegionCB

end
-- ==== Proof.Mask.lean ====
/-
  The row gather with a fill, where the fill is never chosen. The gather reads row `w e` of the table for edge `e`, with
  `w e = src e + 50000` when `src e` is negative as a signed word and `w e = src e` otherwise, and keeps the gathered row
  where `0 ≤ w e ≤ 49999`, a fill value elsewhere. When every `src e` lies in `[-50000, 50000)` as a signed 32-bit word:
  a negative `src e` is a word in `[2^32 - 50000, 2^32)`, so `src e + 50000` wraps to a word in `[0, 50000)`; a non-negative
  one is already a word in `[0, 50000)`. Either way `0 ≤ w e ≤ 49999`, the conjunction of the two tests over the one-element
  axis is `1` for every edge, and the select returns the gathered row everywhere. The range hypothesis itself is the last
  conjunct of the precondition: a conjunction over all edges of `-50000 ≤ src e` and `src e < 50000`, which equals `1` only
  if each edge's two comparisons do.
-/
import proofs.«404270_j75642964017424_1_alg».proof.Defs
import proofs.«404270_j75642964017424_1_alg».proof.Proof.Gen.KernelIdeal
import proofs.«404270_j75642964017424_1_alg».proof.Proof.Gen.Pre_finite_inputs
import proofs.«404270_j75642964017424_1_alg».proof.Proof.KTake
import Idealize.ShloMosaic.Lib.ValueIdx
import Idealize.ShloMosaic.Lib.ReduceAll
import Idealize.ShloMosaic.Lib.StableHlo.Predicate
import Idealize.ShloMosaic.Lib.Pipeline.Value

set_option maxRecDepth 16384

noncomputable section

namespace Cert.KernelIdeal.Mask

open Cert.KernelIdeal Cert.KernelIdeal.KTake
open Idealize.ShloMosaic Idealize.ShloMosaic.TcCoe Idealize.SL.Sem

/-! ## One word: the wrapped index of an in-range source index names a row -/

/-- The wrapped index: `v + 50000` for a negative `v`, else `v`. -/
def wrap (v : BitVec 32) : BitVec 32 := Scalar.select (IntOp.cmpi .slt v 0#32) (IntOp.addi v 50000#32) v

/-- For `-50000 ≤ v < 50000` (signed) the wrapped index is a word of value at most 49999. -/
theorem wrap_toNat_le (v : BitVec 32) (h : InRange v) : (wrap v).toNat ≤ 49999 := by
  obtain ⟨h0, h1⟩ := h
  unfold IntOp.cmpi at h0 h1
  rw [StableHlo.Predicate.ofBool_eq_one_iff] at h0 h1
  simp only [BitVec.slt, BitVec.sle, decide_eq_true_eq] at h0 h1
  have e0 : (4294917296#32 : BitVec 32).toInt = -50000 := by decide
  have e1 : (50000#32 : BitVec 32).toInt = 50000 := by decide
  have e2 : (0#32 : BitVec 32).toInt = 0 := by decide
  rw [e0] at h0; rw [e1] at h1
  have h32 := v.isLt
  have hiff : IntOp.cmpi .slt v 0#32 = 1#1 ↔ v.toInt < 0 := by
    unfold IntOp.cmpi
    rw [StableHlo.Predicate.ofBool_eq_one_iff]; simp only [BitVec.slt, e2, decide_eq_true_eq]
  unfold wrap
  by_cases hneg : v.toInt < 0
  · -- a negative word is at least 2^32 - 50000: adding 50000 wraps once, into [0, 50000)
    rw [hiff.2 hneg, ValueIdx.select_one]
    unfold IntOp.addi
    rw [BitVec.toNat_add]
    have e3 : (50000#32 : BitVec 32).toNat = 50000 := by decide
    rw [e3]
    unfold BitVec.toInt at h0 hneg
    split at h0 <;> split at hneg <;> omega
  · -- a non-negative word below 50000 is itself
    rw [ValueIdx.eq_zero_of_ne_one (fun hc => hneg (hiff.1 hc)), ValueIdx.select_zero]
    unfold BitVec.toInt at h1 hneg
    split at h1 <;> split at hneg <;> omega

/-- Both tests hold of the wrapped index: `0 ≤ w` and `w ≤ 49999`, signed. -/
theorem wrap_inb (v : BitVec 32) (h : InRange v) :
    IntOp.andi (IntOp.cmpi .sge (wrap v) 0#32) (IntOp.cmpi .sle (wrap v) 49999#32) = 1#1 := by
  have hw := wrap_toNat_le v h
  rw [IntOp.andi_eq_one]
  exact ⟨(StableHlo.Predicate.sge_iff_toNat (by omega) (by decide)).2 (Nat.zero_le _),
    (StableHlo.Predicate.sle_iff_toNat (by omega) (by decide)).2 hw⟩

/-! ## The conjunction over the one-element axis -/

/-- A left fold by `and` from 1 over words that are all 1 is 1. -/
theorem foldl_andi_one {ι : Type} (f : ι → BitVec 1) :
    ∀ (l : List ι), (∀ n ∈ l, f n = 1#1) → l.foldl (fun r n => IntOp.andi r (f n)) 1#1 = 1#1
  | [], _ => rfl
  | a :: l, h => by
    have ha : IntOp.andi 1#1 (f a) = 1#1 := by rw [h a List.mem_cons_self]; rfl
    rw [List.foldl_cons, ha]
    exact foldl_andi_one f l (fun n hn => h n (List.mem_cons_of_mem _ hn))

/-- Every entry of the index column is the wrapped index of some edge's source index. -/
theorem idxCol_apply (src : (⟨S600000, .i32⟩ : BufTy).Contents (Elt Ideal)) (i : S600000x1.Idx) :
    ∃ k : S600000.Idx, idxCol (F := Ideal) src i = wrap (src k) := ⟨_, rfl⟩

/-- With every source index in range, every edge's test is 1. -/
theorem inBounds_eq_one (src : (⟨S600000, .i32⟩ : BufTy).Contents (Elt Ideal))
    (h : ∀ e : S600000.Idx, InRange (src e)) (e : S600000.Idx) : inBounds (F := Ideal) src e = 1#1 := by
  unfold inBounds
  rw [Host.reduce_eq_foldl]
  refine foldl_andi_one _ _ (fun i _ => ?_)
  obtain ⟨k, hk⟩ := idxCol_apply src i
  show IntOp.andi (IntOp.cmpi .sge (idxCol (F := Ideal) src i) 0#32) (IntOp.cmpi .sle (idxCol (F := Ideal) src i) 49999#32) = 1#1
  rw [hk]
  exact wrap_inb _ (h k)

/-! ## The select keeps the gathered row everywhere -/

/-- A broadcast of an all-ones array reads 1 everywhere. -/
theorem bcast_one {s t : Shape} (dims : Fin s.rank → Fin t.rank) (hb : s.BroadcastsInDim t dims) (x : s.Idx → BitVec 1)
    (hx : ∀ k, x k = 1#1) (j : t.Idx) : broadcastInDim t dims hb x j = 1#1 := hx _

theorem take128_eq_gather (hw : (⟨S50000x128, .f32⟩ : BufTy).Contents (Elt Ideal)) (src : (⟨S600000, .i32⟩ : BufTy).Contents (Elt Ideal))
    (h : ∀ e : S600000.Idx, InRange (src e)) :
    take128 (F := Ideal) hw src
      = Host.gather gather_S50000x128_S600000x1_S600000x128_1_0_n_n_0_1_1128 hw (idxCol (F := Ideal) src) := by
  funext i
  unfold take128
  rw [ValueIdx.select_apply, bcast_one _ _ (inBounds (F := Ideal) src) (inBounds_eq_one src h)]
  exact ValueIdx.select_one _ _

theorem take1_eq_gather (hw : (⟨S50000x1, .f32⟩ : BufTy).Contents (Elt Ideal)) (src : (⟨S600000, .i32⟩ : BufTy).Contents (Elt Ideal))
    (h : ∀ e : S600000.Idx, InRange (src e)) :
    take1 (F := Ideal) hw src
      = Host.gather gather_S50000x1_S600000x1_S600000x1_1_0_n_n_0_1_11 hw (idxCol (F := Ideal) src) := by
  funext i
  unfold take1
  rw [ValueIdx.select_apply, bcast_one _ _ (inBounds (F := Ideal) src) (inBounds_eq_one src h)]
  exact ValueIdx.select_one _ _

/-! ## The range hypothesis, read off the precondition -/

local instance : Subsingleton Cert.Pre_finite_inputs.S_.Idx := ⟨fun a b => funext fun d => d.elim0⟩

theorem src_inRange_of_pre (m : (ℓ : Loc nD τ sig) → Buf (Elt Ideal) ℓ) (hpre : Cert.Pre_KernelIdeal m) (c : Dev nD)
    (e : S600000.Idx) :
    InRange (srcOf (F := Ideal) (m ((c.tc : Thread nD τ).loc main_arg1)) e) := by
  have h0 := congrFun (hpre c) ValueIdx.ix0
  unfold Cert.Pre_finite_inputs.fn at h0
  dsimp only at h0
  unfold Cert.Pre_finite_inputs.fn_part1 at h0
  dsimp only at h0
  unfold Cert.Pre_finite_inputs.fn_part2 at h0
  dsimp only at h0
  -- the last conjunct: the conjunction over all edges of the two comparisons is 1
  have h1 := (IntOp.andi_eq_one.1 h0).2
  -- so each edge's conjunction is 1
  have h2 := Host.reduce_andi_all _ _ _ _ _ h1 e
  exact IntOp.andi_eq_one.1 h2

end Cert.KernelIdeal.Mask

end
-- ==== Proof.KChain.lean ====
/-
  The kernel's result buffer after the run holds the three-layer network of the argument arrays.

  The run's buffer contents are a fold through @main: a stretch of host operations, a matmul region, a stretch, a tail
  region, and so on. Every boundary keeps, in buffers nobody rewrites, the data computed once from the edge list
  (sources, targets, edge weights, node weights) and the arguments not yet read (`Holds`). On top of that each layer is
  read off in two steps: the matmul region leaves the product `h W` of what the layer finds; the stretch after it gathers
  the product's rows along the edges, scales and sums them, and the tail region leaves `relu((agg + hw·sn) + b)`. Where every
  source index names a row the kernel's gather with a fill is the plain gather, a vector reshaped to a column or a row is
  its broadcast, and the layer is the reference's layer term for term.
-/
import proofs.«404270_j75642964017424_1_alg».proof.Proof.Gen.KernelIdeal.Frame
import proofs.«404270_j75642964017424_1_alg».proof.Proof.Gen.ReferenceIdeal
import proofs.«404270_j75642964017424_1_alg».proof.Proof.StretchL1
import proofs.«404270_j75642964017424_1_alg».proof.Proof.StretchL2
import proofs.«404270_j75642964017424_1_alg».proof.Proof.StretchL3
import proofs.«404270_j75642964017424_1_alg».proof.Proof.Reshape
import proofs.«404270_j75642964017424_1_alg».proof.Proof.RegionMM
import proofs.«404270_j75642964017424_1_alg».proof.Proof.RegionCB
import proofs.«404270_j75642964017424_1_alg».proof.Proof.Mask

set_option maxRecDepth 16384

noncomputable section

namespace Cert.KernelIdeal.KChain

open Cert.KernelIdeal Cert.KernelIdeal.Gen
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

/-- What every boundary of the run keeps in the buffers it does not rewrite: the edge data computed from the edge list
    (sources, targets, edge weights, node weights) and the arguments still to be read. -/
structure Holds (W : Valuation τ sig (Elt Ideal)) (c : Dev nD) : Prop where
  src : W (Proc.devRef .tc main_v1) = Cert.ReferenceIdeal.Layer.srcRaw (F := Ideal) (m ((c.tc : Thread nD τ).loc main_arg1))
  dst : W (Proc.devRef .tc main_v3) = Cert.ReferenceIdeal.Layer.dstRaw (F := Ideal) (m ((c.tc : Thread nD τ).loc main_arg1))
  norm : W (Proc.devRef .tc main_v30) = Cert.ReferenceIdeal.Layer.edgeNorm (F := Ideal) (m ((c.tc : Thread nD τ).loc main_arg1))
  sn : W (Proc.devRef .tc main_v31) = Cert.ReferenceIdeal.Layer.selfNorm (F := Ideal) (m ((c.tc : Thread nD τ).loc main_arg1))
  a3 : W (Proc.devRef .tc main_arg3) = (m ((c.tc : Thread nD τ).loc main_arg3))
  a4 : W (Proc.devRef .tc main_arg4) = (m ((c.tc : Thread nD τ).loc main_arg4))
  a5 : W (Proc.devRef .tc main_arg5) = (m ((c.tc : Thread nD τ).loc main_arg5))
  a6 : W (Proc.devRef .tc main_arg6) = (m ((c.tc : Thread nD τ).loc main_arg6))
  a7 : W (Proc.devRef .tc main_arg7) = (m ((c.tc : Thread nD τ).loc main_arg7))

/-- A step that leaves the tracked buffers alone keeps what they hold. -/
theorem Holds.of_eq {W W' : Valuation τ sig (Elt Ideal)} {c : Dev nD} (h : Holds m W c)
    (e : ∀ b ∈ Stretch.tracked, W' (Proc.devRef .tc b) = W (Proc.devRef .tc b)) : Holds m W' c where
  src := (e main_v1 (by decide)).trans h.src
  dst := (e main_v3 (by decide)).trans h.dst
  norm := (e main_v30 (by decide)).trans h.norm
  sn := (e main_v31 (by decide)).trans h.sn
  a3 := (e main_arg3 (by decide)).trans h.a3
  a4 := (e main_arg4 (by decide)).trans h.a4
  a5 := (e main_arg5 (by decide)).trans h.a5
  a6 := (e main_arg6 (by decide)).trans h.a6
  a7 := (e main_arg7 (by decide)).trans h.a7

/-! ## The boundaries -/

/-- After the first stretch: the edge data as computed, the arguments as launched. -/
theorem holds1 (c : Dev nD) : Holds m (W1 m ρ c) c where
  src := Stretch.s0_src (W0 m ρ c)
  dst := Stretch.s0_dst (W0 m ρ c)
  norm := Stretch.s0_norm (W0 m ρ c)
  sn := Stretch.s0_sn (W0 m ρ c)
  a3 := Stretch.s0_arg3 (W0 m ρ c)
  a4 := Stretch.s0_arg4 (W0 m ρ c)
  a5 := Stretch.s0_arg5 (W0 m ρ c)
  a6 := Stretch.s0_arg6 (W0 m ρ c)
  a7 := Stretch.s0_arg7 (W0 m ρ c)

/-- After the first matmul region: none of its windows is a tracked buffer. -/
theorem holds2 (c : Dev nD) : Holds m (W2 m ρ c) c :=
  Holds.of_eq m (holds1 m ρ c) fun b hb =>
    W2_of_ne m ρ c b ((by decide : ∀ b ∈ Stretch.tracked, ∀ w, Pipeline.arrRef spec0 w ≠ b) b hb)

/-- After the stretch before the first tail region. -/
theorem holds4 (c : Dev nD) : Holds m (W4 m ρ c) c :=
  Holds.of_eq m (holds2 m ρ c) (StretchL1.keeps (W2 m ρ c))

/-- After the first tail region. -/
theorem holds5 (c : Dev nD) : Holds m (W5 m ρ c) c :=
  Holds.of_eq m (holds4 m ρ c) fun b hb =>
    W5_of_ne m ρ c b ((by decide : ∀ b ∈ Stretch.tracked, ∀ w, Pipeline.arrRef spec1 w ≠ b) b hb)

/-- After the second matmul region (its weight window is read, not rewritten: the region leaves its input arrays as found). -/
theorem holds6 (c : Dev nD) : Holds m (W6 m ρ c) c := by
  have h := holds5 m ρ c
  have keep : ∀ b, (∀ w, Pipeline.arrRef spec2 w ≠ b) → W6 m ρ c (Proc.devRef .tc b) = W5 m ρ c (Proc.devRef .tc b) :=
    fun b hb => W6_of_ne m ρ c b hb
  have ha4 : W6 m ρ c (Proc.devRef .tc main_arg4) = W5 m ρ c (Proc.devRef .tc main_arg4) :=
    (W6_arr m ρ c 1).trans (((dat2 (V5 m ρ) c).arrAt_in 1 rfl _).trans (A_eq2 (V5 m ρ) c 1))
  exact ⟨(keep _ (by decide)).trans h.src, (keep _ (by decide)).trans h.dst, (keep _ (by decide)).trans h.norm,
    (keep _ (by decide)).trans h.sn, (keep _ (by decide)).trans h.a3, ha4.trans h.a4, (keep _ (by decide)).trans h.a5,
    (keep _ (by decide)).trans h.a6, (keep _ (by decide)).trans h.a7⟩

/-- After the stretch before the second tail region. -/
theorem holds8 (c : Dev nD) : Holds m (W8 m ρ c) c :=
  Holds.of_eq m (holds6 m ρ c) (StretchL2.keeps (W6 m ρ c))

/-- After the second tail region. -/
theorem holds9 (c : Dev nD) : Holds m (W9 m ρ c) c :=
  Holds.of_eq m (holds8 m ρ c) fun b hb =>
    W9_of_ne m ρ c b ((by decide : ∀ b ∈ Stretch.tracked, ∀ w, Pipeline.arrRef spec3 w ≠ b) b hb)

/-- After the third matmul region (its weight window is read, not rewritten). -/
theorem holds10 (c : Dev nD) : Holds m (W10 m ρ c) c := by
  have h := holds9 m ρ c
  have keep : ∀ b, (∀ w, Pipeline.arrRef spec4 w ≠ b) → W10 m ρ c (Proc.devRef .tc b) = W9 m ρ c (Proc.devRef .tc b) :=
    fun b hb => W10_of_ne m ρ c b hb
  have ha6 : W10 m ρ c (Proc.devRef .tc main_arg6) = W9 m ρ c (Proc.devRef .tc main_arg6) :=
    (W10_arr m ρ c 1).trans (((dat4 (V9 m ρ) c).arrAt_in 1 rfl _).trans (A_eq4 (V9 m ρ) c 1))
  exact ⟨(keep _ (by decide)).trans h.src, (keep _ (by decide)).trans h.dst, (keep _ (by decide)).trans h.norm,
    (keep _ (by decide)).trans h.sn, (keep _ (by decide)).trans h.a3, (keep _ (by decide)).trans h.a4, (keep _ (by decide)).trans h.a5,
    ha6.trans h.a6, (keep _ (by decide)).trans h.a7⟩

/-! ## The first layer -/

/-- The first product: the node features times the first weight matrix. -/
theorem product1 (c : Dev nD) :
    W2 m ρ c (Proc.devRef .tc main_v32) = Cert.ReferenceIdeal.Dense.matmul128 (F := Ideal) (m ((c.tc : Thread nD τ).loc main_arg0)) (m ((c.tc : Thread nD τ).loc main_arg2)) :=
  (W2_arr m ρ c 2).trans ((RegionMM.arr0 (V1 m ρ) c).trans
    (congrArg₂ (Cert.ReferenceIdeal.Dense.matmul128 (F := Ideal)) (Stretch.s0_arg0 (W0 m ρ c)) (Stretch.s0_arg2 (W0 m ρ c))))

/-- The first tail region leaves the first layer of the node features. -/
theorem layer1 (c : Dev nD) (hr : ∀ e : S600000.Idx, KTake.InRange (KTake.srcOf (F := Ideal) (m ((c.tc : Thread nD τ).loc main_arg1)) e)) :
    W5 m ρ c (Proc.devRef .tc main_v42)
      = Cert.ReferenceIdeal.Layer.gcnLayer128 (F := Ideal) (m ((c.tc : Thread nD τ).loc main_arg1)) (m ((c.tc : Thread nD τ).loc main_arg0)) (m ((c.tc : Thread nD τ).loc main_arg2)) (m ((c.tc : Thread nD τ).loc main_arg3)) := by
  have H := holds2 m ρ c
  have hr' : ∀ e : S600000.Idx, KTake.InRange (Cert.ReferenceIdeal.Layer.srcRaw (F := Ideal) (m ((c.tc : Thread nD τ).loc main_arg1)) e) := hr
  refine (W5_arr m ρ c 4).trans ((RegionCB.arr1 (V4 m ρ) c).trans ?_)
  rw [Cert.ReferenceIdeal.Dense.gcnLayer128_eq, Cert.ReferenceIdeal.Agg.aggregate128_eq]
  show Cert.ReferenceIdeal.Dense.combine128 (F := Ideal)
      (StableHlo.after (hostOps1_1 (F := Ideal)) (StableHlo.after (hostOps1 (F := Ideal)) (W2 m ρ c)) (Proc.devRef .tc main_v39))
      (StableHlo.after (hostOps1_1 (F := Ideal)) (StableHlo.after (hostOps1 (F := Ideal)) (W2 m ρ c)) (Proc.devRef .tc main_v32))
      (StableHlo.after (hostOps1_1 (F := Ideal)) (StableHlo.after (hostOps1 (F := Ideal)) (W2 m ρ c)) (Proc.devRef .tc main_v40))
      (StableHlo.after (hostOps1_1 (F := Ideal)) (StableHlo.after (hostOps1 (F := Ideal)) (W2 m ρ c)) (Proc.devRef .tc main_v41)) = _
  rw [StretchL1.agg, StretchL1.hw, StretchL1.sn, StretchL1.bias, H.src, H.dst, H.norm, H.sn, H.a3, product1 m ρ c,
    Mask.take128_eq_gather _ _ hr',
    Reshape.column50000 _ _ Cert.ReferenceIdeal.Facts₀.bcast_S50000_S50000x1_0, Reshape.row128 _ _ Cert.ReferenceIdeal.Facts₀.bcast_S128_S1x128_1]
  rfl

/-! ## The second layer -/

/-- The second product: the first layer's output times the second weight matrix. -/
theorem product2 (c : Dev nD) (hr : ∀ e : S600000.Idx, KTake.InRange (KTake.srcOf (F := Ideal) (m ((c.tc : Thread nD τ).loc main_arg1)) e)) :
    W6 m ρ c (Proc.devRef .tc main_v43)
      = Cert.ReferenceIdeal.Dense.matmul128 (F := Ideal) (Cert.ReferenceIdeal.Layer.gcnLayer128 (F := Ideal) (m ((c.tc : Thread nD τ).loc main_arg1)) (m ((c.tc : Thread nD τ).loc main_arg0)) (m ((c.tc : Thread nD τ).loc main_arg2)) (m ((c.tc : Thread nD τ).loc main_arg3))) (m ((c.tc : Thread nD τ).loc main_arg4)) :=
  (W6_arr m ρ c 2).trans ((RegionMM.arr2 (V5 m ρ) c).trans
    (congrArg₂ (Cert.ReferenceIdeal.Dense.matmul128 (F := Ideal)) (layer1 m ρ c hr) (holds5 m ρ c).a4))

/-- The second tail region leaves the second layer of the first layer's output. -/
theorem layer2 (c : Dev nD) (hr : ∀ e : S600000.Idx, KTake.InRange (KTake.srcOf (F := Ideal) (m ((c.tc : Thread nD τ).loc main_arg1)) e)) :
    W9 m ρ c (Proc.devRef .tc main_v53)
      = Cert.ReferenceIdeal.Layer.gcnLayer128 (F := Ideal) (m ((c.tc : Thread nD τ).loc main_arg1)) (Cert.ReferenceIdeal.Layer.gcnLayer128 (F := Ideal) (m ((c.tc : Thread nD τ).loc main_arg1)) (m ((c.tc : Thread nD τ).loc main_arg0)) (m ((c.tc : Thread nD τ).loc main_arg2)) (m ((c.tc : Thread nD τ).loc main_arg3))) (m ((c.tc : Thread nD τ).loc main_arg4)) (m ((c.tc : Thread nD τ).loc main_arg5)) := by
  have H := holds6 m ρ c
  have hr' : ∀ e : S600000.Idx, KTake.InRange (Cert.ReferenceIdeal.Layer.srcRaw (F := Ideal) (m ((c.tc : Thread nD τ).loc main_arg1)) e) := hr
  refine (W9_arr m ρ c 4).trans ((RegionCB.arr3 (V8 m ρ) c).trans ?_)
  rw [Cert.ReferenceIdeal.Dense.gcnLayer128_eq, Cert.ReferenceIdeal.Agg.aggregate128_eq]
  show Cert.ReferenceIdeal.Dense.combine128 (F := Ideal)
      (StableHlo.after (hostOps3_1 (F := Ideal)) (StableHlo.after (hostOps3 (F := Ideal)) (W6 m ρ c)) (Proc.devRef .tc main_v50))
      (StableHlo.after (hostOps3_1 (F := Ideal)) (StableHlo.after (hostOps3 (F := Ideal)) (W6 m ρ c)) (Proc.devRef .tc main_v43))
      (StableHlo.after (hostOps3_1 (F := Ideal)) (StableHlo.after (hostOps3 (F := Ideal)) (W6 m ρ c)) (Proc.devRef .tc main_v51))
      (StableHlo.after (hostOps3_1 (F := Ideal)) (StableHlo.after (hostOps3 (F := Ideal)) (W6 m ρ c)) (Proc.devRef .tc main_v52)) = _
  rw [StretchL2.agg, StretchL2.hw, StretchL2.sn, StretchL2.bias, H.src, H.dst, H.norm, H.sn, H.a5, product2 m ρ c hr,
    Mask.take128_eq_gather _ _ hr',
    Reshape.column50000 _ _ Cert.ReferenceIdeal.Facts₀.bcast_S50000_S50000x1_0, Reshape.row128 _ _ Cert.ReferenceIdeal.Facts₀.bcast_S128_S1x128_1]
  rfl

/-! ## The last layer -/

/-- The last product: the second layer's output times the one-column weight matrix. -/
theorem product3 (c : Dev nD) (hr : ∀ e : S600000.Idx, KTake.InRange (KTake.srcOf (F := Ideal) (m ((c.tc : Thread nD τ).loc main_arg1)) e)) :
    W10 m ρ c (Proc.devRef .tc main_v54)
      = Cert.ReferenceIdeal.Dense.matmul1 (F := Ideal) (Cert.ReferenceIdeal.Layer.gcnLayer128 (F := Ideal) (m ((c.tc : Thread nD τ).loc main_arg1)) (Cert.ReferenceIdeal.Layer.gcnLayer128 (F := Ideal) (m ((c.tc : Thread nD τ).loc main_arg1)) (m ((c.tc : Thread nD τ).loc main_arg0)) (m ((c.tc : Thread nD τ).loc main_arg2)) (m ((c.tc : Thread nD τ).loc main_arg3))) (m ((c.tc : Thread nD τ).loc main_arg4)) (m ((c.tc : Thread nD τ).loc main_arg5))) (m ((c.tc : Thread nD τ).loc main_arg6)) :=
  (W10_arr m ρ c 2).trans ((RegionMM.arr4 (V9 m ρ) c).trans
    (congrArg₂ (Cert.ReferenceIdeal.Dense.matmul1 (F := Ideal)) (layer2 m ρ c hr) (holds9 m ρ c).a6))

/-- The last tail region leaves the network's output. -/
theorem layer3 (c : Dev nD) (hr : ∀ e : S600000.Idx, KTake.InRange (KTake.srcOf (F := Ideal) (m ((c.tc : Thread nD τ).loc main_arg1)) e)) :
    W13 m ρ c (Proc.devRef .tc main_v63)
      = Cert.ReferenceIdeal.Layer.gcnLayer1 (F := Ideal) (m ((c.tc : Thread nD τ).loc main_arg1)) (Cert.ReferenceIdeal.Layer.gcnLayer128 (F := Ideal) (m ((c.tc : Thread nD τ).loc main_arg1)) (Cert.ReferenceIdeal.Layer.gcnLayer128 (F := Ideal) (m ((c.tc : Thread nD τ).loc main_arg1)) (m ((c.tc : Thread nD τ).loc main_arg0)) (m ((c.tc : Thread nD τ).loc main_arg2)) (m ((c.tc : Thread nD τ).loc main_arg3))) (m ((c.tc : Thread nD τ).loc main_arg4)) (m ((c.tc : Thread nD τ).loc main_arg5))) (m ((c.tc : Thread nD τ).loc main_arg6)) (m ((c.tc : Thread nD τ).loc main_arg7)) := by
  have H := holds10 m ρ c
  have hr' : ∀ e : S600000.Idx, KTake.InRange (Cert.ReferenceIdeal.Layer.srcRaw (F := Ideal) (m ((c.tc : Thread nD τ).loc main_arg1)) e) := hr
  refine (W13_arr m ρ c 4).trans ((RegionCB.arr5 (V12 m ρ) c).trans ?_)
  rw [Cert.ReferenceIdeal.Dense.gcnLayer1_eq, Cert.ReferenceIdeal.Agg.aggregate1_eq]
  show Cert.ReferenceIdeal.Dense.combine1 (F := Ideal)
      (StableHlo.after (hostOps5_1 (F := Ideal)) (StableHlo.after (hostOps5 (F := Ideal)) (W10 m ρ c)) (Proc.devRef .tc main_v60))
      (StableHlo.after (hostOps5_1 (F := Ideal)) (StableHlo.after (hostOps5 (F := Ideal)) (W10 m ρ c)) (Proc.devRef .tc main_v54))
      (StableHlo.after (hostOps5_1 (F := Ideal)) (StableHlo.after (hostOps5 (F := Ideal)) (W10 m ρ c)) (Proc.devRef .tc main_v61))
      (StableHlo.after (hostOps5_1 (F := Ideal)) (StableHlo.after (hostOps5 (F := Ideal)) (W10 m ρ c)) (Proc.devRef .tc main_v62)) = _
  rw [StretchL3.agg, StretchL3.hw, StretchL3.sn, StretchL3.bias, H.src, H.dst, H.norm, H.sn, H.a7, product3 m ρ c hr,
    Mask.take1_eq_gather _ _ hr',
    Reshape.column50000 _ _ Cert.ReferenceIdeal.Facts₀.bcast_S50000_S50000x1_0, Reshape.row1 _ _ Cert.ReferenceIdeal.Facts₀.bcast_S1_S1x1_1]
  rfl

/-- THE VALUE: where every source index names a row, the result buffer after the run is the three-layer network of the
    argument arrays as launched. -/
theorem value (c : Dev nD) (hr : ∀ e : S600000.Idx, KTake.InRange (KTake.srcOf (F := Ideal) (m ((c.tc : Thread nD τ).loc main_arg1)) e)) :
    W13 m ρ c (Proc.devRef .tc main_v63)
      = Cert.ReferenceIdeal.Layer.network (F := Ideal) (m ((c.tc : Thread nD τ).loc main_arg1)) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  layer3 m ρ c hr

end Cert.KernelIdeal.KChain

end
-- ==== Proof.RefValue.lean ====
/-
  The reference's result is the three-layer network of the argument arrays: its run's composed term, unfolded, is
  `network` applied to the edge list, the node features and the three weight–bias pairs.
-/
import proofs.«404270_j75642964017424_1_alg».proof.Proof.Gen.ReferenceIdeal.Run
import proofs.«404270_j75642964017424_1_alg».proof.Proof.Layer

noncomputable section

namespace Cert.ReferenceIdeal.RefValue

open Cert.ReferenceIdeal Cert.ReferenceIdeal.Gen Cert.ReferenceIdeal.Layer Idealize.ShloMosaic Idealize.ShloMosaic.TcCoe Idealize.SL.Sem

variable {F : FTy → Type} [FloatOps F]

set_option maxRecDepth 16384 in
/-- The run's result term is the network of the launch contents of the eight arguments. -/
theorem res_eq_network (m : (ℓ : Loc nD τ sig) → Buf (Elt F) ℓ) (c : Dev nD) :
    Cert.ReferenceIdeal.Value.res_main_v95 m c
      = network (F := F) (m ((c.tc : Thread nD τ).loc main_arg1)) (m ((c.tc : Thread nD τ).loc main_arg0))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)) := by
  unfold Cert.ReferenceIdeal.Value.res_main_v95 network gcnLayer1 gcnLayer128 edgeNorm selfNorm dis col wrapIdx srcRaw dstRaw
  rfl

end Cert.ReferenceIdeal.RefValue

end
-- ==== Proof.lean ====
/-
  A three-layer graph convolution, the dense parts as kernels, against its plain reference.

  Both programs compute, from node features `x`, an edge list and three weight–bias pairs, three times over

      h ↦ relu( (Σ_{e : dst e = v} (h W)[src e] · norm e  +  (h W)[v] · sn v)  +  b ),

  with `norm e = dis(src e) · dis(dst e)`, `sn v = dis(v)²`, `dis = (1 + in-degree)^(-1/2)`. The reference does it with whole-array
  host operations. The kernel program does the product `h W` and the tail `relu((agg + hw · sn) + b)` in kernel regions over
  blocks of 5000 nodes (at the ideal instance a change of float format is the identity and a block product into a zero
  accumulator is the plain sum, so the blocks assemble to the host's product and tail), and the edge gather and sum with the
  same host operations as the reference, except that its row gather fills with a junk value where a source index names
  no row of the table, while the reference's gather clamps. The precondition keeps every source index inside the table,
  counted from either end (`-50000 ≤ src < 50000`: outside it the reference itself indexes out of range); there the fill is
  never chosen and the two programs are one function of the arguments, the three-layer `network`.

  The kernel's run with its result buffer named, the value of that buffer layer by layer, and the reference's run are in
  the modules imported here; this file joins them. No idealization rewrote the kernel, so `preserves` is trivial. No law
  of the extended reals beyond reading sums and products at an index is used, and so neither is the inputs' finiteness.
-/
import proofs.«404270_j75642964017424_1_alg».proof.Defs
import proofs.«404270_j75642964017424_1_alg».proof.Proof.Gen.Kernel
import proofs.«404270_j75642964017424_1_alg».proof.Proof.Gen.Kernel.Frame
import proofs.«404270_j75642964017424_1_alg».proof.Proof.Gen.KernelIdeal
import proofs.«404270_j75642964017424_1_alg».proof.Proof.Gen.KernelIdeal.Frame
import proofs.«404270_j75642964017424_1_alg».proof.Proof.Gen.ReferenceIdeal
import proofs.«404270_j75642964017424_1_alg».proof.Proof.Gen.ReferenceIdeal.Run
import proofs.«404270_j75642964017424_1_alg».proof.Proof.Gen.Pre_finite_inputs
import proofs.«404270_j75642964017424_1_alg».proof.Proof.RunValue
import proofs.«404270_j75642964017424_1_alg».proof.Proof.KChain
import proofs.«404270_j75642964017424_1_alg».proof.Proof.RefValue
import proofs.«404270_j75642964017424_1_alg».proof.Proof.Mask
import Idealize.ShloMosaic.Adequacy
import Idealize.ShloMosaic.Init

set_option maxRecDepth 16384

noncomputable section

namespace Cert.Proof

open Idealize.ShloMosaic Idealize.ShloMosaic.TcCoe Idealize.SL.Sem

/-- The word-level kernel runs and leaves its arguments alone. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs end with the three-layer network of the arguments: the kernel's result buffer by the value of the last
    boundary (`KChain.value`, under the source indices' range the precondition states), the reference's by its run's term
    unfolded (`res_eq_network`), the arguments' agreement rewritten. -/
theorem algebraic : Cert.algebraic_KernelIdeal_ReferenceIdeal := by
  intro m ρ m' ρ' hpre hagree
  refine ⟨fun c => Cert.ReferenceIdeal.Layer.network (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.KChain.value m ρ c
          (fun e => Cert.KernelIdeal.Mask.src_inRange_of_pre m hpre c e)), (h c).2⟩)
      (Cert.KernelIdeal.RunValue.run_value (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.RefValue.res_eq_network]
    obtain ⟨e0, e1, e2, e3, e4, e5, e6, e7⟩ := hagree c
    rw [e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
